-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S64 : Shape := ⟨1, ![64]⟩
abbrev S200000x256 : Shape := ⟨2, ![200000, 256]⟩
abbrev S_ : Shape := ⟨0, ![]⟩

class Facts : Prop where
  bcast_S_S64x256 : S_.BroadcastsInDim S64x256 (![] : Fin 0 → Fin S64x256.rank)
  reducesTo_S64x256_S_d0_1 : S64x256.ReducesTo [0, 1] S_
  h_S_ : 0 < S_.numel
  bcast_S_S64 : S_.BroadcastsInDim S64 (![] : Fin 0 → Fin S64.rank)
  reducesTo_S64_S_d0 : S64.ReducesTo [0] S_
  bcast_S_S200000x256 : S_.BroadcastsInDim S200000x256 (![] : Fin 0 → Fin S200000x256.rank)
  reducesTo_S200000x256_S_d0_1 : S200000x256.ReducesTo [0, 1] S_

variable [Facts]

def fn_part1 {F : FTy → Type} [FloatOps F] (main_arg3 : IVec S64 32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_c_6 : IVec S_ 32 := constantI S_ 32 200000#32
  let main_v18 : IVec S64 32 := broadcastInDim S64 ![] bcast_S_S64 main_c_6
  let main_v19 : IVec S64 1 := cmpi .slt main_arg3 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S64x256 .f32) (main_arg1 : FVec F S64 .f32) (main_arg2 : FVec F S200000x256 .f32) (main_arg3 : IVec S64 32) : IVec S_ 1 :=
  let main_v0 : FVec F S64x256 .f32 := Host.absf main_arg0
  let main_cst : FVec F S_ .f32 := constant S_ .f32 0x7F800000#32
  let main_v1 : FVec F S64x256 .f32 := broadcastInDim S64x256 ![] bcast_S_S64x256 main_cst
  let main_v2 : IVec S64x256 1 := cmpf .olt main_v0 main_v1
  let main_c : IVec S_ 1 := constantI S_ 1 1#1
  let main_v3 : IVec S_ 1 := (fun x v => Host.reduce IntOp.andi x v reducesTo_S64x256_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg3 main_v14
  let main_c_5 : IVec S_ 1 := constantI S_ 1 1#1
  fn_part1 (F := F) main_arg3 main_v13 main_v15 main_c_5
-- ==== Kernel.lean ====
abbrev S64x256 : Shape := ⟨2, ![64, 256]⟩
abbrev S64 : Shape := ⟨1, ![64]⟩
abbrev S200000x256 : Shape := ⟨2, ![200000, 256]⟩
abbrev S_ : Shape := ⟨0, ![]⟩
abbrev S64x1 : Shape := ⟨2, ![64, 1]⟩
abbrev S2x64x1 : Shape := ⟨3, ![2, 64, 1]⟩
abbrev S5000x256 : Shape := ⟨2, ![5000, 256]⟩
abbrev S1x64x1 : Shape := ⟨3, ![1, 64, 1]⟩
abbrev S64x5000 : Shape := ⟨2, ![64, 5000]⟩
abbrev S1x5000 : Shape := ⟨2, ![1, 5000]⟩

abbrev nBuf : Space → Nat
  | .hbm => 85
  | .vmem => 15
  | .smem => 0
  | _ => 0

abbrev bufTy : (tb : Table) → Fin (tcTables nBuf tb) → BufTy
  | .hbm, ⟨0, _⟩ => ⟨S64x256, .f32⟩
  | .hbm, ⟨1, _⟩ => ⟨S64, .f32⟩
  | .hbm, ⟨2, _⟩ => ⟨S200000x256, .f32⟩
  | .hbm, ⟨3, _⟩ => ⟨S64, .i32⟩
  | .hbm, ⟨4, _⟩ => ⟨S64x256, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x256, .f32⟩
  | .hbm, ⟨13, _⟩ => ⟨S64x256, .f32⟩
  | .hbm, ⟨14, _⟩ => ⟨S64x1, .i32⟩
  | .hbm, ⟨15, _⟩ => ⟨S200000x256, .f32⟩
  | .hbm, ⟨16, _⟩ => ⟨S2x64x1, .f32⟩
  | .hbm, ⟨17, _⟩ => ⟨S2x64x1, .f32⟩
  | .hbm, ⟨18, _⟩ => ⟨S2x64x1, .f32⟩
  | .hbm, ⟨19, _⟩ => ⟨S1x64x1, .f32⟩
  | .hbm, ⟨20, _⟩ => ⟨S64x1, .f32⟩
  | .hbm, ⟨21, _⟩ => ⟨S1x64x1, .f32⟩
  | .hbm, ⟨22, _⟩ => ⟨S64x1, .f32⟩
  | .hbm, ⟨23, _⟩ => ⟨S1x64x1, .f32⟩
  | .hbm, ⟨24, _⟩ => ⟨S64x1, .f32⟩
  | .hbm, ⟨25, _⟩ => ⟨S1x64x1, .f32⟩
  | .hbm, ⟨26, _⟩ => ⟨S64x1, .f32⟩
  | .hbm, ⟨27, _⟩ => ⟨S1x64x1, .f32⟩
  | .hbm, ⟨28, _⟩ => ⟨S64x1, .f32⟩
  | .hbm, ⟨29, _⟩ => ⟨S1x64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x1, .f32⟩
  | .hbm, ⟨36, _⟩ => ⟨S64x1, .f32⟩
  | .hbm, ⟨37, _⟩ => ⟨S64x1, .f32⟩
  | .hbm, ⟨38, _⟩ => ⟨S64x1, .f32⟩
  | .hbm, ⟨39, _⟩ => ⟨S64x1, .f32⟩
  | .hbm, ⟨40, _⟩ => ⟨S64x1, .f32⟩
  | .hbm, ⟨41, _⟩ => ⟨S64x1, .f32⟩
  | .hbm, ⟨42, _⟩ => ⟨S64x1, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S64x1, .i32⟩
  | .hbm, ⟨55, _⟩ => ⟨S64x256, .f32⟩
  | .hbm, ⟨56, _⟩ => ⟨S_, .f32⟩
  | .hbm, ⟨57, _⟩ => ⟨S64x256, .f32⟩
  | .hbm, ⟨58, _⟩ => ⟨S64x256, .f32⟩
  | .hbm, ⟨59, _⟩ => ⟨S64x1, .f32⟩
  | .hbm, ⟨60, _⟩ => ⟨S_, .f32⟩
  | .hbm, ⟨61, _⟩ => ⟨S64x1, .f32⟩
  | .hbm, ⟨62, _⟩ => ⟨S64x1, .f32⟩
  | .hbm, ⟨63, _⟩ => ⟨S64x256, .f32⟩
  | .hbm, ⟨64, _⟩ => ⟨S64x256, .f32⟩
  | .hbm, ⟨65, _⟩ => ⟨S64x256, .f32⟩
  | .hbm, ⟨66, _⟩ => ⟨S64x256, .f32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x256, .f32⟩
  | .hbm, ⟨75, _⟩ => ⟨S64x256, .f32⟩
  | .hbm, ⟨76, _⟩ => ⟨S_, .i32⟩
  | .hbm, ⟨77, _⟩ => ⟨S64, .i32⟩
  | .hbm, ⟨78, _⟩ => ⟨S64, .i1⟩
  | .hbm, ⟨79, _⟩ => ⟨S_, .i32⟩
  | .hbm, ⟨80, _⟩ => ⟨S64, .i32⟩
  | .hbm, ⟨81, _⟩ => ⟨S64, .i32⟩
  | .hbm, ⟨82, _⟩ => ⟨S64, .i32⟩
  | .hbm, ⟨83, _⟩ => ⟨S64x1, .i32⟩
  | .hbm, ⟨84, _⟩ => ⟨S200000x256, .f32⟩
  | .local _ .vmem, ⟨0, _⟩ => ⟨S64x256, .f32⟩
  | .local _ .vmem, ⟨1, _⟩ => ⟨S64x1, .i32⟩
  | .local _ .vmem, ⟨2, _⟩ => ⟨S5000x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S1x64x1, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_c_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_v0 : Ref sig .tc := ⟨.hbm, 66, rfl⟩
abbrev main_call1_cst : Ref sig .tc := ⟨.hbm, 67, rfl⟩
abbrev main_call1_v1 : Ref sig .tc := ⟨.hbm, 68, rfl⟩
abbrev main_call1_v2 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_5 : Ref sig .tc := ⟨.hbm, 76, rfl⟩
abbrev main_v54 : Ref sig .tc := ⟨.hbm, 77, rfl⟩
abbrev main_v55 : Ref sig .tc := ⟨.hbm, 78, rfl⟩
abbrev main_c_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v53 : BitVec 1 := Scalar.cmpi .eq arg1 c19_i32
  let v54 : BitVec 32 := Scalar.extui v53
  let c0_i32_27 : BitVec 32 := 0#32
  let v55 : BitVec 1 := Scalar.cmpi .ne v54 c0_i32_27
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S64x256_S64_d1 : S64x256.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  iota_S1x5000_d1_w32 : S1x5000.Iotas .tc 32 [1]
  broadcasts_S64x1_S64x5000 : S64x1.Broadcasts S64x5000
  broadcasts_S1x5000_S64x5000 : S1x5000.Broadcasts S64x5000
  reduces_S64x5000_S64 : S64x5000.Reduces [1] S64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  slices_S2x64x1_S1x64x1_0_0_0 : S2x64x1.Slices ![0, 0, 0] S1x64x1
  slices_S2x64x1_S1x64x1_1_0_0 : S2x64x1.Slices ![1, 0, 0] S1x64x1
  shapeCasts_S64x1_S64 : S64x1.ShapeCasts S64
  reducesTo_S64_S_d0 : S64.ReducesTo [0] S_
  bcast_S_S64 : S_.BroadcastsInDim S64 (![] : Fin 0 → Fin S64.rank)
  bcast_S_S64x256 : S_.BroadcastsInDim S64x256 (![] : Fin 0 → Fin S64x256.rank)
  dot_S64x256_S5000x256_S64x5000_1_1_0_0_n_n_wf : DotDims.WF S64x256 S5000x256 S64x5000 [1] [1] [0] [0] [] []
  gather_S200000x256_S64x1_S64x256_1_0_n_n_0_1_1256_wf : GatherDims.WF S200000x256 S64x1 S64x256 [1] [0] [] [0] [] 1 ![1, 256]
  scatter_S200000x256_S64x1_S64x256_1_0_0_1_wf : ScatterDims.WF S200000x256 S64x1 S64x256 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x256.size a
  hwx0_0 : ∀ i : grid0.Coords, EltTy.bits .f32 = 32 ∨ (Rect.block (s := S64x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .i32 = 32 ∨ (Rect.block (s := S64x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S200000x256.size a
  hwx0_2 : ∀ i : grid0.Coords, EltTy.bits .f32 = 32 ∨ (Rect.block (s := S200000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S200000x256.size a
  hwx0_3 : ∀ i : grid0.Coords, EltTy.bits .f32 = 32 ∨ (Rect.block (s := S200000x256) S5000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S2x64x1.size a
  hwx0_5 : ∀ i : grid0.Coords, EltTy.bits .f32 = 32 ∨ (Rect.block (s := S2x64x1) S1x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1.size a ≤ S2x64x1.size a
  hwx0_6 : ∀ i : grid0.Coords, EltTy.bits .f32 = 32 ∨ (Rect.block (s := S2x64x1) S1x64x1.size (cc0_transform_6 i) (hinb0_6 i)).WholeWords (EltTy.packing .f32)

variable [Facts₀]

def dot_S64x256_S5000x256_S64x5000_1_1_0_0_n_n : DotDims S64x256 S5000x256 S64x5000 where
  lhsContracting := [1]
  rhsContracting := [1]
  lhsNonContracting := [0]
  rhsNonContracting := [0]
  lhsBatch := []
  rhsBatch := []
  wf := dot_S64x256_S5000x256_S64x5000_1_1_0_0_n_n_wf
def gather_S200000x256_S64x1_S64x256_1_0_n_n_0_1_1256 : GatherDims S200000x256 S64x1 S64x256 where
  offsetDims := [1]
  collapsedSliceDims := [0]
  operandBatchingDims := []
  startIndicesBatchingDims := []
  startIndexMap := [0]
  indexVectorDim := 1
  sliceSizes := ![1, 256]
  wf := gather_S200000x256_S64x1_S64x256_1_0_n_n_0_1_1256_wf
def scatter_S200000x256_S64x1_S64x256_1_0_0_1 : ScatterDims S200000x256 S64x1 S64x256 where
  updateWindowDims := [1]
  insertedWindowDims := [0]
  scatterDimsToOperandDims := [0]
  indexVectorDim := 1
  wf := scatter_S200000x256_S64x1_S64x256_1_0_0_1_wf

abbrev win0_0 : Pipeline.Window sig grid0 :=
  Pipeline.Window.ofSpec (Memref.whole main_v4) S64x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S5000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_3) S1x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x256 : Shape := ⟨2, ![64, 256]⟩
abbrev S64 : Shape := ⟨1, ![64]⟩
abbrev S200000x256 : Shape := ⟨2, ![200000, 256]⟩
abbrev S_ : Shape := ⟨0, ![]⟩
abbrev S64x1 : Shape := ⟨2, ![64, 1]⟩
abbrev S64x200000 : Shape := ⟨2, ![64, 200000]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64, .f32⟩
  | .hbm, ⟨2, _⟩ => ⟨S200000x256, .f32⟩
  | .hbm, ⟨3, _⟩ => ⟨S64, .i32⟩
  | .hbm, ⟨4, _⟩ => ⟨S64x256, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x256, .f32⟩
  | .hbm, ⟨13, _⟩ => ⟨S64x256, .f32⟩
  | .hbm, ⟨14, _⟩ => ⟨S64x200000, .f32⟩
  | .hbm, ⟨15, _⟩ => ⟨S_, .f32⟩
  | .hbm, ⟨16, _⟩ => ⟨S64x200000, .f32⟩
  | .hbm, ⟨17, _⟩ => ⟨S64x200000, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S64x200000, .f32⟩
  | .hbm, ⟨25, _⟩ => ⟨S64x200000, .f32⟩
  | .hbm, ⟨26, _⟩ => ⟨S64x200000, .f32⟩
  | .hbm, ⟨27, _⟩ => ⟨S_, .f32⟩
  | .hbm, ⟨28, _⟩ => ⟨S64, .f32⟩
  | .hbm, ⟨29, _⟩ => ⟨S64x1, .f32⟩
  | .hbm, ⟨30, _⟩ => ⟨S64x1, .f32⟩
  | .hbm, ⟨31, _⟩ => ⟨S64x200000, .f32⟩
  | .hbm, ⟨32, _⟩ => ⟨S64x200000, .f32⟩
  | .hbm, ⟨33, _⟩ => ⟨S64x1, .i32⟩
  | .hbm, ⟨34, _⟩ => ⟨S_, .i32⟩
  | .hbm, ⟨35, _⟩ => ⟨S64x1, .i32⟩
  | .hbm, ⟨36, _⟩ => ⟨S64x1, .i1⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S64x1, .i32⟩
  | .hbm, ⟨41, _⟩ => ⟨S64x1x1, .i32⟩
  | .hbm, ⟨42, _⟩ => ⟨S1, .i32⟩
  | .hbm, ⟨43, _⟩ => ⟨S_, .i32⟩
  | .hbm, ⟨44, _⟩ => ⟨S64x1x1, .i32⟩
  | .hbm, ⟨45, _⟩ => ⟨S64x1x1, .i1⟩
  | .hbm, ⟨46, _⟩ => ⟨S1x1x1, .i32⟩
  | .hbm, ⟨47, _⟩ => ⟨S64x1x1, .i32⟩
  | .hbm, ⟨48, _⟩ => ⟨S64x1x1, .i1⟩
  | .hbm, ⟨49, _⟩ => ⟨S64x1x1, .i1⟩
  | .hbm, ⟨50, _⟩ => ⟨S_, .i1⟩
  | .hbm, ⟨51, _⟩ => ⟨S64x1, .i1⟩
  | .hbm, ⟨52, _⟩ => ⟨S64x1, .f32⟩
  | .hbm, ⟨53, _⟩ => ⟨S_, .f32⟩
  | .hbm, ⟨54, _⟩ => ⟨S64x1, .f32⟩
  | .hbm, ⟨55, _⟩ => ⟨S64x1, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .i32⟩
  | .hbm, ⟨69, _⟩ => ⟨S64x256, .f32⟩
  | .hbm, ⟨70, _⟩ => ⟨S_, .f32⟩
  | .hbm, ⟨71, _⟩ => ⟨S64x256, .f32⟩
  | .hbm, ⟨72, _⟩ => ⟨S64x256, .f32⟩
  | .hbm, ⟨73, _⟩ => ⟨S64x1, .f32⟩
  | .hbm, ⟨74, _⟩ => ⟨S_, .f32⟩
  | .hbm, ⟨75, _⟩ => ⟨S64x1, .f32⟩
  | .hbm, ⟨76, _⟩ => ⟨S64x1, .f32⟩
  | .hbm, ⟨77, _⟩ => ⟨S64x256, .f32⟩
  | .hbm, ⟨78, _⟩ => ⟨S64x256, .f32⟩
  | .hbm, ⟨79, _⟩ => ⟨S64x256, .f32⟩
  | .hbm, ⟨80, _⟩ => ⟨S64x256, .f32⟩
  | .hbm, ⟨81, _⟩ => ⟨S_, .f32⟩
  | .hbm, ⟨82, _⟩ => ⟨S64, .f32⟩
  | .hbm, ⟨83, _⟩ => ⟨S64x1, .f32⟩
  | .hbm, ⟨84, _⟩ => ⟨S64x1, .f32⟩
  | .hbm, ⟨85, _⟩ => ⟨S_, .f32⟩
  | .hbm, ⟨86, _⟩ => ⟨S64x1, .f32⟩
  | .hbm, ⟨87, _⟩ => ⟨S64x1, .f32⟩
  | .hbm, ⟨88, _⟩ => ⟨S64x256, .f32⟩
  | .hbm, ⟨89, _⟩ => ⟨S64x256, .f32⟩
  | .hbm, ⟨90, _⟩ => ⟨S_, .i32⟩
  | .hbm, ⟨91, _⟩ => ⟨S64, .i32⟩
  | .hbm, ⟨92, _⟩ => ⟨S64, .i1⟩
  | .hbm, ⟨93, _⟩ => ⟨S_, .i32⟩
  | .hbm, ⟨94, _⟩ => ⟨S64, .i32⟩
  | .hbm, ⟨95, _⟩ => ⟨S64, .i32⟩
  | .hbm, ⟨96, _⟩ => ⟨S64, .i32⟩
  | .hbm, ⟨97, _⟩ => ⟨S64x1, .i32⟩
  | .hbm, ⟨98, _⟩ => ⟨S200000x256, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v8 : Ref sig .tc := ⟨.hbm, 32, rfl⟩
abbrev main_v9 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_1 : Ref sig .tc := ⟨.hbm, 59, rfl⟩
abbrev main_v14 : Ref sig .tc := ⟨.hbm, 60, rfl⟩
abbrev main_c : Ref sig .tc := ⟨.hbm, 61, rfl⟩
abbrev main_v15 : Ref sig .tc := ⟨.hbm, 62, rfl⟩
abbrev main_v16 : Ref sig .tc := ⟨.hbm, 63, rfl⟩
abbrev main_c_2 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_3 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_4 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_call3_v0 : Ref sig .tc := ⟨.hbm, 80, rfl⟩
abbrev main_call3_cst : Ref sig .tc := ⟨.hbm, 81, rfl⟩
abbrev main_call3_v1 : Ref sig .tc := ⟨.hbm, 82, rfl⟩
abbrev main_call3_v2 : Ref sig .tc := ⟨.hbm, 83, rfl⟩
abbrev main_v30 : Ref sig .tc := ⟨.hbm, 84, rfl⟩
abbrev main_cst_5 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_c_6 : Ref sig .tc := ⟨.hbm, 90, rfl⟩
abbrev main_v35 : Ref sig .tc := ⟨.hbm, 91, rfl⟩
abbrev main_v36 : Ref sig .tc := ⟨.hbm, 92, rfl⟩
abbrev main_c_7 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S64x256_S64_d1 : S64x256.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S_S64x200000 : S_.BroadcastsInDim S64x200000 (![] : Fin 0 → Fin S64x200000.rank)
  reducesTo_S64x200000_S64_d1 : S64x200000.ReducesTo [1] S64
  bcast_S_S64 : S_.BroadcastsInDim S64 (![] : Fin 0 → Fin S64.rank)
  bcast_S64x1_S64x200000_0_1 : S64x1.BroadcastsInDim S64x200000 (![0, 1] : Fin 2 → Fin S64x200000.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  shapeCasts_S64x1_S64 : S64x1.ShapeCasts S64
  reducesTo_S64_S_d0 : S64.ReducesTo [0] S_
  bcast_S_S64x256 : S_.BroadcastsInDim S64x256 (![] : Fin 0 → Fin S64x256.rank)
  dot_S64x256_S200000x256_S64x200000_1_1_0_0_n_n_wf : DotDims.WF S64x256 S200000x256 S64x200000 [1] [1] [0] [0] [] []
  gather_S64x200000_S64x1x1_S64x1_n_1_0_0_1_2_11_wf : GatherDims.WF S64x200000 S64x1x1 S64x1 [] [1] [0] [1] [0] 2 ![1, 1]
  gather_S200000x256_S64x1_S64x256_1_0_n_n_0_1_1256_wf : GatherDims.WF S200000x256 S64x1 S64x256 [1] [0] [] [0] [] 1 ![1, 256]
  scatter_S200000x256_S64x1_S64x256_1_0_0_1_wf : ScatterDims.WF S200000x256 S64x1 S64x256 [1] [0] [0] 1

variable [Facts₀]

def dot_S64x256_S200000x256_S64x200000_1_1_0_0_n_n : DotDims S64x256 S200000x256 S64x200000 where
  lhsContracting := [1]
  rhsContracting := [1]
  lhsNonContracting := [0]
  rhsNonContracting := [0]
  lhsBatch := []
  rhsBatch := []
  wf := dot_S64x256_S200000x256_S64x200000_1_1_0_0_n_n_wf
def gather_S64x200000_S64x1x1_S64x1_n_1_0_0_1_2_11 : GatherDims S64x200000 S64x1x1 S64x1 where
  offsetDims := []
  collapsedSliceDims := [1]
  operandBatchingDims := [0]
  startIndicesBatchingDims := [0]
  startIndexMap := [1]
  indexVectorDim := 2
  sliceSizes := ![1, 1]
  wf := gather_S64x200000_S64x1x1_S64x1_n_1_0_0_1_2_11_wf
def gather_S200000x256_S64x1_S64x256_1_0_n_n_0_1_1256 : GatherDims S200000x256 S64x1 S64x256 where
  offsetDims := [1]
  collapsedSliceDims := [0]
  operandBatchingDims := []
  startIndicesBatchingDims := []
  startIndexMap := [0]
  indexVectorDim := 1
  sliceSizes := ![1, 256]
  wf := gather_S200000x256_S64x1_S64x256_1_0_n_n_0_1_1256_wf
def scatter_S200000x256_S64x1_S64x256_1_0_0_1 : ScatterDims S200000x256 S64x1 S64x256 where
  updateWindowDims := [1]
  insertedWindowDims := [0]
  scatterDimsToOperandDims := [0]
  indexVectorDim := 1
  wf := scatter_S200000x256_S64x1_S64x256_1_0_0_1_wf

class Facts : Prop extends Facts₀ where

variable [Facts]
-- ==== Proof.K.Base.lean ====
/-
  What every module of the kernel program's frame shares: the two conditions the body branches on, read off the grid
  coordinates and decided over the 2 x 20 grid (the reset of the running statistics at a core's first tile, the write of
  the per-core statistics at its last tile); the staging memref each window is on at a point; the three scratch buffers
  (running maximum, running sum of exponentials, running target logit) as whole memrefs and as views.
-/
import proofs.«403753_j46050639347844_2_alg».proof.Proof.Gen.Kernel.Launch
import proofs.«403753_j46050639347844_2_alg».proof.Proof.Gen.Kernel.Skeleton
import proofs.«403753_j46050639347844_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The body's two branches -/

/-- The first branch: the second grid coordinate (the tile within a core's half of the bank) is zero. -/
abbrev cond0_0 (i : grid0.Coords) : Prop :=
  (Scalar.cmpi .ne (Scalar.extui (Scalar.cmpi .eq (BitVec.ofNat 32 (i 1).val) 0#32)) 0#32) = 1#1
/-- Over the 40 points it holds exactly at the points that are 0 modulo 20: each core's first tile. -/
theorem hcond0_0 : ∀ t : Fin cfg0.N, cond0_0 (grid0.coords t) ↔ t.val % 20 = 0 :=
  (by decide +kernel : ∀ t : Fin grid0.N, cond0_0 (grid0.coords t) ↔ t.val % 20 = 0)

/-- The second branch: the tile is the last of its core's twenty. -/
abbrev cond0_1 (i : grid0.Coords) : Prop := k0_cond2 i = 1#1
/-- It holds exactly at the points that are 19 modulo 20. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Staging memrefs at a point, scratch memrefs, views -/

abbrev ms0_0 (t : Fin cfg0.N) : Memref sig .tc .vmem S64x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x1 .f32 := win0_6.stage (cfg0.slots t 6)
abbrev hs0_6 (t : Fin cfg0.N) : (ms0_6 t).IsWhole := hstage0_6 ((cfg0.slots t 6).cast nbuf0_6)

/-- The running maximum, the running sum of exponentials, the running target logit: whole scoped buffers of the kernel. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x1 .f32 := Memref.whole cc0_scratch2
abbrev VS0_0 : View sig .tc .vmem S64x1 .f32 := scM0_0.view
abbrev VS0_1 : View sig .tc .vmem S64x1 .f32 := scM0_1.view
abbrev VS0_2 : View sig .tc .vmem S64x1 .f32 := scM0_2.view

/-- One staging buffer of each output window, through which its contents are stated (the choice does not matter). -/
abbrev VO0_3 : View sig .tc .vmem S5000x256 .f32 := (Memref.whole cc0_stg3_0 : Memref sig .tc .vmem S5000x256 .f32).view
abbrev VO0_4 : View sig .tc .vmem S1x64x1 .f32 := (Memref.whole cc0_stg4_0 : Memref sig .tc .vmem S1x64x1 .f32).view
abbrev VO0_5 : View sig .tc .vmem S1x64x1 .f32 := (Memref.whole cc0_stg5_0 : Memref sig .tc .vmem S1x64x1 .f32).view
abbrev VO0_6 : View sig .tc .vmem S1x64x1 .f32 := (Memref.whole cc0_stg6_0 : Memref sig .tc .vmem S1x64x1 .f32).view

end Cert.Kernel.Fr

end
-- ==== Proof.K.Vals.lean ====
/-
  The arrays as the region finds them and the windows' blocks.

  Core `c`'s buffers when the pallas_call is entered are the launch contents after the eleven host operations before
  it (the row-wise normalisation of the queries and the reshape of the targets to a column); window `w`'s block at
  grid point `t` is read off its array there.
-/
import proofs.«403753_j46050639347844_2_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s TensorCore buffer contents when the region is entered, as a valuation. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.K.Shared.lean ====
/-
  What the modules of the kernel program's frame share. @main is read as the host lines before the one pipelined
  region (the row norms of the queries, their division by the clamped norms, the targets as a column), the region,
  and the host lines after it (the two cores' statistics merged into the loss, the momentum update of the target
  rows and its scatter into the bank). Stated here: that an argument still holds its launch contents when the region
  is entered, and an input's staging buffer its block at every point; that no host line writes an argument or an array
  of the pipeline, each writing only the buffer of its own result; at which points each of the seven windows is live;
  and the region invariant with the three running statistics as owned memrefs.
-/
import proofs.«403753_j46050639347844_2_alg».proof.Proof.K.Vals

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A host line allocates nothing: each of the five stretches, operation by operation. -/
theorem hostOps0_fresh : (hostOps0 : List (HloOp τ sig (Elt F))).Forall fun op => op.fresh = ∅ := by
  repeat' apply And.intro
  all_goals rfl
theorem hostOps0_1_fresh : (hostOps0_1 : List (HloOp τ sig (Elt F))).Forall fun op => op.fresh = ∅ := by
  repeat' apply And.intro
  all_goals rfl
theorem hostOps1_fresh : (hostOps1 : List (HloOp τ sig (Elt F))).Forall fun op => op.fresh = ∅ := by
  repeat' apply And.intro
  all_goals rfl
theorem hostOps1_1_fresh : (hostOps1_1 : List (HloOp τ sig (Elt F))).Forall fun op => op.fresh = ∅ := by
  repeat' apply And.intro
  all_goals rfl
theorem hostOps1_2_fresh : (hostOps1_2 : List (HloOp τ sig (Elt F))).Forall fun op => op.fresh = ∅ := by
  repeat' apply And.intro
  all_goals rfl

set_option maxHeartbeats 1000000 in
/-- @main is the two stretches of host lines before the region, the region, and the three stretches after it: it
    reduces to the region continued by the later lines, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1] [hostOps1, hostOps1_1, hostOps1_2]
    ⟨hostOps0_sub, hostOps0_1_sub⟩ ⟨hostOps0_fresh, hostOps0_1_fresh⟩ main_chain

/-! ## What a host line writes -/

/-- The four arguments of @main. -/
abbrev argRefs : List (Ref sig .tc) := [main_arg0, main_arg1, main_arg2, main_arg3]
/-- The four arguments and the seven arrays the pipeline stages (the bank, an argument, is one of them): what the
    lines after the region must leave alone. -/
abbrev keptRefs : List (Ref sig .tc) :=
  [main_arg0, main_arg1, main_arg2, main_arg3, main_v4, main_v5, main_v6_0, main_v6_1, main_v6_2, main_v6_3]

/-- The operation writes exactly one buffer, and that buffer is none of the list K. -/
def WritesOutside (K : List (Ref sig .tc)) (op : HloOp τ sig (Elt F)) : Prop :=
  ∃ y : Ref sig .tc, op.writes = {Proc.devRef .tc y} ∧ y ∉ K

/-- Such an operation writes no buffer of K: distinct references are distinct device buffers. -/
theorem WritesOutside.not_mem {K : List (Ref sig .tc)} {op : HloOp τ sig (Elt F)} (h : WritesOutside K op)
    {b : Ref sig .tc} (hb : b ∈ K) : Proc.devRef .tc b ∉ op.writes := by
  obtain ⟨y, hy, hK⟩ := h
  rw [hy, Finset.mem_singleton]
  intro e
  exact hK (Proc.devRef_injective _ e ▸ hb)

/-- The lines before the region write only their own results (the last two of which are the queries' and the targets'
    arrays), never an argument. -/
theorem hostOps0_own : (hostOps0 : List (HloOp τ sig (Elt F))).Forall (WritesOutside argRefs) := by
  simp only [List.Forall]
  repeat' apply And.intro
  all_goals exact ⟨_, rfl, by decide⟩
theorem hostOps0_1_own : (hostOps0_1 : List (HloOp τ sig (Elt F))).Forall (WritesOutside argRefs) := by
  simp only [List.Forall]
  repeat' apply And.intro
  all_goals exact ⟨_, rfl, by decide⟩
/-- The lines after the region write only their own results: no argument, no array of the pipeline. -/
theorem hostOps1_own : (hostOps1 : List (HloOp τ sig (Elt F))).Forall (WritesOutside keptRefs) := by
  simp only [List.Forall]
  repeat' apply And.intro
  all_goals exact ⟨_, rfl, by decide⟩
theorem hostOps1_1_own : (hostOps1_1 : List (HloOp τ sig (Elt F))).Forall (WritesOutside keptRefs) := by
  simp only [List.Forall]
  repeat' apply And.intro
  all_goals exact ⟨_, rfl, by decide⟩
theorem hostOps1_2_own : (hostOps1_2 : List (HloOp τ sig (Elt F))).Forall (WritesOutside keptRefs) := by
  simp only [List.Forall]
  repeat' apply And.intro
  all_goals exact ⟨_, rfl, by decide⟩

/-- Every operation before the region, taken from the flattened stretches. -/
theorem prefix_own : ∀ op ∈ List.flatten [(hostOps0 : List (HloOp τ sig (Elt F))), hostOps0_1], WritesOutside argRefs op := by
  intro op hop
  obtain ⟨ops, hops, hop⟩ := List.mem_flatten.mp hop
  simp only [List.mem_cons, List.mem_nil_iff, or_false] at hops
  rcases hops with rfl | rfl
  · exact (List.forall_iff_forall_mem.mp hostOps0_own) op hop
  · exact (List.forall_iff_forall_mem.mp hostOps0_1_own) op hop

/-- Every operation after the region, stretch by stretch. -/
theorem suffix_own : ∀ ops ∈ ([hostOps1, hostOps1_1, hostOps1_2] : List (List (HloOp τ sig (Elt F)))), ∀ op ∈ ops,
    WritesOutside keptRefs op := by
  intro ops hops op hop
  simp only [List.mem_cons, List.mem_nil_iff, or_false] at hops
  rcases hops with rfl | rfl | rfl
  · exact (List.forall_iff_forall_mem.mp hostOps1_own) op hop
  · exact (List.forall_iff_forall_mem.mp hostOps1_1_own) op hop
  · exact (List.forall_iff_forall_mem.mp hostOps1_2_own) op hop

/-- Each array the pipeline stages is among the kept references. -/
theorem arrRef_kept : ∀ w : Fin 7, Pipeline.arrRef spec0 w ∈ keptRefs := by decide

/-! ## The lines after the region -/

/-- They touch the pipeline's arrays and the buffers that bypass the region only: every buffer of theirs is an unscoped
    TensorCore reference, and with nothing prefetched each such reference is one or the other. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => (suffix_own ops hops op hop).not_mem (arrRef_kept w)

/-! ## The arguments when the region is entered -/

/-- An argument holds its launch contents when the region is entered: no line before it writes an argument. -/
theorem V_arg (c : Dev nD) (b : Ref sig .tc) (hb : b ∈ argRefs) : V m c b = m ((c : Thread nD τ).loc b) :=
  StableHlo.after_of_forall_not_mem _ _ fun op hop => (prefix_own op hop).not_mem hb

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)

/-! ## The windows' blocks -/

/-- The queries' staging buffer holds the whole query array at every point, though it is fetched at the first only:
    for any proof data whose array is the region-entry contents and whose body leaves the block in place, an unfetched
    input still holds the block of the point before, which has the same index. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the targets' column. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bank tile, fetched anew at every point, holds the point's five thousand rows. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the lines that follow the region, a kept reference that is no array of the pipeline holds what it held when
    the region was entered: the region leaves every buffer but its arrays alone, and no later line writes it. -/
theorem afterTail_kept (dats : (p : Fin 1) → (c : Dev nD) → Dat τ (Elt F) Unit ℕ (UR sig nD τ) ℕ (cfgs p) c)
    (c : Dev nD) (b : Ref sig .tc) (hb : b ∈ keptRefs) (hne : ∀ w, Pipeline.arrRef spec0 w ≠ b) :
    Pipeline.afterTail₀ cfgs dats 0 (V0 m) [hostOps1, hostOps1_1, hostOps1_2] c b = V m c b :=
  (StableHlo.after_of_forall_not_mem _ _ fun op hop => by
      obtain ⟨ops, hops, hop⟩ := List.mem_flatten.mp hop
      exact (suffix_own ops hops op hop).not_mem hb).trans
    (Pipeline.withArrays_of_ne spec0 c (V0 m c) _ b hne)

/-- The frame from a frame run. The bank is the array of an input window, which the run leaves at its region-entry
    contents; the queries, the weights and the targets are no window's array, bypass the region and are written by no
    later line; and no line before the region writes an argument. So all four end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of _ rfl (by decide))).trans
        ((afterTail_kept m dats c main_arg0 (by decide) (by decide)).trans (V_main_arg0 m c)),
     ((h c).2 main_arg1 (Pipeline.mem_restRefs_of _ rfl (by decide))).trans
        ((afterTail_kept m dats c main_arg1 (by decide) (by decide)).trans (V_main_arg1 m c)),
     ((h c).1 2).trans (((dats 0 c).arrAt_in 2 rfl _).trans ((hA c 2).trans (V_main_arg2 m c))),
     ((h c).2 main_arg3 (Pipeline.mem_restRefs_of _ rfl (by decide))).trans
        ((afterTail_kept m dats c main_arg3 (by decide) (by decide)).trans (V_main_arg3 m c))⟩) h

/-! ## Where the windows are live -/

/-- The three inputs and the passed-through bank tile are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- A core's block of running maxima is stored at its last tile only: idle, and not written back, at its first tile -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- and at its inner tiles, -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- live at its last. -/
theorem liveAt0_4_C : ∀ t : Fin cfg0.N, ¬cond0_0 (grid0.coords t) → cond0_1 (grid0.coords t) → cfg0.idle 4 (grid0.coords t) = false := by decide +kernel

/-- The same of a core's block of sums of exponentials -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-- and of its block of target logits. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The region invariant -/

/-- What the launch hands the region and takes back: the three running statistics, each a whole memref owned at some
    contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The kernel body run once, whole, at a core's first tile (the reset branch taken, the write-out branch not): the three running statistics are handed over at anything, reset, then updated with this tile; the three per-core result blocks are not touched.
  The staging memrefs are whole buffers; the inputs' hold the point's blocks (`x0` the normalised queries, `x1` the
  targets, `x2` the tile of bank rows) and are handed back as they were. What each stored buffer ends with is given as
  the list of pieces stored into it, last first: the witness of the subtype, found when the run hands the buffer back.
-/
import proofs.«403753_j46050639347844_2_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) :
    Σ' (L3 : List (View.Piece (Elt F) S5000x256 .f32)) (LS0 : List (View.Piece (Elt F) S64x1 .f32)) (LS1 : List (View.Piece (Elt F) S64x1 .f32)),
      { LS2 : List (View.Piece (Elt F) S64x1 .f32) //
        ∀ (xi4 xi5 xi6 : Vec F S1x64x1 .f32) (E : Set ℕ) (K : PUnit → sProp 𝕄),
          iprop(owns (c : Thread nD τ) arg2 fullShare x0
              ∗ owns (c : Thread nD τ) arg3 fullShare x1
              ∗ owns (c : Thread nD τ) arg4 fullShare x2
              ∗ (∃ d, owns (c : Thread nD τ) arg5 fullShare d)
              ∗ owns (c : Thread nD τ) arg6 fullShare xi4
              ∗ owns (c : Thread nD τ) arg7 fullShare xi5
              ∗ owns (c : Thread nD τ) arg8 fullShare xi6
              ∗ (∃ d, owns (c : Thread nD τ) arg9 fullShare d)
              ∗ (∃ d, owns (c : Thread nD τ) arg10 fullShare d)
              ∗ (∃ d, owns (c : Thread nD τ) arg11 fullShare d)
              ∗ (iprop(owns (c : Thread nD τ) arg2 fullShare x0
                  ∗ owns (c : Thread nD τ) arg3 fullShare x1
                  ∗ owns (c : Thread nD τ) arg4 fullShare x2
                  ∗ (∃ f, arg5.view.loc (c : Thread nD τ) ↦[arg5.view.set]{fullShare} arg5.view.writes (Elt F) f L3)
                  ∗ owns (c : Thread nD τ) arg6 fullShare xi4
                  ∗ owns (c : Thread nD τ) arg7 fullShare xi5
                  ∗ owns (c : Thread nD τ) arg8 fullShare xi6
                  ∗ (∃ f, arg9.view.loc (c : Thread nD τ) ↦[arg9.view.set]{fullShare} arg9.view.writes (Elt F) f LS0)
                  ∗ (∃ f, arg10.view.loc (c : Thread nD τ) ↦[arg10.view.set]{fullShare} arg10.view.writes (Elt F) f LS1)
                  ∗ (∃ f, arg11.view.loc (c : Thread nD τ) ↦[arg11.view.set]{fullShare} arg11.view.writes (Elt F) f LS2)) -∗ K ⟨⟩))
            ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun xi4 xi5 xi6 E K => ?run⟩
  case run =>
    -- the printed function and its first part are rewritten to their sequences of memory operations over named payloads
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩,
      ⟨%f4, %hf4, H4⟩, ⟨%f5, %hf5, H5⟩, ⟨%f6, %hf6, H6⟩,
      ⟨%ds0, %fs0, -, HS0⟩, ⟨%ds1, %fs1, -, HS1⟩, ⟨%ds2, %fs2, -, HS2⟩, Hk⟩
    -- a whole buffer that reads as a named block holds exactly that block laid out
    obtain rfl := harg2.eq_unread hf0; obtain rfl := harg3.eq_unread hf1; obtain rfl := harg4.eq_unread hf2
    obtain rfl := harg6.eq_unread hf4; obtain rfl := harg7.eq_unread hf5; obtain rfl := harg8.eq_unread hf6
    -- the reset branch is taken (tile coordinate 0), the write-out branch is not (tile coordinate is not 19)
    sl_exec (disch := first | exact hc0 | exact hc1)
    sl_step
    iapply Hk
    -- queries, targets, bank tile: read only, handed back as they were
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the passed-through bank tile: one whole-block store
    isplitl [H3]
    · iexists _; iexact H3
    -- the three per-core result blocks: not touched at a tile that is not the core's last
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    -- running maximum, running sum of exponentials, running target logit: the reset piece beneath this tile's update
    isplitl [HS0]
    · iexists _; iexact HS0
    isplitl [HS1]
    · iexists _; iexact HS1
    iexists _; iexact HS2

end Cert.Kernel.Fr

end
-- ==== Proof.K.RunB.lean ====
/-
  The kernel body run once, whole, at a tile that is neither a core's first nor its last (neither branch taken): the three running statistics are handed over at what the tile before left and updated with this tile; the three per-core result blocks are not touched.
  The staging memrefs are whole buffers; the inputs' hold the point's blocks (`x0` the normalised queries, `x1` the
  targets, `x2` the tile of bank rows) and are handed back as they were. What each stored buffer ends with is given as
  the list of pieces stored into it, last first: the witness of the subtype, found when the run hands the buffer back.
-/
import proofs.«403753_j46050639347844_2_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) :
    Σ' (L3 : List (View.Piece (Elt F) S5000x256 .f32)) (LS0 : List (View.Piece (Elt F) S64x1 .f32)) (LS1 : List (View.Piece (Elt F) S64x1 .f32)),
      { LS2 : List (View.Piece (Elt F) S64x1 .f32) //
        ∀ (xi4 xi5 xi6 : Vec F S1x64x1 .f32) (E : Set ℕ) (K : PUnit → sProp 𝕄),
          iprop(owns (c : Thread nD τ) arg2 fullShare x0
              ∗ owns (c : Thread nD τ) arg3 fullShare x1
              ∗ owns (c : Thread nD τ) arg4 fullShare x2
              ∗ (∃ d, owns (c : Thread nD τ) arg5 fullShare d)
              ∗ owns (c : Thread nD τ) arg6 fullShare xi4
              ∗ owns (c : Thread nD τ) arg7 fullShare xi5
              ∗ owns (c : Thread nD τ) arg8 fullShare xi6
              ∗ owns (c : Thread nD τ) arg9 fullShare xs0
              ∗ owns (c : Thread nD τ) arg10 fullShare xs1
              ∗ owns (c : Thread nD τ) arg11 fullShare xs2
              ∗ (iprop(owns (c : Thread nD τ) arg2 fullShare x0
                  ∗ owns (c : Thread nD τ) arg3 fullShare x1
                  ∗ owns (c : Thread nD τ) arg4 fullShare x2
                  ∗ (∃ f, arg5.view.loc (c : Thread nD τ) ↦[arg5.view.set]{fullShare} arg5.view.writes (Elt F) f L3)
                  ∗ owns (c : Thread nD τ) arg6 fullShare xi4
                  ∗ owns (c : Thread nD τ) arg7 fullShare xi5
                  ∗ owns (c : Thread nD τ) arg8 fullShare xi6
                  ∗ (∃ f, arg9.view.loc (c : Thread nD τ) ↦[arg9.view.set]{fullShare} arg9.view.writes (Elt F) f LS0)
                  ∗ (∃ f, arg10.view.loc (c : Thread nD τ) ↦[arg10.view.set]{fullShare} arg10.view.writes (Elt F) f LS1)
                  ∗ (∃ f, arg11.view.loc (c : Thread nD τ) ↦[arg11.view.set]{fullShare} arg11.view.writes (Elt F) f LS2)) -∗ K ⟨⟩))
            ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ⟨?_, fun xi4 xi5 xi6 E K => ?run⟩⟩
  case run =>
    -- the printed body is its sequence of loads and stores over the named payloads
    simp only [cc0__kernel_eq_skeleton]; unfold cc0__kernel_skel
    simp only [k0_part1_eq_skeleton]; unfold k0_part1_skel
    unfold owns
    iintro ⟨⟨%fq, %hfq, Hq⟩, ⟨%ft, %hft, Ht⟩, ⟨%fb, %hfb, Hb⟩, ⟨%dcopy, %fcopy, %hfcopy, Hcopy⟩,
      ⟨%fr4, %hfr4, Hr4⟩, ⟨%fr5, %hfr5, Hr5⟩, ⟨%fr6, %hfr6, Hr6⟩,
      ⟨%fmax, %hfmax, Hmax⟩, ⟨%fsum, %hfsum, Hsum⟩, ⟨%ftgt, %hftgt, Htgt⟩, Hk⟩
    -- a whole buffer read as x holds exactly x laid out through its view
    obtain rfl := harg2.eq_unread hfq; obtain rfl := harg3.eq_unread hft; obtain rfl := harg4.eq_unread hfb
    obtain rfl := harg6.eq_unread hfr4; obtain rfl := harg7.eq_unread hfr5; obtain rfl := harg8.eq_unread hfr6
    obtain rfl := harg9.eq_unread hfmax; obtain rfl := harg10.eq_unread hfsum; obtain rfl := harg11.eq_unread hftgt
    -- neither the reset (first tile of a core) nor the write of the per-core blocks (last tile) is taken
    sl_exec (disch := first | exact hc0 | exact hc1)
    sl_step
    iapply Hk
    -- queries, targets and bank tile go back as they came
    isplitl [Hq]
    · iexists _; isplitr; · ipureintro; exact harg2.read_unread _
      iexact Hq
    isplitl [Ht]
    · iexists _; isplitr; · ipureintro; exact harg3.read_unread _
      iexact Ht
    isplitl [Hb]
    · iexists _; isplitr; · ipureintro; exact harg4.read_unread _
      iexact Hb
    -- the passed-through bank tile: one whole-block store
    isplitl [Hcopy]
    · iexists _; iexact Hcopy
    -- the three per-core result blocks are untouched at an inner tile
    isplitl [Hr4]
    · iexists _; isplitr; · ipureintro; exact harg6.read_unread _
      iexact Hr4
    isplitl [Hr5]
    · iexists _; isplitr; · ipureintro; exact harg7.read_unread _
      iexact Hr5
    isplitl [Hr6]
    · iexists _; isplitr; · ipureintro; exact harg8.read_unread _
      iexact Hr6
    -- running maximum, running sum of exponentials, running target logit: each with this tile's update stored
    isplitl [Hmax]
    · iexists _; iexact Hmax
    isplitl [Hsum]
    · iexists _; iexact Hsum
    iexists _; iexact Htgt

end Cert.Kernel.Fr

end
-- ==== Proof.K.RunC.lean ====
/-
  The kernel body run once, whole, at a core's last tile (the reset branch not taken, the write-out branch taken): the statistics are updated with this tile and then copied into the three per-core result blocks.
  The staging memrefs are whole buffers; the inputs' hold the point's blocks (`x0` the normalised queries, `x1` the
  targets, `x2` the tile of bank rows) and are handed back as they were. What each stored buffer ends with is given as
  the list of pieces stored into it, last first: the witness of the subtype, found when the run hands the buffer back.
-/
import proofs.«403753_j46050639347844_2_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    Σ' (L3 : List (View.Piece (Elt F) S5000x256 .f32)) (L4 : List (View.Piece (Elt F) S1x64x1 .f32)) (L5 : List (View.Piece (Elt F) S1x64x1 .f32)) (L6 : List (View.Piece (Elt F) S1x64x1 .f32)) (LS0 : List (View.Piece (Elt F) S64x1 .f32)) (LS1 : List (View.Piece (Elt F) S64x1 .f32)),
      { LS2 : List (View.Piece (Elt F) S64x1 .f32) //
        ∀ (E : Set ℕ) (K : PUnit → sProp 𝕄),
          iprop(owns (c : Thread nD τ) arg2 fullShare x0
              ∗ owns (c : Thread nD τ) arg3 fullShare x1
              ∗ owns (c : Thread nD τ) arg4 fullShare x2
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ owns (c : Thread nD τ) arg9 fullShare xs0
              ∗ owns (c : Thread nD τ) arg10 fullShare xs1
              ∗ owns (c : Thread nD τ) arg11 fullShare xs2
              ∗ (iprop(owns (c : Thread nD τ) arg2 fullShare x0
                  ∗ owns (c : Thread nD τ) arg3 fullShare x1
                  ∗ owns (c : Thread nD τ) arg4 fullShare x2
                  ∗ (∃ f, arg5.view.loc (c : Thread nD τ) ↦[arg5.view.set]{fullShare} arg5.view.writes (Elt F) f L3)
                  ∗ (∃ f, arg6.view.loc (c : Thread nD τ) ↦[arg6.view.set]{fullShare} arg6.view.writes (Elt F) f L4)
                  ∗ (∃ f, arg7.view.loc (c : Thread nD τ) ↦[arg7.view.set]{fullShare} arg7.view.writes (Elt F) f L5)
                  ∗ (∃ f, arg8.view.loc (c : Thread nD τ) ↦[arg8.view.set]{fullShare} arg8.view.writes (Elt F) f L6)
                  ∗ (∃ f, arg9.view.loc (c : Thread nD τ) ↦[arg9.view.set]{fullShare} arg9.view.writes (Elt F) f LS0)
                  ∗ (∃ f, arg10.view.loc (c : Thread nD τ) ↦[arg10.view.set]{fullShare} arg10.view.writes (Elt F) f LS1)
                  ∗ (∃ f, arg11.view.loc (c : Thread nD τ) ↦[arg11.view.set]{fullShare} arg11.view.writes (Elt F) f LS2)) -∗ K ⟨⟩))
            ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    -- the printed body is its skeleton of memory operations over the named payloads
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩,
      ⟨%d5, %f5, -, H5⟩, ⟨%d6, %f6, -, H6⟩, ⟨%fs0, %hfs0, HS0⟩, ⟨%fs1, %hfs1, HS1⟩, ⟨%fs2, %hfs2, HS2⟩, Hk⟩
    -- a whole buffer read at `x` holds exactly the function that reads back `x`
    obtain rfl := harg2.eq_unread hf0; obtain rfl := harg3.eq_unread hf1; obtain rfl := harg4.eq_unread hf2
    obtain rfl := harg9.eq_unread hfs0; obtain rfl := harg10.eq_unread hfs1; obtain rfl := harg11.eq_unread hfs2
    -- the tile is not a core's first (no reset) and is its last (the three statistics are written out)
    sl_exec (disch := first | exact hc0 | exact hc1)
    sl_step
    iapply Hk
    -- the three inputs go back as they came
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the passed-through bank tile and the three per-core result blocks, each with the piece stored into it
    isplitl [H3]; · iexists _; iexact H3
    isplitl [H4]; · iexists _; iexact H4
    isplitl [H5]; · iexists _; iexact H5
    isplitl [H6]; · iexists _; iexact H6
    -- the running maximum, sum of exponentials and target logit after this tile's update
    isplitl [HS0]; · iexists _; iexact HS0
    isplitl [HS1]; · iexists _; iexact HS1
    iexists _; iexact HS2

end Cert.Kernel.Fr

end
-- ==== Proof.K.FrameDefs.lean ====
/-
  What the kernel leaves, point by point.

  Per case of the body's two branches: what the pass-through output, the three per-core result blocks and the three
  running statistics hold after the body, read back from the pieces the case's run stored. Then the recursion over the
  40 grid points (a core's first tile starts the statistics afresh; every other tile updates what the tile before left),
  the region invariant that carries the statistics from one point to the next, and the pipeline's proof data.
-/
import proofs.«403753_j46050639347844_2_alg».proof.Proof.K.Vals
import proofs.«403753_j46050639347844_2_alg».proof.Proof.K.RunA
import proofs.«403753_j46050639347844_2_alg».proof.Proof.K.RunB
import proofs.«403753_j46050639347844_2_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Per case, what each buffer ends with -/

/-- What a core's first tile leaves in the staging buffer of output 3 (the pass-through copy of the bank tile): its pieces read back. -/
def out0_A_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S5000x256 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 hc0 hc1 x0 x1 x2).1)
/-- What a core's first tile leaves in the running maximum: its pieces read back. -/
def sout0_A_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S64x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2).2.1)
/-- What a core's first tile leaves in the running sum of exponentials: its pieces read back. -/
def sout0_A_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S64x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2).2.2.1)
/-- What a core's first tile leaves in the running target logit: its pieces read back. -/
def sout0_A_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S64x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2).2.2.2.1)
/-- What a tile that is neither first nor last of its core leaves in the staging buffer of output 3 (the pass-through copy of the bank tile): its pieces read back. -/
def out0_B_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S5000x256 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 hc0 hc1 x0 x1 x2 xs0 xs1 xs2).1)
/-- What a tile that is neither first nor last of its core leaves in the running maximum: its pieces read back. -/
def sout0_B_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S64x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 xs0 xs1 xs2).2.1)
/-- What a tile that is neither first nor last of its core leaves in the running sum of exponentials: its pieces read back. -/
def sout0_B_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 xs0 xs1 xs2).2.2.1)
/-- What a tile that is neither first nor last of its core leaves in the running target logit: its pieces read back. -/
def sout0_B_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S64x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 xs0 xs1 xs2).2.2.2.1)
/-- What a core's last tile leaves in the staging buffer of output 3 (the pass-through copy of the bank tile): its pieces read back. -/
def out0_C_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S5000x256 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 arg11 harg11 hc0 hc1 x0 x1 x2 xs0 xs1 xs2).1)
/-- What a core's last tile leaves in the staging buffer of output 4 (the per-core running maximum): its pieces read back. -/
def out0_C_4 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S1x64x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.1)
/-- What a core's last tile leaves in the staging buffer of output 5 (the per-core sum of exponentials): its pieces read back. -/
def out0_C_5 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S1x64x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.1)
/-- What a core's last tile leaves in the staging buffer of output 6 (the per-core target logit): its pieces read back. -/
def out0_C_6 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S1x64x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.1)
/-- What a core's last tile leaves in the running maximum: its pieces read back. -/
def sout0_C_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S64x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.1)
/-- What a core's last tile leaves in the running sum of exponentials: its pieces read back. -/
def sout0_C_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.1)
/-- What a core's last tile leaves in the running target logit: its pieces read back. -/
def sout0_C_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S64x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.2.1)

/-! ## Point by point -/

/-- A fixed value standing for the contents of an output block the body does not touch at a point (outputs 4, 5, 6 away
    from a core's last tile: the window is idle there and not written back, so nothing consults the value). -/
def junkO : Vec F S1x64x1 .f32 := VO0_4.read (Elt F) VO0_4.junk

/-- THE ACCUMULATION. What the four outputs' staging buffers and the three running statistics hold after the body at
    position `n` (outputs 3, 4, 5, 6, then running maximum, sum of exponentials, target logit): the case the closed forms
    select at `n`, run at the point's memrefs and input blocks; away from a core's first tile the statistics are updated
    from what position `n - 1` left. A point cannot be both a first and a last tile. -/
def outsAt0 (c : Dev nD) : (n : ℕ) → n < cfg0.N → Vec F S5000x256 .f32 × Vec F S1x64x1 .f32 × Vec F S1x64x1 .f32 × Vec F S1x64x1 .f32 × Vec F S64x1 .f32 × Vec F S64x1 .f32 × Vec F S64x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        junkO,
        junkO,
        junkO,
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 20 = 0 then
      if h1 : (n + 1) % 20 = 19 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        junkO,
        junkO,
        junkO,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 20 = 19 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        junkO,
        junkO,
        junkO,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a core's first tile. -/
theorem outsAt0_A (c : Dev nD) (t : Fin cfg0.N) (h0 : t.val % 20 = 0) (h1 : ¬t.val % 20 = 19) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
        junkO,
        junkO,
        junkO,
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
        sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a tile that is neither first nor last: over what the point before left. -/
theorem outsAt0_B (c : Dev nD) (t : Fin cfg0.N) (h0 : ¬t.val % 20 = 0) (h1 : ¬t.val % 20 = 19) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        junkO,
        junkO,
        junkO,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a core's last tile: over what the point before left. -/
theorem outsAt0_C (c : Dev nD) (t : Fin cfg0.N) (h0 : ¬t.val % 20 = 0) (h1 : t.val % 20 = 19) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the three running statistics at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the outputs' at `outsAt0`'s components; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]

end Cert.Kernel.Fr

end
-- ==== Proof.K.Covers.lean ====
/-
  Every buffer a case stores into is stored whole: the rectangles of its pieces tile the buffer, so each index lies in
  some piece. This is what lets a buffer's contents after the body be read back from the pieces alone.
-/
import proofs.«403753_j46050639347844_2_alg».proof.Proof.K.FrameDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- At a core's first tile the pieces stored into output 3 tile its block, so they cover it. -/
theorem cover0_A_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S5000x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).1 S5000x256.size (by sl_kernel_rfl) y
/-- At a core's first tile the pieces stored into scratch 0 tile it. -/
theorem scover0_A_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S64x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.1 S64x1.size (by sl_kernel_rfl) y
/-- At a core's first tile the pieces stored into scratch 1 tile it. -/
theorem scover0_A_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S64x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.2.1 S64x1.size (by sl_kernel_rfl) y
/-- At a core's first tile the pieces stored into scratch 2 tile it. -/
theorem scover0_A_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S64x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.2.2.1 S64x1.size (by sl_kernel_rfl) y
/-- At a tile that is neither first nor last of its core the pieces stored into output 3 tile its block, so they cover it. -/
theorem cover0_B_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S5000x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).1 S5000x256.size (by sl_kernel_rfl) y
/-- At a tile that is neither first nor last of its core the pieces stored into scratch 0 tile it. -/
theorem scover0_B_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).2.1 S64x1.size (by sl_kernel_rfl) y
/-- At a tile that is neither first nor last of its core the pieces stored into scratch 1 tile it. -/
theorem scover0_B_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).2.2.1 S64x1.size (by sl_kernel_rfl) y
/-- At a tile that is neither first nor last of its core the pieces stored into scratch 2 tile it. -/
theorem scover0_B_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).2.2.2.1 S64x1.size (by sl_kernel_rfl) y
/-- At a core's last tile the pieces stored into output 3 tile its block, so they cover it. -/
theorem cover0_C_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S5000x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).1 S5000x256.size (by sl_kernel_rfl) y
/-- At a core's last tile the pieces stored into output 4 tile its block. -/
theorem cover0_C_4 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.1 S1x64x1.size (by sl_kernel_rfl) y
/-- At a core's last tile the pieces stored into output 5 tile its block. -/
theorem cover0_C_5 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.1 S1x64x1.size (by sl_kernel_rfl) y
/-- At a core's last tile the pieces stored into output 6 tile its block. -/
theorem cover0_C_6 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.1 S1x64x1.size (by sl_kernel_rfl) y
/-- At a core's last tile the pieces stored into scratch 0 tile it. -/
theorem scover0_C_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.1 S64x1.size (by sl_kernel_rfl) y
/-- At a core's last tile the pieces stored into scratch 1 tile it. -/
theorem scover0_C_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.1 S64x1.size (by sl_kernel_rfl) y
/-- At a core's last tile the pieces stored into scratch 2 tile it. -/
theorem scover0_C_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.2.1 S64x1.size (by sl_kernel_rfl) y

end Cert.Kernel.Fr

end
-- ==== Proof.K.Frame.lean ====
/-
  The frame of the kernel program. At every grid point the body, run whole in the case the point is in (a core's
  first tile, an inner tile, its last tile), takes the staging buffers of the seven windows and the three running
  statistics and hands them back: the inputs as they were, the pass-through tile stored whole, the three per-core
  result blocks untouched except at a core's last tile, the statistics at this point's values. The statistics are
  carried from point to point by the region invariant; at a core's first tile their old values are forgotten, since the
  body resets them before it reads them. With the host lines around the region this gives the run of @main, and
  from its post the frame: the four arguments end as launched.
-/
import proofs.«403753_j46050639347844_2_alg».proof.Proof.K.Shared
import proofs.«403753_j46050639347844_2_alg».proof.Proof.K.Covers

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the inputs' staging buffers -/

/-- The queries' buffer holds the query array, the targets' buffer the target column, the bank's buffer the point's tile
    of bank rows: at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point t: the invariant, what the core owes, and the seven windows' current staging
    buffers, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point. The inputs' buffers hold their blocks; the point is a core's first tile, an inner tile or its
    last one (never first and last at once: twenty tiles a core), and the run of that case applies. At a first tile the
    invariant hands over the three statistics at whatever they hold (anything at the very first point, the other core's
    final values at the second core's first tile) and the run resets them; elsewhere it hands them over at what the point
    before left, which is what the case's run updates. Each stored buffer comes back as its pieces written over some prior
    contents, and since the pieces cover it, it reads as the case's contents. The per-core result blocks come back
    untouched away from a core's last tile, where the pipeline neither reads nor writes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  -- the three inputs and the pass-through tile are live at every point
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases h0 : t.val % 20 = 0
  · by_cases h1 : t.val % 20 = 19
    · exfalso; omega
    · -- a core's first tile
      have hc0 : cond0_0 (grid0.coords t) := (hcond0_0 t).mpr h0
      have hc1 : ¬cond0_1 (grid0.coords t) := fun h => h1 ((hcond0_1 t).mp h)
      rw [Dat.leavesExact_idle (dats m 0 c) 4 t (idleAt0_4_A t hc0 hc1) (noFlush0_4_A t hc0 hc1)]
      rw [Dat.leavesExact_idle (dats m 0 c) 5 t (idleAt0_5_A t hc0 hc1) (noFlush0_5_A t hc0 hc1)]
      rw [Dat.leavesExact_idle (dats m 0 c) 6 t (idleAt0_6_A t hc0 hc1) (noFlush0_6_A t hc0 hc1)]
      rw [outsAt0_A m c t h0 h1]
      unfold out0_A_3 sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t)).2.2.2.2 _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, ⟨%e3, H3⟩, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _)
        isplitl [H4]; · iexists _; iexact H4
        isplitl [H5]; · iexists _; iexact H5
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t)).2.2.2.2 _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, ⟨%e3, H3⟩, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _)
        isplitl [H4]; · iexists _; iexact H4
        isplitl [H5]; · iexists _; iexact H5
        iexists _; iexact H6
  · have hz : t.val ≠ 0 := fun e => h0 (by rw [e])
    by_cases h1 : t.val % 20 = 19
    · -- a core's last tile
      have hc0 : ¬cond0_0 (grid0.coords t) := fun h => h0 ((hcond0_0 t).mp h)
      have hc1 : cond0_1 (grid0.coords t) := (hcond0_1 t).mpr h1
      rw [show (dats m 0 c).leavesExact 4 t = owns (c : Thread nD τ) (ms0_4 t) fullShare ((dats m 0 c).after 4 t) from by
          unfold Dat.leavesExact; rw [liveAt0_4_C t hc0 hc1], after0_4]
      rw [show (dats m 0 c).leavesExact 5 t = owns (c : Thread nD τ) (ms0_5 t) fullShare ((dats m 0 c).after 5 t) from by
          unfold Dat.leavesExact; rw [liveAt0_5_C t hc0 hc1], after0_5]
      rw [show (dats m 0 c).leavesExact 6 t = owns (c : Thread nD τ) (ms0_6 t) fullShare ((dats m 0 c).after 6 t) from by
          unfold Dat.leavesExact; rw [liveAt0_6_C t hc0 hc1], after0_6]
      rw [outsAt0_C m c t h0 h1]
      unfold out0_C_3 out0_C_4 out0_C_5 out0_C_6 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, ⟨%e3, H3⟩, ⟨%e4, H4⟩, ⟨%e5, H5⟩, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _)
    · -- an inner tile
      have hc0 : ¬cond0_0 (grid0.coords t) := fun h => h0 ((hcond0_0 t).mp h)
      have hc1 : ¬cond0_1 (grid0.coords t) := fun h => h1 ((hcond0_1 t).mp h)
      rw [Dat.leavesExact_idle (dats m 0 c) 4 t (idleAt0_4_B t hc0 hc1) (noFlush0_4_B t hc0 hc1)]
      rw [Dat.leavesExact_idle (dats m 0 c) 5 t (idleAt0_5_B t hc0 hc1) (noFlush0_5_B t hc0 hc1)]
      rw [Dat.leavesExact_idle (dats m 0 c) 6 t (idleAt0_6_B t hc0 hc1) (noFlush0_6_B t hc0 hc1)]
      rw [outsAt0_B m c t h0 h1]
      unfold out0_B_3 sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) _ _ _).2.2.2.2 _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, ⟨%e3, H3⟩, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _ _)
      isplitl [H4]; · iexists _; iexact H4
      isplitl [H5]; · iexists _; iexact H5
      iexists _; iexact H6

/-- The body obligation of the pipeline, at every point: the seven windows one by one. -/
theorem body_obligation (c : Dev nD) : BodyObligation (dats (F := F) m 0 c) (defs₀ (F := F)) Variants.none () Set.univ := fun t => by
  rw [bigSep_W0, bigSep_W0]
  exact sound_body m c t

/-! ## The invariant at the region's ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the three statistics hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- In particular after the last. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

set_option maxHeartbeats 3200000 in
set_option backward.isDefEq.respectTransparency.types false in
/-- From any launch memory with zero counters, every weakly fair execution of @main on the TensorCores terminates, and in
    every final state each array of the pipeline holds what the forty points' write-backs leave in it, and every other
    unscoped buffer what the host lines after the region compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: @main runs, and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The same run read at the two results as well: the loss and the updated bank are buffers no window stages, so they
    end at what the lines after the region compute from the region's exit contents; the arguments as in the frame. -/
theorem run_results : θ_run defs (onTc (τ := τ) (main (F := F))) ⟨m, fun _ => 0, ρ⟩ (fun r => ∀ c : Dev nD,
      r.2.mem ((c.tc : Thread nD τ).loc main_v33) = Pipeline.afterTail₀ cfgs (dats m) 0 (V0 m) [hostOps1, hostOps1_1, hostOps1_2] c main_v33
      ∧ r.2.mem ((c.tc : Thread nD τ).loc main_v60) = Pipeline.afterTail₀ cfgs (dats m) 0 (V0 m) [hostOps1, hostOps1_1, hostOps1_2] c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v33 (Pipeline.mem_restRefs_of _ rfl (by decide)),
     (h c).2 main_v60 (Pipeline.mem_restRefs_of _ rfl (by decide)),
     ((h c).2 main_arg0 (Pipeline.mem_restRefs_of _ rfl (by decide))).trans
        ((afterTail_kept m (dats m) c main_arg0 (by decide) (by decide)).trans (V_main_arg0 m c)),
     ((h c).2 main_arg1 (Pipeline.mem_restRefs_of _ rfl (by decide))).trans
        ((afterTail_kept m (dats m) c main_arg1 (by decide) (by decide)).trans (V_main_arg1 m c)),
     ((h c).1 2).trans ((((dats m) 0 c).arrAt_in 2 rfl _).trans ((A_eq m c 2).trans (V_main_arg2 m c))),
     ((h c).2 main_arg3 (Pipeline.mem_restRefs_of _ rfl (by decide))).trans
        ((afterTail_kept m (dats m) c main_arg3 (by decide) (by decide)).trans (V_main_arg3 m c))⟩) (run_main m ρ)

end Cert.Kernel.Fr

end
-- ==== Proof.KI.Base.lean ====
/-
  What every module of the kernel program's frame shares: the two conditions the body branches on, read off the grid
  coordinates and decided over the 2 x 20 grid (the reset of the running statistics at a core's first tile, the write of
  the per-core statistics at its last tile); the staging memref each window is on at a point; the three scratch buffers
  (running maximum, running sum of exponentials, running target logit) as whole memrefs and as views.
-/
import proofs.«403753_j46050639347844_2_alg».proof.Proof.Gen.KernelIdeal.Launch
import proofs.«403753_j46050639347844_2_alg».proof.Proof.Gen.KernelIdeal.Skeleton
import proofs.«403753_j46050639347844_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-! ## The body's two branches -/

/-- The first branch: the second grid coordinate (the tile within a core's half of the bank) is zero. -/
abbrev cond0_0 (i : grid0.Coords) : Prop :=
  (Scalar.cmpi .ne (Scalar.extui (Scalar.cmpi .eq (BitVec.ofNat 32 (i 1).val) 0#32)) 0#32) = 1#1
/-- Over the 40 points it holds exactly at the points that are 0 modulo 20: each core's first tile. -/
theorem hcond0_0 : ∀ t : Fin cfg0.N, cond0_0 (grid0.coords t) ↔ t.val % 20 = 0 :=
  (by decide +kernel : ∀ t : Fin grid0.N, cond0_0 (grid0.coords t) ↔ t.val % 20 = 0)

/-- The second branch: the tile is the last of its core's twenty. -/
abbrev cond0_1 (i : grid0.Coords) : Prop := k0_cond2 i = 1#1
/-- It holds exactly at the points that are 19 modulo 20. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Staging memrefs at a point, scratch memrefs, views -/

abbrev ms0_0 (t : Fin cfg0.N) : Memref sig .tc .vmem S64x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x1 .f32 := win0_6.stage (cfg0.slots t 6)
abbrev hs0_6 (t : Fin cfg0.N) : (ms0_6 t).IsWhole := hstage0_6 ((cfg0.slots t 6).cast nbuf0_6)

/-- The running maximum, the running sum of exponentials, the running target logit: whole scoped buffers of the kernel. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x1 .f32 := Memref.whole cc0_scratch2
abbrev VS0_0 : View sig .tc .vmem S64x1 .f32 := scM0_0.view
abbrev VS0_1 : View sig .tc .vmem S64x1 .f32 := scM0_1.view
abbrev VS0_2 : View sig .tc .vmem S64x1 .f32 := scM0_2.view

/-- One staging buffer of each output window, through which its contents are stated (the choice does not matter). -/
abbrev VO0_3 : View sig .tc .vmem S5000x256 .f32 := (Memref.whole cc0_stg3_0 : Memref sig .tc .vmem S5000x256 .f32).view
abbrev VO0_4 : View sig .tc .vmem S1x64x1 .f32 := (Memref.whole cc0_stg4_0 : Memref sig .tc .vmem S1x64x1 .f32).view
abbrev VO0_5 : View sig .tc .vmem S1x64x1 .f32 := (Memref.whole cc0_stg5_0 : Memref sig .tc .vmem S1x64x1 .f32).view
abbrev VO0_6 : View sig .tc .vmem S1x64x1 .f32 := (Memref.whole cc0_stg6_0 : Memref sig .tc .vmem S1x64x1 .f32).view

end Cert.KernelIdeal.Fr

end
-- ==== Proof.KI.Vals.lean ====
/-
  The arrays as the region finds them and the windows' blocks.

  Core `c`'s buffers when the pallas_call is entered are the launch contents after the eleven host operations before
  it (the row-wise normalisation of the queries and the reshape of the targets to a column); window `w`'s block at
  grid point `t` is read off its array there.
-/
import proofs.«403753_j46050639347844_2_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

/-- Core `c`'s TensorCore buffer contents when the region is entered, as a valuation. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KI.Shared.lean ====
/-
  What the modules of the kernel program's frame share. @main is read as the host lines before the one pipelined
  region (the row norms of the queries, their division by the clamped norms, the targets as a column), the region,
  and the host lines after it (the two cores' statistics merged into the loss, the momentum update of the target
  rows and its scatter into the bank). Stated here: that an argument still holds its launch contents when the region
  is entered, and an input's staging buffer its block at every point; that no host line writes an argument or an array
  of the pipeline, each writing only the buffer of its own result; at which points each of the seven windows is live;
  and the region invariant with the three running statistics as owned memrefs.
-/
import proofs.«403753_j46050639347844_2_alg».proof.Proof.KI.Vals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- A host line allocates nothing: each of the five stretches, operation by operation. -/
theorem hostOps0_fresh : (hostOps0 : List (HloOp τ sig (Elt F))).Forall fun op => op.fresh = ∅ := by
  repeat' apply And.intro
  all_goals rfl
theorem hostOps0_1_fresh : (hostOps0_1 : List (HloOp τ sig (Elt F))).Forall fun op => op.fresh = ∅ := by
  repeat' apply And.intro
  all_goals rfl
theorem hostOps1_fresh : (hostOps1 : List (HloOp τ sig (Elt F))).Forall fun op => op.fresh = ∅ := by
  repeat' apply And.intro
  all_goals rfl
theorem hostOps1_1_fresh : (hostOps1_1 : List (HloOp τ sig (Elt F))).Forall fun op => op.fresh = ∅ := by
  repeat' apply And.intro
  all_goals rfl
theorem hostOps1_2_fresh : (hostOps1_2 : List (HloOp τ sig (Elt F))).Forall fun op => op.fresh = ∅ := by
  repeat' apply And.intro
  all_goals rfl

set_option maxHeartbeats 1000000 in
/-- @main is the two stretches of host lines before the region, the region, and the three stretches after it: it
    reduces to the region continued by the later lines, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1] [hostOps1, hostOps1_1, hostOps1_2]
    ⟨hostOps0_sub, hostOps0_1_sub⟩ ⟨hostOps0_fresh, hostOps0_1_fresh⟩ main_chain

/-! ## What a host line writes -/

/-- The four arguments of @main. -/
abbrev argRefs : List (Ref sig .tc) := [main_arg0, main_arg1, main_arg2, main_arg3]
/-- The four arguments and the seven arrays the pipeline stages (the bank, an argument, is one of them): what the
    lines after the region must leave alone. -/
abbrev keptRefs : List (Ref sig .tc) :=
  [main_arg0, main_arg1, main_arg2, main_arg3, main_v4, main_v5, main_v6_0, main_v6_1, main_v6_2, main_v6_3]

/-- The operation writes exactly one buffer, and that buffer is none of the list K. -/
def WritesOutside (K : List (Ref sig .tc)) (op : HloOp τ sig (Elt F)) : Prop :=
  ∃ y : Ref sig .tc, op.writes = {Proc.devRef .tc y} ∧ y ∉ K

/-- Such an operation writes no buffer of K: distinct references are distinct device buffers. -/
theorem WritesOutside.not_mem {K : List (Ref sig .tc)} {op : HloOp τ sig (Elt F)} (h : WritesOutside K op)
    {b : Ref sig .tc} (hb : b ∈ K) : Proc.devRef .tc b ∉ op.writes := by
  obtain ⟨y, hy, hK⟩ := h
  rw [hy, Finset.mem_singleton]
  intro e
  exact hK (Proc.devRef_injective _ e ▸ hb)

/-- The lines before the region write only their own results (the last two of which are the queries' and the targets'
    arrays), never an argument. -/
theorem hostOps0_own : (hostOps0 : List (HloOp τ sig (Elt F))).Forall (WritesOutside argRefs) := by
  simp only [List.Forall]
  repeat' apply And.intro
  all_goals exact ⟨_, rfl, by decide⟩
theorem hostOps0_1_own : (hostOps0_1 : List (HloOp τ sig (Elt F))).Forall (WritesOutside argRefs) := by
  simp only [List.Forall]
  repeat' apply And.intro
  all_goals exact ⟨_, rfl, by decide⟩
/-- The lines after the region write only their own results: no argument, no array of the pipeline. -/
theorem hostOps1_own : (hostOps1 : List (HloOp τ sig (Elt F))).Forall (WritesOutside keptRefs) := by
  simp only [List.Forall]
  repeat' apply And.intro
  all_goals exact ⟨_, rfl, by decide⟩
theorem hostOps1_1_own : (hostOps1_1 : List (HloOp τ sig (Elt F))).Forall (WritesOutside keptRefs) := by
  simp only [List.Forall]
  repeat' apply And.intro
  all_goals exact ⟨_, rfl, by decide⟩
theorem hostOps1_2_own : (hostOps1_2 : List (HloOp τ sig (Elt F))).Forall (WritesOutside keptRefs) := by
  simp only [List.Forall]
  repeat' apply And.intro
  all_goals exact ⟨_, rfl, by decide⟩

/-- Every operation before the region, taken from the flattened stretches. -/
theorem prefix_own : ∀ op ∈ List.flatten [(hostOps0 : List (HloOp τ sig (Elt F))), hostOps0_1], WritesOutside argRefs op := by
  intro op hop
  obtain ⟨ops, hops, hop⟩ := List.mem_flatten.mp hop
  simp only [List.mem_cons, List.mem_nil_iff, or_false] at hops
  rcases hops with rfl | rfl
  · exact (List.forall_iff_forall_mem.mp hostOps0_own) op hop
  · exact (List.forall_iff_forall_mem.mp hostOps0_1_own) op hop

/-- Every operation after the region, stretch by stretch. -/
theorem suffix_own : ∀ ops ∈ ([hostOps1, hostOps1_1, hostOps1_2] : List (List (HloOp τ sig (Elt F)))), ∀ op ∈ ops,
    WritesOutside keptRefs op := by
  intro ops hops op hop
  simp only [List.mem_cons, List.mem_nil_iff, or_false] at hops
  rcases hops with rfl | rfl | rfl
  · exact (List.forall_iff_forall_mem.mp hostOps1_own) op hop
  · exact (List.forall_iff_forall_mem.mp hostOps1_1_own) op hop
  · exact (List.forall_iff_forall_mem.mp hostOps1_2_own) op hop

/-- Each array the pipeline stages is among the kept references. -/
theorem arrRef_kept : ∀ w : Fin 7, Pipeline.arrRef spec0 w ∈ keptRefs := by decide

/-! ## The lines after the region -/

/-- They touch the pipeline's arrays and the buffers that bypass the region only: every buffer of theirs is an unscoped
    TensorCore reference, and with nothing prefetched each such reference is one or the other. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => (suffix_own ops hops op hop).not_mem (arrRef_kept w)

/-! ## The arguments when the region is entered -/

/-- An argument holds its launch contents when the region is entered: no line before it writes an argument. -/
theorem V_arg (c : Dev nD) (b : Ref sig .tc) (hb : b ∈ argRefs) : V m c b = m ((c : Thread nD τ).loc b) :=
  StableHlo.after_of_forall_not_mem _ _ fun op hop => (prefix_own op hop).not_mem hb

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)

/-! ## The windows' blocks -/

/-- The queries' staging buffer holds the whole query array at every point, though it is fetched at the first only:
    for any proof data whose array is the region-entry contents and whose body leaves the block in place, an unfetched
    input still holds the block of the point before, which has the same index. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the targets' column. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bank tile, fetched anew at every point, holds the point's five thousand rows. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the lines that follow the region, a kept reference that is no array of the pipeline holds what it held when
    the region was entered: the region leaves every buffer but its arrays alone, and no later line writes it. -/
theorem afterTail_kept (dats : (p : Fin 1) → (c : Dev nD) → Dat τ (Elt F) Unit ℕ (UR sig nD τ) ℕ (cfgs p) c)
    (c : Dev nD) (b : Ref sig .tc) (hb : b ∈ keptRefs) (hne : ∀ w, Pipeline.arrRef spec0 w ≠ b) :
    Pipeline.afterTail₀ cfgs dats 0 (V0 m) [hostOps1, hostOps1_1, hostOps1_2] c b = V m c b :=
  (StableHlo.after_of_forall_not_mem _ _ fun op hop => by
      obtain ⟨ops, hops, hop⟩ := List.mem_flatten.mp hop
      exact (suffix_own ops hops op hop).not_mem hb).trans
    (Pipeline.withArrays_of_ne spec0 c (V0 m c) _ b hne)

/-- The frame from a frame run. The bank is the array of an input window, which the run leaves at its region-entry
    contents; the queries, the weights and the targets are no window's array, bypass the region and are written by no
    later line; and no line before the region writes an argument. So all four end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of _ rfl (by decide))).trans
        ((afterTail_kept m dats c main_arg0 (by decide) (by decide)).trans (V_main_arg0 m c)),
     ((h c).2 main_arg1 (Pipeline.mem_restRefs_of _ rfl (by decide))).trans
        ((afterTail_kept m dats c main_arg1 (by decide) (by decide)).trans (V_main_arg1 m c)),
     ((h c).1 2).trans (((dats 0 c).arrAt_in 2 rfl _).trans ((hA c 2).trans (V_main_arg2 m c))),
     ((h c).2 main_arg3 (Pipeline.mem_restRefs_of _ rfl (by decide))).trans
        ((afterTail_kept m dats c main_arg3 (by decide) (by decide)).trans (V_main_arg3 m c))⟩) h

/-! ## Where the windows are live -/

/-- The three inputs and the passed-through bank tile are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- A core's block of running maxima is stored at its last tile only: idle, and not written back, at its first tile -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- and at its inner tiles, -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- live at its last. -/
theorem liveAt0_4_C : ∀ t : Fin cfg0.N, ¬cond0_0 (grid0.coords t) → cond0_1 (grid0.coords t) → cfg0.idle 4 (grid0.coords t) = false := by decide +kernel

/-- The same of a core's block of sums of exponentials -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-- and of its block of target logits. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The region invariant -/

/-- What the launch hands the region and takes back: the three running statistics, each a whole memref owned at some
    contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The kernel body run once, whole, at a core's first tile (the reset branch taken, the write-out branch not): the three running statistics are handed over at anything, reset, then updated with this tile; the three per-core result blocks are not touched.
  The staging memrefs are whole buffers; the inputs' hold the point's blocks (`x0` the normalised queries, `x1` the
  targets, `x2` the tile of bank rows) and are handed back as they were. What each stored buffer ends with is given as
  the list of pieces stored into it, last first: the witness of the subtype, found when the run hands the buffer back.
-/
import proofs.«403753_j46050639347844_2_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_A (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) :
    Σ' (L3 : List (View.Piece (Elt F) S5000x256 .f32)) (LS0 : List (View.Piece (Elt F) S64x1 .f32)) (LS1 : List (View.Piece (Elt F) S64x1 .f32)),
      { LS2 : List (View.Piece (Elt F) S64x1 .f32) //
        ∀ (xi4 xi5 xi6 : Vec F S1x64x1 .f32) (E : Set ℕ) (K : PUnit → sProp 𝕄),
          iprop(owns (c : Thread nD τ) arg2 fullShare x0
              ∗ owns (c : Thread nD τ) arg3 fullShare x1
              ∗ owns (c : Thread nD τ) arg4 fullShare x2
              ∗ (∃ d, owns (c : Thread nD τ) arg5 fullShare d)
              ∗ owns (c : Thread nD τ) arg6 fullShare xi4
              ∗ owns (c : Thread nD τ) arg7 fullShare xi5
              ∗ owns (c : Thread nD τ) arg8 fullShare xi6
              ∗ (∃ d, owns (c : Thread nD τ) arg9 fullShare d)
              ∗ (∃ d, owns (c : Thread nD τ) arg10 fullShare d)
              ∗ (∃ d, owns (c : Thread nD τ) arg11 fullShare d)
              ∗ (iprop(owns (c : Thread nD τ) arg2 fullShare x0
                  ∗ owns (c : Thread nD τ) arg3 fullShare x1
                  ∗ owns (c : Thread nD τ) arg4 fullShare x2
                  ∗ (∃ f, arg5.view.loc (c : Thread nD τ) ↦[arg5.view.set]{fullShare} arg5.view.writes (Elt F) f L3)
                  ∗ owns (c : Thread nD τ) arg6 fullShare xi4
                  ∗ owns (c : Thread nD τ) arg7 fullShare xi5
                  ∗ owns (c : Thread nD τ) arg8 fullShare xi6
                  ∗ (∃ f, arg9.view.loc (c : Thread nD τ) ↦[arg9.view.set]{fullShare} arg9.view.writes (Elt F) f LS0)
                  ∗ (∃ f, arg10.view.loc (c : Thread nD τ) ↦[arg10.view.set]{fullShare} arg10.view.writes (Elt F) f LS1)
                  ∗ (∃ f, arg11.view.loc (c : Thread nD τ) ↦[arg11.view.set]{fullShare} arg11.view.writes (Elt F) f LS2)) -∗ K ⟨⟩))
            ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun xi4 xi5 xi6 E K => ?run⟩
  case run =>
    -- the printed function and its first part are rewritten to their sequences of memory operations over named payloads
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩,
      ⟨%f4, %hf4, H4⟩, ⟨%f5, %hf5, H5⟩, ⟨%f6, %hf6, H6⟩,
      ⟨%ds0, %fs0, -, HS0⟩, ⟨%ds1, %fs1, -, HS1⟩, ⟨%ds2, %fs2, -, HS2⟩, Hk⟩
    -- a whole buffer that reads as a named block holds exactly that block laid out
    obtain rfl := harg2.eq_unread hf0; obtain rfl := harg3.eq_unread hf1; obtain rfl := harg4.eq_unread hf2
    obtain rfl := harg6.eq_unread hf4; obtain rfl := harg7.eq_unread hf5; obtain rfl := harg8.eq_unread hf6
    -- the reset branch is taken (tile coordinate 0), the write-out branch is not (tile coordinate is not 19)
    sl_exec (disch := first | exact hc0 | exact hc1)
    sl_step
    iapply Hk
    -- queries, targets, bank tile: read only, handed back as they were
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the passed-through bank tile: one whole-block store
    isplitl [H3]
    · iexists _; iexact H3
    -- the three per-core result blocks: not touched at a tile that is not the core's last
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    -- running maximum, running sum of exponentials, running target logit: the reset piece beneath this tile's update
    isplitl [HS0]
    · iexists _; iexact HS0
    isplitl [HS1]
    · iexists _; iexact HS1
    iexists _; iexact HS2

end Cert.KernelIdeal.Fr

end
-- ==== Proof.KI.RunB.lean ====
/-
  The kernel body run once, whole, at a tile that is neither a core's first nor its last (neither branch taken): the three running statistics are handed over at what the tile before left and updated with this tile; the three per-core result blocks are not touched.
  The staging memrefs are whole buffers; the inputs' hold the point's blocks (`x0` the normalised queries, `x1` the
  targets, `x2` the tile of bank rows) and are handed back as they were. What each stored buffer ends with is given as
  the list of pieces stored into it, last first: the witness of the subtype, found when the run hands the buffer back.
-/
import proofs.«403753_j46050639347844_2_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_B (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) :
    Σ' (L3 : List (View.Piece (Elt F) S5000x256 .f32)) (LS0 : List (View.Piece (Elt F) S64x1 .f32)) (LS1 : List (View.Piece (Elt F) S64x1 .f32)),
      { LS2 : List (View.Piece (Elt F) S64x1 .f32) //
        ∀ (xi4 xi5 xi6 : Vec F S1x64x1 .f32) (E : Set ℕ) (K : PUnit → sProp 𝕄),
          iprop(owns (c : Thread nD τ) arg2 fullShare x0
              ∗ owns (c : Thread nD τ) arg3 fullShare x1
              ∗ owns (c : Thread nD τ) arg4 fullShare x2
              ∗ (∃ d, owns (c : Thread nD τ) arg5 fullShare d)
              ∗ owns (c : Thread nD τ) arg6 fullShare xi4
              ∗ owns (c : Thread nD τ) arg7 fullShare xi5
              ∗ owns (c : Thread nD τ) arg8 fullShare xi6
              ∗ owns (c : Thread nD τ) arg9 fullShare xs0
              ∗ owns (c : Thread nD τ) arg10 fullShare xs1
              ∗ owns (c : Thread nD τ) arg11 fullShare xs2
              ∗ (iprop(owns (c : Thread nD τ) arg2 fullShare x0
                  ∗ owns (c : Thread nD τ) arg3 fullShare x1
                  ∗ owns (c : Thread nD τ) arg4 fullShare x2
                  ∗ (∃ f, arg5.view.loc (c : Thread nD τ) ↦[arg5.view.set]{fullShare} arg5.view.writes (Elt F) f L3)
                  ∗ owns (c : Thread nD τ) arg6 fullShare xi4
                  ∗ owns (c : Thread nD τ) arg7 fullShare xi5
                  ∗ owns (c : Thread nD τ) arg8 fullShare xi6
                  ∗ (∃ f, arg9.view.loc (c : Thread nD τ) ↦[arg9.view.set]{fullShare} arg9.view.writes (Elt F) f LS0)
                  ∗ (∃ f, arg10.view.loc (c : Thread nD τ) ↦[arg10.view.set]{fullShare} arg10.view.writes (Elt F) f LS1)
                  ∗ (∃ f, arg11.view.loc (c : Thread nD τ) ↦[arg11.view.set]{fullShare} arg11.view.writes (Elt F) f LS2)) -∗ K ⟨⟩))
            ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ⟨?_, fun xi4 xi5 xi6 E K => ?run⟩⟩
  case run =>
    -- the printed body is its sequence of loads and stores over the named payloads
    simp only [cc0__kernel_eq_skeleton]; unfold cc0__kernel_skel
    simp only [k0_part1_eq_skeleton]; unfold k0_part1_skel
    unfold owns
    iintro ⟨⟨%fq, %hfq, Hq⟩, ⟨%ft, %hft, Ht⟩, ⟨%fb, %hfb, Hb⟩, ⟨%dcopy, %fcopy, %hfcopy, Hcopy⟩,
      ⟨%fr4, %hfr4, Hr4⟩, ⟨%fr5, %hfr5, Hr5⟩, ⟨%fr6, %hfr6, Hr6⟩,
      ⟨%fmax, %hfmax, Hmax⟩, ⟨%fsum, %hfsum, Hsum⟩, ⟨%ftgt, %hftgt, Htgt⟩, Hk⟩
    -- a whole buffer read as x holds exactly x laid out through its view
    obtain rfl := harg2.eq_unread hfq; obtain rfl := harg3.eq_unread hft; obtain rfl := harg4.eq_unread hfb
    obtain rfl := harg6.eq_unread hfr4; obtain rfl := harg7.eq_unread hfr5; obtain rfl := harg8.eq_unread hfr6
    obtain rfl := harg9.eq_unread hfmax; obtain rfl := harg10.eq_unread hfsum; obtain rfl := harg11.eq_unread hftgt
    -- neither the reset (first tile of a core) nor the write of the per-core blocks (last tile) is taken
    sl_exec (disch := first | exact hc0 | exact hc1)
    sl_step
    iapply Hk
    -- queries, targets and bank tile go back as they came
    isplitl [Hq]
    · iexists _; isplitr; · ipureintro; exact harg2.read_unread _
      iexact Hq
    isplitl [Ht]
    · iexists _; isplitr; · ipureintro; exact harg3.read_unread _
      iexact Ht
    isplitl [Hb]
    · iexists _; isplitr; · ipureintro; exact harg4.read_unread _
      iexact Hb
    -- the passed-through bank tile: one whole-block store
    isplitl [Hcopy]
    · iexists _; iexact Hcopy
    -- the three per-core result blocks are untouched at an inner tile
    isplitl [Hr4]
    · iexists _; isplitr; · ipureintro; exact harg6.read_unread _
      iexact Hr4
    isplitl [Hr5]
    · iexists _; isplitr; · ipureintro; exact harg7.read_unread _
      iexact Hr5
    isplitl [Hr6]
    · iexists _; isplitr; · ipureintro; exact harg8.read_unread _
      iexact Hr6
    -- running maximum, running sum of exponentials, running target logit: each with this tile's update stored
    isplitl [Hmax]
    · iexists _; iexact Hmax
    isplitl [Hsum]
    · iexists _; iexact Hsum
    iexists _; iexact Htgt

end Cert.KernelIdeal.Fr

end
-- ==== Proof.KI.RunC.lean ====
/-
  The kernel body run once, whole, at a core's last tile (the reset branch not taken, the write-out branch taken): the statistics are updated with this tile and then copied into the three per-core result blocks.
  The staging memrefs are whole buffers; the inputs' hold the point's blocks (`x0` the normalised queries, `x1` the
  targets, `x2` the tile of bank rows) and are handed back as they were. What each stored buffer ends with is given as
  the list of pieces stored into it, last first: the witness of the subtype, found when the run hands the buffer back.
-/
import proofs.«403753_j46050639347844_2_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_C (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    Σ' (L3 : List (View.Piece (Elt F) S5000x256 .f32)) (L4 : List (View.Piece (Elt F) S1x64x1 .f32)) (L5 : List (View.Piece (Elt F) S1x64x1 .f32)) (L6 : List (View.Piece (Elt F) S1x64x1 .f32)) (LS0 : List (View.Piece (Elt F) S64x1 .f32)) (LS1 : List (View.Piece (Elt F) S64x1 .f32)),
      { LS2 : List (View.Piece (Elt F) S64x1 .f32) //
        ∀ (E : Set ℕ) (K : PUnit → sProp 𝕄),
          iprop(owns (c : Thread nD τ) arg2 fullShare x0
              ∗ owns (c : Thread nD τ) arg3 fullShare x1
              ∗ owns (c : Thread nD τ) arg4 fullShare x2
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ owns (c : Thread nD τ) arg9 fullShare xs0
              ∗ owns (c : Thread nD τ) arg10 fullShare xs1
              ∗ owns (c : Thread nD τ) arg11 fullShare xs2
              ∗ (iprop(owns (c : Thread nD τ) arg2 fullShare x0
                  ∗ owns (c : Thread nD τ) arg3 fullShare x1
                  ∗ owns (c : Thread nD τ) arg4 fullShare x2
                  ∗ (∃ f, arg5.view.loc (c : Thread nD τ) ↦[arg5.view.set]{fullShare} arg5.view.writes (Elt F) f L3)
                  ∗ (∃ f, arg6.view.loc (c : Thread nD τ) ↦[arg6.view.set]{fullShare} arg6.view.writes (Elt F) f L4)
                  ∗ (∃ f, arg7.view.loc (c : Thread nD τ) ↦[arg7.view.set]{fullShare} arg7.view.writes (Elt F) f L5)
                  ∗ (∃ f, arg8.view.loc (c : Thread nD τ) ↦[arg8.view.set]{fullShare} arg8.view.writes (Elt F) f L6)
                  ∗ (∃ f, arg9.view.loc (c : Thread nD τ) ↦[arg9.view.set]{fullShare} arg9.view.writes (Elt F) f LS0)
                  ∗ (∃ f, arg10.view.loc (c : Thread nD τ) ↦[arg10.view.set]{fullShare} arg10.view.writes (Elt F) f LS1)
                  ∗ (∃ f, arg11.view.loc (c : Thread nD τ) ↦[arg11.view.set]{fullShare} arg11.view.writes (Elt F) f LS2)) -∗ K ⟨⟩))
            ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    -- the printed body is its skeleton of memory operations over the named payloads
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩,
      ⟨%d5, %f5, -, H5⟩, ⟨%d6, %f6, -, H6⟩, ⟨%fs0, %hfs0, HS0⟩, ⟨%fs1, %hfs1, HS1⟩, ⟨%fs2, %hfs2, HS2⟩, Hk⟩
    -- a whole buffer read at `x` holds exactly the function that reads back `x`
    obtain rfl := harg2.eq_unread hf0; obtain rfl := harg3.eq_unread hf1; obtain rfl := harg4.eq_unread hf2
    obtain rfl := harg9.eq_unread hfs0; obtain rfl := harg10.eq_unread hfs1; obtain rfl := harg11.eq_unread hfs2
    -- the tile is not a core's first (no reset) and is its last (the three statistics are written out)
    sl_exec (disch := first | exact hc0 | exact hc1)
    sl_step
    iapply Hk
    -- the three inputs go back as they came
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the passed-through bank tile and the three per-core result blocks, each with the piece stored into it
    isplitl [H3]; · iexists _; iexact H3
    isplitl [H4]; · iexists _; iexact H4
    isplitl [H5]; · iexists _; iexact H5
    isplitl [H6]; · iexists _; iexact H6
    -- the running maximum, sum of exponentials and target logit after this tile's update
    isplitl [HS0]; · iexists _; iexact HS0
    isplitl [HS1]; · iexists _; iexact HS1
    iexists _; iexact HS2

end Cert.KernelIdeal.Fr

end
-- ==== Proof.KI.FrameDefs.lean ====
/-
  What the kernel leaves, point by point.

  Per case of the body's two branches: what the pass-through output, the three per-core result blocks and the three
  running statistics hold after the body, read back from the pieces the case's run stored. Then the recursion over the
  40 grid points (a core's first tile starts the statistics afresh; every other tile updates what the tile before left),
  the region invariant that carries the statistics from one point to the next, and the pipeline's proof data.
-/
import proofs.«403753_j46050639347844_2_alg».proof.Proof.KI.Vals
import proofs.«403753_j46050639347844_2_alg».proof.Proof.KI.RunA
import proofs.«403753_j46050639347844_2_alg».proof.Proof.KI.RunB
import proofs.«403753_j46050639347844_2_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## Per case, what each buffer ends with -/

/-- What a core's first tile leaves in the staging buffer of output 3 (the pass-through copy of the bank tile): its pieces read back. -/
def out0_A_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S5000x256 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 hc0 hc1 x0 x1 x2).1)
/-- What a core's first tile leaves in the running maximum: its pieces read back. -/
def sout0_A_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S64x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2).2.1)
/-- What a core's first tile leaves in the running sum of exponentials: its pieces read back. -/
def sout0_A_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S64x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2).2.2.1)
/-- What a core's first tile leaves in the running target logit: its pieces read back. -/
def sout0_A_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) : Vec F S64x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2).2.2.2.1)
/-- What a tile that is neither first nor last of its core leaves in the staging buffer of output 3 (the pass-through copy of the bank tile): its pieces read back. -/
def out0_B_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S5000x256 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 hc0 hc1 x0 x1 x2 xs0 xs1 xs2).1)
/-- What a tile that is neither first nor last of its core leaves in the running maximum: its pieces read back. -/
def sout0_B_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S64x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 xs0 xs1 xs2).2.1)
/-- What a tile that is neither first nor last of its core leaves in the running sum of exponentials: its pieces read back. -/
def sout0_B_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 xs0 xs1 xs2).2.2.1)
/-- What a tile that is neither first nor last of its core leaves in the running target logit: its pieces read back. -/
def sout0_B_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) : Vec F S64x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 xs0 xs1 xs2).2.2.2.1)
/-- What a core's last tile leaves in the staging buffer of output 3 (the pass-through copy of the bank tile): its pieces read back. -/
def out0_C_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S5000x256 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 arg11 harg11 hc0 hc1 x0 x1 x2 xs0 xs1 xs2).1)
/-- What a core's last tile leaves in the staging buffer of output 4 (the per-core running maximum): its pieces read back. -/
def out0_C_4 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S1x64x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.1)
/-- What a core's last tile leaves in the staging buffer of output 5 (the per-core sum of exponentials): its pieces read back. -/
def out0_C_5 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S1x64x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.1)
/-- What a core's last tile leaves in the staging buffer of output 6 (the per-core target logit): its pieces read back. -/
def out0_C_6 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S1x64x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.1)
/-- What a core's last tile leaves in the running maximum: its pieces read back. -/
def sout0_C_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S64x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.1)
/-- What a core's last tile leaves in the running sum of exponentials: its pieces read back. -/
def sout0_C_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.1)
/-- What a core's last tile leaves in the running target logit: its pieces read back. -/
def sout0_C_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) : Vec F S64x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.2.1)

/-! ## Point by point -/

/-- A fixed value standing for the contents of an output block the body does not touch at a point (outputs 4, 5, 6 away
    from a core's last tile: the window is idle there and not written back, so nothing consults the value). -/
def junkO : Vec F S1x64x1 .f32 := VO0_4.read (Elt F) VO0_4.junk

/-- THE ACCUMULATION. What the four outputs' staging buffers and the three running statistics hold after the body at
    position `n` (outputs 3, 4, 5, 6, then running maximum, sum of exponentials, target logit): the case the closed forms
    select at `n`, run at the point's memrefs and input blocks; away from a core's first tile the statistics are updated
    from what position `n - 1` left. A point cannot be both a first and a last tile. -/
def outsAt0 (c : Dev nD) : (n : ℕ) → n < cfg0.N → Vec F S5000x256 .f32 × Vec F S1x64x1 .f32 × Vec F S1x64x1 .f32 × Vec F S1x64x1 .f32 × Vec F S64x1 .f32 × Vec F S64x1 .f32 × Vec F S64x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        junkO,
        junkO,
        junkO,
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 20 = 0 then
      if h1 : (n + 1) % 20 = 19 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        junkO,
        junkO,
        junkO,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 20 = 19 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        junkO,
        junkO,
        junkO,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a core's first tile. -/
theorem outsAt0_A (c : Dev nD) (t : Fin cfg0.N) (h0 : t.val % 20 = 0) (h1 : ¬t.val % 20 = 19) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
        junkO,
        junkO,
        junkO,
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
        sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a tile that is neither first nor last: over what the point before left. -/
theorem outsAt0_B (c : Dev nD) (t : Fin cfg0.N) (h0 : ¬t.val % 20 = 0) (h1 : ¬t.val % 20 = 19) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        junkO,
        junkO,
        junkO,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a core's last tile: over what the point before left. -/
theorem outsAt0_C (c : Dev nD) (t : Fin cfg0.N) (h0 : ¬t.val % 20 = 0) (h1 : t.val % 20 = 19) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the three running statistics at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the outputs' at `outsAt0`'s components; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]

end Cert.KernelIdeal.Fr

end
-- ==== Proof.KI.Covers.lean ====
/-
  Every buffer a case stores into is stored whole: the rectangles of its pieces tile the buffer, so each index lies in
  some piece. This is what lets a buffer's contents after the body be read back from the pieces alone.
-/
import proofs.«403753_j46050639347844_2_alg».proof.Proof.KI.FrameDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- At a core's first tile the pieces stored into output 3 tile its block, so they cover it. -/
theorem cover0_A_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S5000x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).1 S5000x256.size (by sl_kernel_rfl) y
/-- At a core's first tile the pieces stored into scratch 0 tile it. -/
theorem scover0_A_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S64x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.1 S64x1.size (by sl_kernel_rfl) y
/-- At a core's first tile the pieces stored into scratch 1 tile it. -/
theorem scover0_A_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S64x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.2.1 S64x1.size (by sl_kernel_rfl) y
/-- At a core's first tile the pieces stored into scratch 2 tile it. -/
theorem scover0_A_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) (y : S64x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.2.2.1 S64x1.size (by sl_kernel_rfl) y
/-- At a tile that is neither first nor last of its core the pieces stored into output 3 tile its block, so they cover it. -/
theorem cover0_B_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S5000x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).1 S5000x256.size (by sl_kernel_rfl) y
/-- At a tile that is neither first nor last of its core the pieces stored into scratch 0 tile it. -/
theorem scover0_B_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).2.1 S64x1.size (by sl_kernel_rfl) y
/-- At a tile that is neither first nor last of its core the pieces stored into scratch 1 tile it. -/
theorem scover0_B_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).2.2.1 S64x1.size (by sl_kernel_rfl) y
/-- At a tile that is neither first nor last of its core the pieces stored into scratch 2 tile it. -/
theorem scover0_B_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1 xs2).2.2.2.1 S64x1.size (by sl_kernel_rfl) y
/-- At a core's last tile the pieces stored into output 3 tile its block, so they cover it. -/
theorem cover0_C_3 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S5000x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).1 S5000x256.size (by sl_kernel_rfl) y
/-- At a core's last tile the pieces stored into output 4 tile its block. -/
theorem cover0_C_4 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.1 S1x64x1.size (by sl_kernel_rfl) y
/-- At a core's last tile the pieces stored into output 5 tile its block. -/
theorem cover0_C_5 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.1 S1x64x1.size (by sl_kernel_rfl) y
/-- At a core's last tile the pieces stored into output 6 tile its block. -/
theorem cover0_C_6 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.1 S1x64x1.size (by sl_kernel_rfl) y
/-- At a core's last tile the pieces stored into scratch 0 tile it. -/
theorem scover0_C_0 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.1 S64x1.size (by sl_kernel_rfl) y
/-- At a core's last tile the pieces stored into scratch 1 tile it. -/
theorem scover0_C_1 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.1 S64x1.size (by sl_kernel_rfl) y
/-- At a core's last tile the pieces stored into scratch 2 tile it. -/
theorem scover0_C_2 (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) (y : S64x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xs0 xs1 xs2).2.2.2.2.2.2.1 S64x1.size (by sl_kernel_rfl) y

end Cert.KernelIdeal.Fr

end
-- ==== Proof.KI.Frame.lean ====
/-
  The frame of the kernel program. At every grid point the body, run whole in the case the point is in (a core's
  first tile, an inner tile, its last tile), takes the staging buffers of the seven windows and the three running
  statistics and hands them back: the inputs as they were, the pass-through tile stored whole, the three per-core
  result blocks untouched except at a core's last tile, the statistics at this point's values. The statistics are
  carried from point to point by the region invariant; at a core's first tile their old values are forgotten, since the
  body resets them before it reads them. With the host lines around the region this gives the run of @main, and
  from its post the frame: the four arguments end as launched.
-/
import proofs.«403753_j46050639347844_2_alg».proof.Proof.KI.Shared
import proofs.«403753_j46050639347844_2_alg».proof.Proof.KI.Covers

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds in the inputs' staging buffers -/

/-- The queries' buffer holds the query array, the targets' buffer the target column, the bank's buffer the point's tile
    of bank rows: at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point t: the invariant, what the core owes, and the seven windows' current staging
    buffers, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point. The inputs' buffers hold their blocks; the point is a core's first tile, an inner tile or its
    last one (never first and last at once: twenty tiles a core), and the run of that case applies. At a first tile the
    invariant hands over the three statistics at whatever they hold (anything at the very first point, the other core's
    final values at the second core's first tile) and the run resets them; elsewhere it hands them over at what the point
    before left, which is what the case's run updates. Each stored buffer comes back as its pieces written over some prior
    contents, and since the pieces cover it, it reads as the case's contents. The per-core result blocks come back
    untouched away from a core's last tile, where the pipeline neither reads nor writes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  -- the three inputs and the pass-through tile are live at every point
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases h0 : t.val % 20 = 0
  · by_cases h1 : t.val % 20 = 19
    · exfalso; omega
    · -- a core's first tile
      have hc0 : cond0_0 (grid0.coords t) := (hcond0_0 t).mpr h0
      have hc1 : ¬cond0_1 (grid0.coords t) := fun h => h1 ((hcond0_1 t).mp h)
      rw [Dat.leavesExact_idle (dats m 0 c) 4 t (idleAt0_4_A t hc0 hc1) (noFlush0_4_A t hc0 hc1)]
      rw [Dat.leavesExact_idle (dats m 0 c) 5 t (idleAt0_5_A t hc0 hc1) (noFlush0_5_A t hc0 hc1)]
      rw [Dat.leavesExact_idle (dats m 0 c) 6 t (idleAt0_6_A t hc0 hc1) (noFlush0_6_A t hc0 hc1)]
      rw [outsAt0_A m c t h0 h1]
      unfold out0_A_3 sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t)).2.2.2.2 _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, ⟨%e3, H3⟩, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _)
        isplitl [H4]; · iexists _; iexact H4
        isplitl [H5]; · iexists _; iexact H5
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t)).2.2.2.2 _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, ⟨%e3, H3⟩, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _)
        isplitl [H4]; · iexists _; iexact H4
        isplitl [H5]; · iexists _; iexact H5
        iexists _; iexact H6
  · have hz : t.val ≠ 0 := fun e => h0 (by rw [e])
    by_cases h1 : t.val % 20 = 19
    · -- a core's last tile
      have hc0 : ¬cond0_0 (grid0.coords t) := fun h => h0 ((hcond0_0 t).mp h)
      have hc1 : cond0_1 (grid0.coords t) := (hcond0_1 t).mpr h1
      rw [show (dats m 0 c).leavesExact 4 t = owns (c : Thread nD τ) (ms0_4 t) fullShare ((dats m 0 c).after 4 t) from by
          unfold Dat.leavesExact; rw [liveAt0_4_C t hc0 hc1], after0_4]
      rw [show (dats m 0 c).leavesExact 5 t = owns (c : Thread nD τ) (ms0_5 t) fullShare ((dats m 0 c).after 5 t) from by
          unfold Dat.leavesExact; rw [liveAt0_5_C t hc0 hc1], after0_5]
      rw [show (dats m 0 c).leavesExact 6 t = owns (c : Thread nD τ) (ms0_6 t) fullShare ((dats m 0 c).after 6 t) from by
          unfold Dat.leavesExact; rw [liveAt0_6_C t hc0 hc1], after0_6]
      rw [outsAt0_C m c t h0 h1]
      unfold out0_C_3 out0_C_4 out0_C_5 out0_C_6 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, ⟨%e3, H3⟩, ⟨%e4, H4⟩, ⟨%e5, H5⟩, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _)
    · -- an inner tile
      have hc0 : ¬cond0_0 (grid0.coords t) := fun h => h0 ((hcond0_0 t).mp h)
      have hc1 : ¬cond0_1 (grid0.coords t) := fun h => h1 ((hcond0_1 t).mp h)
      rw [Dat.leavesExact_idle (dats m 0 c) 4 t (idleAt0_4_B t hc0 hc1) (noFlush0_4_B t hc0 hc1)]
      rw [Dat.leavesExact_idle (dats m 0 c) 5 t (idleAt0_5_B t hc0 hc1) (noFlush0_5_B t hc0 hc1)]
      rw [Dat.leavesExact_idle (dats m 0 c) 6 t (idleAt0_6_B t hc0 hc1) (noFlush0_6_B t hc0 hc1)]
      rw [outsAt0_B m c t h0 h1]
      unfold out0_B_3 sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) _ _ _).2.2.2.2 _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, ⟨%e3, H3⟩, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _ _)
      isplitl [H4]; · iexists _; iexact H4
      isplitl [H5]; · iexists _; iexact H5
      iexists _; iexact H6

/-- The body obligation of the pipeline, at every point: the seven windows one by one. -/
theorem body_obligation (c : Dev nD) : BodyObligation (dats (F := F) m 0 c) (defs₀ (F := F)) Variants.none () Set.univ := fun t => by
  rw [bigSep_W0, bigSep_W0]
  exact sound_body m c t

/-! ## The invariant at the region's ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the three statistics hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- In particular after the last. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

set_option maxHeartbeats 3200000 in
set_option backward.isDefEq.respectTransparency.types false in
/-- From any launch memory with zero counters, every weakly fair execution of @main on the TensorCores terminates, and in
    every final state each array of the pipeline holds what the forty points' write-backs leave in it, and every other
    unscoped buffer what the host lines after the region compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: @main runs, and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The same run read at the two results as well: the loss and the updated bank are buffers no window stages, so they
    end at what the lines after the region compute from the region's exit contents; the arguments as in the frame. -/
theorem run_results : θ_run defs (onTc (τ := τ) (main (F := F))) ⟨m, fun _ => 0, ρ⟩ (fun r => ∀ c : Dev nD,
      r.2.mem ((c.tc : Thread nD τ).loc main_v33) = Pipeline.afterTail₀ cfgs (dats m) 0 (V0 m) [hostOps1, hostOps1_1, hostOps1_2] c main_v33
      ∧ r.2.mem ((c.tc : Thread nD τ).loc main_v60) = Pipeline.afterTail₀ cfgs (dats m) 0 (V0 m) [hostOps1, hostOps1_1, hostOps1_2] c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v33 (Pipeline.mem_restRefs_of _ rfl (by decide)),
     (h c).2 main_v60 (Pipeline.mem_restRefs_of _ rfl (by decide)),
     ((h c).2 main_arg0 (Pipeline.mem_restRefs_of _ rfl (by decide))).trans
        ((afterTail_kept m (dats m) c main_arg0 (by decide) (by decide)).trans (V_main_arg0 m c)),
     ((h c).2 main_arg1 (Pipeline.mem_restRefs_of _ rfl (by decide))).trans
        ((afterTail_kept m (dats m) c main_arg1 (by decide) (by decide)).trans (V_main_arg1 m c)),
     ((h c).1 2).trans ((((dats m) 0 c).arrAt_in 2 rfl _).trans ((A_eq m c 2).trans (V_main_arg2 m c))),
     ((h c).2 main_arg3 (Pipeline.mem_restRefs_of _ rfl (by decide))).trans
        ((afterTail_kept m (dats m) c main_arg3 (by decide) (by decide)).trans (V_main_arg3 m c))⟩) (run_main m ρ)

end Cert.KernelIdeal.Fr

end
-- ==== Proof.KI.Pieces.lean ====
/-
  What each case of the kernel body leaves in each buffer, as the body's arithmetic over the point's input blocks and
  over what the point before left in the three running statistics.

  Every store of the body goes through the rectangle of the whole buffer at zero offsets, so the last store into a
  buffer is what the buffer holds afterwards, and a load of a whole buffer reads exactly its contents. At a core's first
  tile each statistic is first reset and then updated: the update reads the reset value back, and is stored over it.
  At a core's last tile the three per-core results are the statistics read back after this tile's update.
-/
import proofs.«403753_j46050639347844_2_alg».proof.Proof.KI.Covers
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The zero offsets of a rank-2 whole-buffer rectangle, as a constant function. -/
private theorem hz2 : (![0, 0] : Fin 2 → Nat) = fun _ => 0 := funext fun a => by fin_cases a <;> rfl
/-- The zero offsets of a rank-3 whole-buffer rectangle, as a constant function. -/
private theorem hz3 : (![0, 0, 0] : Fin 3 → Nat) = fun _ => 0 := funext fun a => by fin_cases a <;> rfl

/-! ## A tile strictly inside a core's run: one store per buffer, over what the tile before left -/

/-- The pass-through output holds the bank tile as loaded. -/
theorem out0_B_3_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) :
    out0_B_3 c i arg2 harg2 arg3 harg3 arg4 harg4 arg5 harg5 arg6 harg6 arg7 harg7 arg8 harg8 arg9 harg9 arg10 harg10 arg11 harg11 hc0 hc1 x0 x1 x2 xs0 xs1 xs2 = x2 := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  rw [View.canon_unit_zero (S := S5000x256) hz2]
  simp only [View.readAt_eq_ld, harg4.read_unread, View.ld_unit_zero (S := S5000x256) hz2]

/-- The running maximum becomes the larger of the carried maximum and this tile's row maxima of the scaled logits. -/
theorem sout0_B_0_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) :
    sout0_B_0 c i arg2 harg2 arg3 harg3 arg4 harg4 arg5 harg5 arg6 harg6 arg7 harg7 arg8 harg8 arg9 harg9 arg10 harg10 arg11 harg11 hc0 hc1 x0 x1 x2 xs0 xs1 xs2 = k0_pay2 (k0_pay11 x0 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  rw [View.canon_unit_zero (S := S64x1) hz2]
  simp only [View.readAt_eq_ld, harg2.read_unread, harg4.read_unread, harg9.read_unread, View.ld_unit_zero (S := S64x256) hz2, View.ld_unit_zero (S := S5000x256) hz2, View.ld_unit_zero (S := S64x1) hz2]

/-- The running sum of exponentials is rescaled from the carried maximum to the new one and this tile's exponentials are added. -/
theorem sout0_B_1_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) :
    sout0_B_1 c i arg2 harg2 arg3 harg3 arg4 harg4 arg5 harg5 arg6 harg6 arg7 harg7 arg8 harg8 arg9 harg9 arg10 harg10 arg11 harg11 hc0 hc1 x0 x1 x2 xs0 xs1 xs2 = k0_pay1 (k0_pay9 x0 x2) (k0_pay11 x0 x2 xs0) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  rw [View.canon_unit_zero (S := S64x1) hz2]
  simp only [View.readAt_eq_ld, harg2.read_unread, harg4.read_unread, harg9.read_unread, harg10.read_unread, View.ld_unit_zero (S := S64x256) hz2, View.ld_unit_zero (S := S5000x256) hz2, View.ld_unit_zero (S := S64x1) hz2]

/-- The running target logit gains this tile's logit at the target column, where the target falls in the tile. -/
theorem sout0_B_2_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : ¬cond0_1 i)
    (x0 : Vec F S64x256 .f32) (x1 : Vec F S64x1 .i32) (x2 : Vec F S5000x256 .f32) (xs0 xs1 xs2 : Vec F S64x1 .f32) :
    sout0_B_2 c i arg2 harg2 arg3 harg3 arg4 harg4 arg5 harg5 arg6 harg6 arg7 harg7 arg8 harg8 arg9 harg9 arg10 harg10 arg11 harg11 hc0 hc1 x0 x1 x2 xs0 xs1 xs2 = k0_pay10 i x0 x2 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  rw [View.canon_unit_zero (S := S64x1) hz2]
  simp only [View.readAt_eq_ld, harg2.read_unread, harg3.read_unread, harg4.read_unread, harg11.read_unread, View.ld_unit_zero (S := S64x256) hz2, View.ld_unit_zero (S := S5000x256) hz2, View.ld_unit_zero (S := S64x1) hz2]

/-! ## A core's last tile: the same update, then the three statistics copied out as read back after it -/

/-- The pass-through output holds the bank tile as loaded. -/
theorem out0_C_3_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    out0_C_3 c i arg2 harg2 arg3 harg3 arg4 harg4 arg5 harg5 arg6 harg6 arg7 harg7 arg8 harg8 arg9 harg9 arg10 harg10 arg11 harg11 hc0 hc1 x0 x1 x2 xs0 xs1 xs2 = x2 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S5000x256) hz2]
  simp only [View.readAt_eq_ld, harg4.read_unread, View.ld_unit_zero (S := S5000x256) hz2]

/-- The per-core maximum written out is the running maximum read back after this tile's update. -/
theorem out0_C_4_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    out0_C_4 c i arg2 harg2 arg3 harg3 arg4 harg4 arg5 harg5 arg6 harg6 arg7 harg7 arg8 harg8 arg9 harg9 arg10 harg10 arg11 harg11 hc0 hc1 x0 x1 x2 xs0 xs1 xs2 = k0_pay3 (k0_pay2 (k0_pay11 x0 x2 xs0)) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S1x64x1) hz3]
  simp only [View.readAt_eq_ld, View.readCov_unit_zero (S := S64x1) _ hz2, harg2.read_unread, harg4.read_unread, harg9.read_unread, View.ld_unit_zero (S := S64x256) hz2, View.ld_unit_zero (S := S5000x256) hz2, View.ld_unit_zero (S := S64x1) hz2]

/-- The per-core sum of exponentials written out is the running sum read back after this tile's update. -/
theorem out0_C_5_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    out0_C_5 c i arg2 harg2 arg3 harg3 arg4 harg4 arg5 harg5 arg6 harg6 arg7 harg7 arg8 harg8 arg9 harg9 arg10 harg10 arg11 harg11 hc0 hc1 x0 x1 x2 xs0 xs1 xs2 = k0_pay4 (k0_pay1 (k0_pay9 x0 x2) (k0_pay11 x0 x2 xs0) xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S1x64x1) hz3]
  simp only [View.readAt_eq_ld, View.readCov_unit_zero (S := S64x1) _ hz2, harg2.read_unread, harg4.read_unread, harg9.read_unread, harg10.read_unread, View.ld_unit_zero (S := S64x256) hz2, View.ld_unit_zero (S := S5000x256) hz2, View.ld_unit_zero (S := S64x1) hz2]

/-- The per-core target logit written out is the running target logit read back after this tile's update. -/
theorem out0_C_6_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    out0_C_6 c i arg2 harg2 arg3 harg3 arg4 harg4 arg5 harg5 arg6 harg6 arg7 harg7 arg8 harg8 arg9 harg9 arg10 harg10 arg11 harg11 hc0 hc1 x0 x1 x2 xs0 xs1 xs2 = k0_pay5 (k0_pay10 i x0 x2 x1 xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S1x64x1) hz3]
  simp only [View.readAt_eq_ld, View.readCov_unit_zero (S := S64x1) _ hz2, harg2.read_unread, harg3.read_unread, harg4.read_unread, harg11.read_unread, View.ld_unit_zero (S := S64x256) hz2, View.ld_unit_zero (S := S5000x256) hz2, View.ld_unit_zero (S := S64x1) hz2]

/-- The running maximum after a core's last tile: updated as at an inner tile. -/
theorem sout0_C_0_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    sout0_C_0 c i arg2 harg2 arg3 harg3 arg4 harg4 arg5 harg5 arg6 harg6 arg7 harg7 arg8 harg8 arg9 harg9 arg10 harg10 arg11 harg11 hc0 hc1 x0 x1 x2 xs0 xs1 xs2 = k0_pay2 (k0_pay11 x0 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S64x1) hz2]
  simp only [View.readAt_eq_ld, harg2.read_unread, harg4.read_unread, harg9.read_unread, View.ld_unit_zero (S := S64x256) hz2, View.ld_unit_zero (S := S5000x256) hz2, View.ld_unit_zero (S := S64x1) hz2]

/-- The running sum of exponentials after a core's last tile: updated as at an inner tile. -/
theorem sout0_C_1_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    sout0_C_1 c i arg2 harg2 arg3 harg3 arg4 harg4 arg5 harg5 arg6 harg6 arg7 harg7 arg8 harg8 arg9 harg9 arg10 harg10 arg11 harg11 hc0 hc1 x0 x1 x2 xs0 xs1 xs2 = k0_pay1 (k0_pay9 x0 x2) (k0_pay11 x0 x2 xs0) xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S64x1) hz2]
  simp only [View.readAt_eq_ld, harg2.read_unread, harg4.read_unread, harg9.read_unread, harg10.read_unread, View.ld_unit_zero (S := S64x256) hz2, View.ld_unit_zero (S := S5000x256) hz2, View.ld_unit_zero (S := S64x1) hz2]

/-- The running target logit after a core's last tile: updated as at an inner tile. -/
theorem sout0_C_2_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : ¬cond0_0 i) (hc1 : cond0_1 i)
    (x0 : Vec F S64x256 .f32) (x1 : Vec F S64x1 .i32) (x2 : Vec F S5000x256 .f32) (xs0 xs1 xs2 : Vec F S64x1 .f32) :
    sout0_C_2 c i arg2 harg2 arg3 harg3 arg4 harg4 arg5 harg5 arg6 harg6 arg7 harg7 arg8 harg8 arg9 harg9 arg10 harg10 arg11 harg11 hc0 hc1 x0 x1 x2 xs0 xs1 xs2 = k0_pay10 i x0 x2 x1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  rw [View.canon_unit_zero (S := S64x1) hz2]
  simp only [View.readAt_eq_ld, harg2.read_unread, harg3.read_unread, harg4.read_unread, harg11.read_unread, View.ld_unit_zero (S := S64x256) hz2, View.ld_unit_zero (S := S5000x256) hz2, View.ld_unit_zero (S := S64x1) hz2]

/-! ## A core's first tile: each statistic is reset, then updated from the reset value read back

The update is stored over the reset through the same whole-buffer rectangle, so it alone is what the buffer ends
with; the value it was computed from is the reset constant (minus infinity for the maximum, zero for the two sums). -/

/-- The pass-through output holds the bank tile as loaded. -/
theorem out0_A_3_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) :
    out0_A_3 c i arg2 harg2 arg3 harg3 arg4 harg4 arg5 harg5 arg6 harg6 arg7 harg7 arg8 harg8 arg9 harg9 arg10 harg10 arg11 harg11 hc0 hc1 x0 x1 x2 = x2 := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_unit_zero (S := S5000x256) hz2]
  simp only [View.readAt_eq_ld, harg4.read_unread, View.ld_unit_zero (S := S5000x256) hz2]

/-- The running maximum starts from minus infinity: it ends as this tile's row maxima against that. -/
theorem sout0_A_0_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) :
    sout0_A_0 c i arg2 harg2 arg3 harg3 arg4 harg4 arg5 harg5 arg6 harg6 arg7 harg7 arg8 harg8 arg9 harg9 arg10 harg10 arg11 harg11 hc0 hc1 x0 x1 x2 = k0_pay2 (k0_pay11 x0 x2 (k0_pay6 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S64x1) hz2]
  simp only [View.readAt_eq_ld, View.readCov_unit_zero (S := S64x1) _ hz2, harg2.read_unread, harg4.read_unread, View.ld_unit_zero (S := S64x256) hz2, View.ld_unit_zero (S := S5000x256) hz2]

/-- The running sum of exponentials starts from zero against a maximum of minus infinity. -/
theorem sout0_A_1_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) :
    sout0_A_1 c i arg2 harg2 arg3 harg3 arg4 harg4 arg5 harg5 arg6 harg6 arg7 harg7 arg8 harg8 arg9 harg9 arg10 harg10 arg11 harg11 hc0 hc1 x0 x1 x2 = k0_pay1 (k0_pay9 x0 x2) (k0_pay11 x0 x2 (k0_pay6 (F := F))) (k0_pay6 (F := F)) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S64x1) hz2]
  simp only [View.readAt_eq_ld, View.readCov_unit_zero (S := S64x1) _ hz2, harg2.read_unread, harg4.read_unread, View.ld_unit_zero (S := S64x256) hz2, View.ld_unit_zero (S := S5000x256) hz2]

/-- The running target logit starts from zero. -/
theorem sout0_A_2_eq (c : Dev nD) (i : grid0.Coords)
    (arg2 : Memref sig .tc .vmem S64x256 .f32) (harg2 : arg2.IsWhole) (arg3 : Memref sig .tc .vmem S64x1 .i32) (harg3 : arg3.IsWhole)
    (arg4 : Memref sig .tc .vmem S5000x256 .f32) (harg4 : arg4.IsWhole) (arg5 : Memref sig .tc .vmem S5000x256 .f32) (harg5 : arg5.IsWhole)
    (arg6 : Memref sig .tc .vmem S1x64x1 .f32) (harg6 : arg6.IsWhole) (arg7 : Memref sig .tc .vmem S1x64x1 .f32) (harg7 : arg7.IsWhole)
    (arg8 : Memref sig .tc .vmem S1x64x1 .f32) (harg8 : arg8.IsWhole)
    (arg9 : Memref sig .tc .vmem S64x1 .f32) (harg9 : arg9.IsWhole) (arg10 : Memref sig .tc .vmem S64x1 .f32) (harg10 : arg10.IsWhole)
    (arg11 : Memref sig .tc .vmem S64x1 .f32) (harg11 : arg11.IsWhole)
    (hc0 : cond0_0 i) (hc1 : ¬cond0_1 i)
    (x0 : Vec F S64x256 .f32) (x1 : Vec F S64x1 .i32) (x2 : Vec F S5000x256 .f32) :
    sout0_A_2 c i arg2 harg2 arg3 harg3 arg4 harg4 arg5 harg5 arg6 harg6 arg7 harg7 arg8 harg8 arg9 harg9 arg10 harg10 arg11 harg11 hc0 hc1 x0 x1 x2 = k0_pay10 i x0 x2 x1 (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S64x1) hz2]
  simp only [View.readAt_eq_ld, View.readCov_unit_zero (S := S64x1) _ hz2, harg2.read_unread, harg3.read_unread, harg4.read_unread, View.ld_unit_zero (S := S64x256) hz2, View.ld_unit_zero (S := S5000x256) hz2, View.ld_unit_zero (S := S64x1) hz2]

end Cert.KernelIdeal.Fr

end
-- ==== Proof.Spec.lean ====
/-
  The mathematics both programs compute, over the real numbers.

  For a batch row `b` the logits against the whole bank are `L j = (∑ k, X b k * W j k) * scale`, `j` ranging over the
  200000 bank rows, where `scale = 268435456 / 13421773` is the exact reciprocal of the single-precision number nearest
  0.05. The reference takes the log-softmax of `L` and reads it at the row's target `t`: its per-row loss is
  `max L + log (∑ j, exp (L j - max L)) - L t`. The kernel streams the bank in two halves of 100000 rows, keeping per
  half the running maximum, the sum of exponentials shifted by that maximum, and the logit at the target if the target
  falls in the half; the two halves are then merged. Everything here is a finite sum or a finite maximum of reals.
-/
import Mathlib.Data.EReal.Inv
import Mathlib.Analysis.SpecialFunctions.Log.Basic
import Mathlib.Analysis.SpecialFunctions.Exp
import Mathlib.Algebra.BigOperators.Group.Finset.Basic
import Mathlib.Data.Finset.Lattice.Fold

noncomputable section

namespace Cert.Spec

/-- The scale of the logits: the kernel multiplies by it, the reference divides by its reciprocal `13421773 / 268435456`. -/
def scale : ℝ := 268435456 / 13421773

/-- Row `b`'s logit against bank row `j`. -/
def logit (X : Fin 64 → Fin 256 → ℝ) (W : Fin 200000 → Fin 256 → ℝ) (b : Fin 64) (j : Fin 200000) : ℝ :=
  (∑ k : Fin 256, X b k * W j k) * scale

/-- The bank rows of half `q`: those `j` with `j / 100000 = q`. -/
def half (q : Fin 2) : Finset (Fin 200000) := Finset.univ.filter fun j => j.val / 100000 = q.val

theorem half_nonempty (q : Fin 2) : (half q).Nonempty := by
  refine ⟨⟨q.val * 100000, by have := q.isLt; omega⟩, ?_⟩
  simp only [half, Finset.mem_filter, Finset.mem_univ, true_and]
  exact Nat.mul_div_cancel _ (by norm_num)

/-- The largest logit of a half. -/
def halfMax (L : Fin 200000 → ℝ) (q : Fin 2) : ℝ := (half q).sup' (half_nonempty q) L
/-- The half's sum of exponentials, shifted by the half's maximum. -/
def halfSum (L : Fin 200000 → ℝ) (q : Fin 2) : ℝ := ∑ j ∈ half q, Real.exp (L j - halfMax L q)
/-- The logit at the target `t` if `t` lies in the half, else zero. -/
def halfHit (L : Fin 200000 → ℝ) (t : Fin 200000) (q : Fin 2) : ℝ := ∑ j ∈ half q, if t = j then L j else 0

/-- The largest logit of the row. -/
def rowMax (L : Fin 200000 → ℝ) : ℝ := Finset.univ.sup' Finset.univ_nonempty L
/-- The row's cross-entropy against target `t`: minus the log-softmax of `L` at `t`. -/
def ce (L : Fin 200000 → ℝ) (t : Fin 200000) : ℝ :=
  rowMax L + Real.log (∑ j, Real.exp (L j - rowMax L)) - L t

/-- A 32-bit target word read as a bank row (a word in `[0, 200000)` is its own value). -/
def col (w : BitVec 32) : Fin 200000 := ⟨w.toNat % 200000, Nat.mod_lt _ (by norm_num)⟩

end Cert.Spec

end
-- ==== Proof.KPay.lean ====
/-
  The arithmetic of one grid point, over the real numbers. At a grid point the body receives the queries (64 rows of 256
  reals) and one tile of 5000 bank rows. Its logits are the scaled inner products of a query row with the tile's rows;
  from them it refreshes three running statistics per query row: the largest logit seen so far, the sum of exponentials
  shifted by that largest logit, and the logit at the row's target if the target lies in the tile. This module reads each
  of the body's pure terms at one index and states what real number it holds there.
-/
import proofs.«403753_j46050639347844_2_alg».proof.KernelIdeal
import proofs.«403753_j46050639347844_2_alg».proof.Proof.Gen.KernelIdeal
import proofs.«403753_j46050639347844_2_alg».proof.Proof.Gen.KernelIdeal.Skeleton
import proofs.«403753_j46050639347844_2_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The tile's logits and the scale -/

/-- Query row `b`'s logit against tile row `r`: the inner product over the 256 features, scaled. -/
def tileL (X : Fin 64 → Fin 256 → ℝ) (Wt : Fin 5000 → Fin 256 → ℝ) (b : Fin 64) (r : Fin 5000) : ℝ :=
  (∑ k : Fin 256, X b k * Wt r k) * Cert.Spec.scale

/-- The named multiplier of the logits denotes the rational `268435456 / 13421773`, the specification's scale. -/
theorem scale_named :
    Named.named (F := Ideal) κ "fold_c_268435456_13421773" (φ := .f32) 0x41A00000#32 = ((Cert.Spec.scale : ℝ) : EReal) :=
  IdealRules.named_const.ideal_named_scalar _ _ _ _ rfl

/-! ## Layout-only terms -/

/-- A cast to the same shape stores what it is given. -/
theorem pay2_eq (v : FVec Ideal S64x1 .f32) : k0_pay2 (F := Ideal) v = v := by
  unfold k0_pay2
  exact shapeCast_self v _

/-- A column `[64, 1]` viewed `[1, 64, 1]` reads row `b` of the column at `(0, b, 0)`. -/
theorem col_to_block_apply {α : Type} (v : S64x1.Idx → α) (h : S64x1.ShapeCasts S1x64x1) (b : Fin 64) :
    shapeCast S1x64x1 v h (ix3 (0 : Fin 1) b (0 : Fin 1)) = v (ix2 b (0 : Fin 1)) :=
  shapeCast_ab_1ab_apply v h 0 b 0

theorem pay3_apply (v : Vec Ideal S64x1 .f32) (b : Fin 64) :
    k0_pay3 (F := Ideal) v (ix3 (0 : Fin 1) b (0 : Fin 1)) = v (ix2 b (0 : Fin 1)) := by
  unfold k0_pay3
  exact col_to_block_apply v _ b

theorem pay4_apply (v : Vec Ideal S64x1 .f32) (b : Fin 64) :
    k0_pay4 (F := Ideal) v (ix3 (0 : Fin 1) b (0 : Fin 1)) = v (ix2 b (0 : Fin 1)) := by
  unfold k0_pay4
  exact col_to_block_apply v _ b

theorem pay5_apply (v : Vec Ideal S64x1 .f32) (b : Fin 64) :
    k0_pay5 (F := Ideal) v (ix3 (0 : Fin 1) b (0 : Fin 1)) = v (ix2 b (0 : Fin 1)) := by
  unfold k0_pay5
  exact col_to_block_apply v _ b

/-! ## The reset values -/

/-- The word `0xFF800000` is minus infinity. -/
theorem ofBits_neg_inf : Ideal.ofBits .f32 0xFF800000#32 = (⊥ : EReal) := by simp [Ideal.ofBits, Ideal.ieee]

/-- The running maximum is reset to minus infinity, -/
theorem pay6_apply (i : S64x1.Idx) : k0_pay6 (F := Ideal) i = (⊥ : EReal) := by
  unfold k0_pay6
  rw [shapeCast_self]
  exact ofBits_neg_inf

/-- the running sum of exponentials to zero, -/
theorem pay7_apply (i : S64x1.Idx) : k0_pay7 (F := Ideal) i = 0 := by
  unfold k0_pay7
  rw [shapeCast_self]
  exact Ideal.ofBits_zero_f32

/-- and the running target logit to zero. -/
theorem pay8_apply (i : S64x1.Idx) : k0_pay8 (F := Ideal) i = 0 := by
  unfold k0_pay8
  rw [shapeCast_self]
  exact Ideal.ofBits_zero_f32

/-! ## A sum of reals read among the extended reals -/

/-- The coercion of the reals into the extended reals carries a finite sum to the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The product of the queries with a tile, at an index

The contraction runs over the second axis of both operands: entry `(b, r)` of the product pairs query row `b` with tile
row `r`, feature by feature. -/

theorem lhs_axis0 (i : S64x5000.Idx) (q : dot_S64x256_S5000x256_S64x5000_1_1_0_0_n_n.contr.Idx) :
    (dot_S64x256_S5000x256_S64x5000_1_1_0_0_n_n.lhsIdx i q 0).val = (i 0).val := by
  unfold DotDims.lhsIdx
  rw [dif_neg (show ¬(0 : Fin S64x256.rank) ∈ dot_S64x256_S5000x256_S64x5000_1_1_0_0_n_n.lhsBatch by decide),
    dif_pos (show (0 : Fin S64x256.rank) ∈ dot_S64x256_S5000x256_S64x5000_1_1_0_0_n_n.lhsNonContracting by decide)]
  rfl
theorem lhs_axis1 (i : S64x5000.Idx) (q : dot_S64x256_S5000x256_S64x5000_1_1_0_0_n_n.contr.Idx) :
    (dot_S64x256_S5000x256_S64x5000_1_1_0_0_n_n.lhsIdx i q 1).val = (q ⟨0, by decide⟩).val :=
  dot_S64x256_S5000x256_S64x5000_1_1_0_0_n_n.lhsIdx_val_of_single rfl i q
theorem rhs_axis0 (i : S64x5000.Idx) (q : dot_S64x256_S5000x256_S64x5000_1_1_0_0_n_n.contr.Idx) :
    (dot_S64x256_S5000x256_S64x5000_1_1_0_0_n_n.rhsIdx i q 0).val = (i 1).val := by
  unfold DotDims.rhsIdx
  rw [dif_neg (show ¬(0 : Fin S5000x256.rank) ∈ dot_S64x256_S5000x256_S64x5000_1_1_0_0_n_n.rhsBatch by decide),
    dif_pos (show (0 : Fin S5000x256.rank) ∈ dot_S64x256_S5000x256_S64x5000_1_1_0_0_n_n.rhsNonContracting by decide)]
  rfl
theorem rhs_axis1 (i : S64x5000.Idx) (q : dot_S64x256_S5000x256_S64x5000_1_1_0_0_n_n.contr.Idx) :
    (dot_S64x256_S5000x256_S64x5000_1_1_0_0_n_n.rhsIdx i q 1).val = (q ⟨0, by decide⟩).val :=
  dot_S64x256_S5000x256_S64x5000_1_1_0_0_n_n.rhsIdx_val_of_single rfl i q

/-- Entry `(b, r)` of the product into a zero accumulator: the sum over the 256 features of query row `b` times tile row `r`. -/
theorem matmul_tile_apply {φ₁ φ₂ : FTy} (A : FVec Ideal S64x256 φ₁) (B : FVec Ideal S5000x256 φ₂) (b : Fin 64) (r : Fin 5000) :
    matmul dot_S64x256_S5000x256_S64x5000_1_1_0_0_n_n none A B (constant (F := Ideal) S64x5000 .f32 0x00000000#32) (ix2 b r)
      = ∑ k : Fin 256, A (ix2 b k) * B (ix2 r k) := by
  simp only [matmul]
  rw [Ideal.matmul_constant_zero_apply,
    ← Equiv.sum_comp (contrEquiv1 dot_S64x256_S5000x256_S64x5000_1_1_0_0_n_n 256 rfl rfl).symm]
  refine Finset.sum_congr rfl fun k _ => ?_
  have hk := contrEquiv1_symm_val dot_S64x256_S5000x256_S64x5000_1_1_0_0_n_n 256 rfl rfl k
  have el : dot_S64x256_S5000x256_S64x5000_1_1_0_0_n_n.lhsIdx (ix2 b r)
      ((contrEquiv1 dot_S64x256_S5000x256_S64x5000_1_1_0_0_n_n 256 rfl rfl).symm k) = ix2 b k :=
    funext fun a => Fin.ext (by
      match a with
      | ⟨0, _⟩ => exact lhs_axis0 _ _
      | ⟨1, _⟩ => exact (lhs_axis1 _ _).trans hk)
  have er : dot_S64x256_S5000x256_S64x5000_1_1_0_0_n_n.rhsIdx (ix2 b r)
      ((contrEquiv1 dot_S64x256_S5000x256_S64x5000_1_1_0_0_n_n 256 rfl rfl).symm k) = ix2 r k :=
    funext fun a => Fin.ext (by
      match a with
      | ⟨0, _⟩ => exact rhs_axis0 _ _
      | ⟨1, _⟩ => exact (rhs_axis1 _ _).trans hk)
  rw [el, er]

section Logits

variable (X : Fin 64 → Fin 256 → ℝ) (Wt : Fin 5000 → Fin 256 → ℝ)
  (x0 : Vec Ideal S64x256 .f32) (x2 : Vec Ideal S5000x256 .f32)
  (hx0 : ∀ b k, x0 (ix2 b k) = ((X b k : ℝ) : EReal)) (hx2 : ∀ r k, x2 (ix2 r k) = ((Wt r k : ℝ) : EReal))

include hx0 hx2 in
/-- The tile's logits: at `(b, r)` the scaled inner product of query row `b` with tile row `r`, a real number. (The
    narrowing of both operands to sixteen bits is the identity on exact values.) -/
theorem pay9_apply (b : Fin 64) (r : Fin 5000) :
    k0_pay9 (F := Ideal) x0 x2 (ix2 b r) = ((tileL X Wt b r : ℝ) : EReal) := by
  unfold k0_pay9
  rw [shapeCast_self]
  refine (mulf_apply _ _ _).trans ?_
  rw [broadcast_apply, scale_named, matmul_tile_apply]
  simp only [truncf_apply, hx0, hx2]
  rw [tileL, EReal.coe_mul, coe_sum]
  simp only [EReal.coe_mul]

end Logits

/-! ## Columns and lanes

A statistic per query row is a column `[64, 1]`. A reduction along the lanes of a `[64, 5000]` array gives a vector `[64]`,
viewed as such a column; a column is copied along the lanes to meet a `[64, 5000]` array. -/

/-- A vector `[64]` viewed as a column reads its entry `b` at `(b, 0)`. -/
theorem vec_to_col_apply {α : Type} (x : S64.Idx → α) (h : S64.ShapeCasts S64x1) (b : Fin 64) :
    shapeCast S64x1 x h (ix2 b (0 : Fin 1)) = x (ix1 b) :=
  shapeCast_apply x h _ _ (by
    rw [Shape.rowMajor_val_one, Shape.rowMajor_val_two]
    show b.val = b.val * 1 + 0
    omega)

/-- A column copied along the lanes reads, at `(b, r)`, the column's row `b`. -/
theorem col_to_lanes_apply {α : Type} (v : S64x1.Idx → α) (h : S64x1.Broadcasts S64x5000) (b : Fin 64) (r : Fin 5000) :
    broadcastTo S64x5000 v h (ix2 b r) = v (ix2 b (0 : Fin 1)) := by
  refine broadcastTo_apply v h (ix2 b r) (ix2 b (0 : Fin 1)) fun ax => ?_
  match ax with
  | ⟨0, _⟩ => rfl
  | ⟨1, _⟩ => rfl

/-- In a reduction along the lanes, the source index over result row `b` at lane `r` is `(b, r)`. -/
theorem lane_lift (h : S64x5000.Reduces [1] S64) (b : Fin 64) (r : Fin 5000) : h.lift (ix1 b) r = ix2 b r :=
  funext fun a => Fin.ext (by
    match a with
    | ⟨0, _⟩ => rfl
    | ⟨1, _⟩ => rfl)

/-- A sum along the lanes, at row `b`: the sum of the row's 5000 entries. -/
theorem lane_sum_apply (src : FVec Ideal S64x5000 .f32) (h : S64x5000.Reduces [1] S64) (hφ : FKind.Formats .f32)
    (hacc : (0x00000000#32 : BitVec 32) = FKind.add.neutral .f32 hφ) (b : Fin 64) :
    multiReduction .add [1] S64 src 0x00000000#32 h hφ hacc (ix1 b) = ∑ r : Fin 5000, src (ix2 b r) := by
  refine (Ideal.multiReduction_add_single src _ h hφ hacc (ix1 b)).trans ?_
  exact Finset.sum_congr rfl fun r _ => congrArg src (lane_lift h b r)

/-- The largest of finitely many reals, among the extended reals: the supremum of the coerced family. -/
theorem coe_sup' {n : ℕ} (hn : (Finset.univ : Finset (Fin n)).Nonempty) (a : Fin n → ℝ) :
    (Finset.univ : Finset (Fin n)).sup (fun r => ((a r : ℝ) : EReal)) = ((Finset.univ.sup' hn a : ℝ) : EReal) := by
  refine le_antisymm (Finset.sup_le fun r _ => EReal.coe_le_coe_iff.2 (Finset.le_sup' a (Finset.mem_univ r))) ?_
  obtain ⟨r, _, hr⟩ := Finset.exists_mem_eq_sup' hn a
  rw [hr]
  exact Finset.le_sup (f := fun r => ((a r : ℝ) : EReal)) (Finset.mem_univ r)

/-- A maximum along the lanes from minus infinity, at row `b` whose entries are the reals `a`: their largest. -/
theorem lane_max_apply (src : FVec Ideal S64x5000 .f32) (h : S64x5000.Reduces [1] S64) (hφ : FKind.Formats .f32)
    (hacc : (0xFF800000#32 : BitVec 32) = FKind.maximumf.neutral .f32 hφ) (b : Fin 64) (a : Fin 5000 → ℝ)
    (ha : ∀ r, src (ix2 b r) = ((a r : ℝ) : EReal)) :
    multiReduction .maximumf [1] S64 src 0xFF800000#32 h hφ hacc (ix1 b)
      = ((Finset.univ.sup' Finset.univ_nonempty a : ℝ) : EReal) := by
  refine (Ideal.multiReduction_maximumf_single src _ h hφ hacc (ix1 b)).trans ?_
  have hf : (src ∘ h.lift (ix1 b)) = fun r : Fin 5000 => ((a r : ℝ) : EReal) :=
    funext fun r => (congrArg src (lane_lift h b r)).trans (ha r)
  have h0 : FloatOps.ofBits (F := Ideal) .f32 0xFF800000#32 = (⊥ : EReal) := ofBits_neg_inf
  rw [hf, h0]
  exact coe_sup' Finset.univ_nonempty a

/-! ## The running maximum -/

section RunningMax

variable (X : Fin 64 → Fin 256 → ℝ) (Wt : Fin 5000 → Fin 256 → ℝ)
  (x0 : Vec Ideal S64x256 .f32) (x2 : Vec Ideal S5000x256 .f32)
  (hx0 : ∀ b k, x0 (ix2 b k) = ((X b k : ℝ) : EReal)) (hx2 : ∀ r k, x2 (ix2 r k) = ((Wt r k : ℝ) : EReal))

include hx0 hx2 in
/-- The tile's largest logit of row `b`, as the body computes it before merging with the old maximum. -/
theorem tile_max_apply (b : Fin 64) (h : S64x5000.Reduces [1] S64) (hφ : FKind.Formats .f32)
    (hacc : (0xFF800000#32 : BitVec 32) = FKind.maximumf.neutral .f32 hφ) (hc : S64.ShapeCasts S64x1) :
    shapeCast S64x1 (multiReduction .maximumf [1] S64 (k0_pay9 (F := Ideal) x0 x2) 0xFF800000#32 h hφ hacc) hc (ix2 b (0 : Fin 1))
      = ((Finset.univ.sup' Finset.univ_nonempty (tileL X Wt b) : ℝ) : EReal) :=
  (vec_to_col_apply _ hc b).trans
    (lane_max_apply _ h hφ hacc b (tileL X Wt b) fun r => pay9_apply X Wt x0 x2 hx0 hx2 b r)

include hx0 hx2 in
/-- At a core's first tile the old maximum is minus infinity: the new one is the tile's largest logit. -/
theorem pay11_first (v31 : Vec Ideal S64x1 .f32) (b : Fin 64) (h31 : v31 (ix2 b (0 : Fin 1)) = ⊥) :
    k0_pay11 (F := Ideal) x0 x2 v31 (ix2 b (0 : Fin 1))
      = ((Finset.univ.sup' Finset.univ_nonempty (tileL X Wt b) : ℝ) : EReal) := by
  unfold k0_pay11
  refine (maximumf_apply _ _ _).trans ?_
  rw [h31, max_bot_left]
  exact tile_max_apply X Wt x0 x2 hx0 hx2 b _ _ _ _

include hx0 hx2 in
/-- At a later tile the old maximum is a real `Mp`: the new one is the larger of `Mp` and the tile's largest logit. -/
theorem pay11_next (v31 : Vec Ideal S64x1 .f32) (b : Fin 64) (Mp : ℝ) (h31 : v31 (ix2 b (0 : Fin 1)) = (Mp : EReal)) :
    k0_pay11 (F := Ideal) x0 x2 v31 (ix2 b (0 : Fin 1))
      = ((max Mp (Finset.univ.sup' Finset.univ_nonempty (tileL X Wt b)) : ℝ) : EReal) := by
  unfold k0_pay11
  refine (maximumf_apply _ _ _).trans ?_
  rw [h31]
  refine (congrArg (max (Mp : EReal)) (tile_max_apply X Wt x0 x2 hx0 hx2 b _ _ _ _)).trans ?_
  exact (EReal.coe_strictMono.monotone.map_max).symm

end RunningMax

/-! ## The running sum of exponentials -/

/-- An exponential read at an index is the exponential of the entry. -/
theorem exp_apply {s : Shape} {φ : FTy} (a : FVec Ideal s φ) (i : s.Idx) : exp a i = Ideal.exp (a i) := rfl

/-- The tile's sum of exponentials of row `b`, shifted by the new maximum `M'`: the logits `a` of the row are reals and so
    is `M'`, hence every term is the real exponential of a real difference. -/
theorem tile_expsum_apply (v10 : FVec Ideal S64x5000 .f32) (v34 : FVec Ideal S64x1 .f32) (b : Fin 64) (a : Fin 5000 → ℝ) (M' : ℝ)
    (h10 : ∀ r, v10 (ix2 b r) = ((a r : ℝ) : EReal)) (h34 : v34 (ix2 b (0 : Fin 1)) = (M' : EReal))
    (h : S64x5000.Reduces [1] S64) (hφ : FKind.Formats .f32) (hacc : (0x00000000#32 : BitVec 32) = FKind.add.neutral .f32 hφ)
    (hc : S64.ShapeCasts S64x1) (hb : S64x1.Broadcasts S64x5000) :
    shapeCast S64x1 (multiReduction .add [1] S64 (exp (subf v10 (broadcastTo S64x5000 v34 hb))) 0x00000000#32 h hφ hacc) hc
        (ix2 b (0 : Fin 1))
      = ((∑ r : Fin 5000, Real.exp (a r - M') : ℝ) : EReal) := by
  refine (vec_to_col_apply _ hc b).trans ((lane_sum_apply _ h hφ hacc b).trans ?_)
  rw [coe_sum]
  refine Finset.sum_congr rfl fun r _ => ?_
  rw [exp_apply, subf_apply, col_to_lanes_apply, h10 r, h34, ← EReal.coe_sub, Ideal.exp_coe]

section RunningSum

variable (v10 : FVec Ideal S64x5000 .f32) (v34 v35 v41 : Vec Ideal S64x1 .f32) (b : Fin 64) (a : Fin 5000 → ℝ) (M' : ℝ)
  (h10 : ∀ r, v10 (ix2 b r) = ((a r : ℝ) : EReal)) (h34 : v34 (ix2 b (0 : Fin 1)) = (M' : EReal))

include h10 h34 in
/-- At a core's first tile the old maximum is minus infinity and the old sum zero: the rescaling factor `exp (-∞ - M')` is
    zero, and the new sum is the tile's own. -/
theorem pay1_first (h35 : v35 (ix2 b (0 : Fin 1)) = ⊥) (h41 : v41 (ix2 b (0 : Fin 1)) = 0) :
    k0_pay1 (F := Ideal) v10 v34 v35 v41 (ix2 b (0 : Fin 1)) = ((∑ r : Fin 5000, Real.exp (a r - M') : ℝ) : EReal) := by
  unfold k0_pay1
  rw [shapeCast_self]
  refine (addf_apply _ _ _).trans ?_
  rw [mulf_apply, exp_apply, subf_apply, h35, h34, h41, EReal.bot_sub, Ideal.exp_bot, zero_mul, zero_add]
  exact tile_expsum_apply v10 v34 b a M' h10 h34 _ _ _ _ _

include h10 h34 in
/-- At a later tile the old maximum `Mp` and the old sum `Sp` are reals: the old sum is rescaled by `exp (Mp - M')` and the
    tile's sum is added. -/
theorem pay1_next (Mp Sp : ℝ) (h35 : v35 (ix2 b (0 : Fin 1)) = (Mp : EReal)) (h41 : v41 (ix2 b (0 : Fin 1)) = (Sp : EReal)) :
    k0_pay1 (F := Ideal) v10 v34 v35 v41 (ix2 b (0 : Fin 1))
      = ((Real.exp (Mp - M') * Sp + ∑ r : Fin 5000, Real.exp (a r - M') : ℝ) : EReal) := by
  unfold k0_pay1
  rw [shapeCast_self]
  refine (addf_apply _ _ _).trans ?_
  rw [mulf_apply, exp_apply, subf_apply, h35, h34, h41, ← EReal.coe_sub, Ideal.exp_coe, ← EReal.coe_mul]
  refine (congrArg (((Real.exp (Mp - M') * Sp : ℝ) : EReal) + ·) (tile_expsum_apply v10 v34 b a M' h10 h34 _ _ _ _ _)).trans ?_
  exact (EReal.coe_add _ _).symm

end RunningSum

/-! ## The running target logit

Lane `r` of the tile at grid point `t` is bank row `5000 * t + r`. The body compares row `b`'s target word with that number,
as 32-bit words, keeps the logit where they agree and zero elsewhere, and sums along the lanes: at most one lane survives.
All the numbers are below 200000, so the 32-bit arithmetic never wraps. -/

/-- The grid is 2 by 20 in row-major order: point `t` has coordinates `(t / 20, t % 20)`. -/
theorem grid_point (t : Fin cfg0.N) : ((grid0.coords t) 0).val * 20 + ((grid0.coords t) 1).val = t.val :=
  (by decide +kernel : ∀ t : Fin grid0.N, ((grid0.coords t) 0).val * 20 + ((grid0.coords t) 1).val = t.val) t

/-- There are 40 grid points. -/
theorem grid_point_lt (t : Fin cfg0.N) : t.val < 40 :=
  (by decide +kernel : ∀ t : Fin grid0.N, t.val < 40) t

/-- The tile's first bank row as the body computes it, `(20 * i0 + i1) * 5000` in 32-bit words, is the word of that number. -/
theorem tile_base_word (i0 i1 : ℕ) :
    Scalar.muli (Scalar.addi (Scalar.muli (BitVec.ofNat 32 i0) 20#32) (BitVec.ofNat 32 i1)) 5000#32
      = BitVec.ofNat 32 ((i0 * 20 + i1) * 5000) := by
  simp only [Scalar.muli, Scalar.addi, IntOp.muli, IntOp.addi]
  rw [BitVec.ofNat_mul_ofNat, BitVec.ofNat_add_ofNat, BitVec.ofNat_mul_ofNat]

/-- A select on the equality of a word with the word of a number below `2 ^ 32` is the `if` on the word's value. -/
theorem select_word_eq {α : Type} (w : BitVec 32) (m : ℕ) (hm : m < 2 ^ 32) (x y : α) :
    Scalar.select (IntOp.cmpi .eq w (BitVec.ofNat 32 m)) x y = if w.toNat = m then x else y := by
  show (if BitVec.ofBool (w == BitVec.ofNat 32 m) = 1#1 then x else y) = _
  by_cases h : w.toNat = m
  · have hw : w = BitVec.ofNat 32 m := BitVec.eq_of_toNat_eq (by rw [BitVec.toNat_ofNat, Nat.mod_eq_of_lt hm, h])
    have hb : (w == BitVec.ofNat 32 m) = true := beq_iff_eq.2 hw
    rw [if_pos h, hb]
    exact if_pos rfl
  · have hw : ¬ w = BitVec.ofNat 32 m := fun e => h (by rw [e, BitVec.toNat_ofNat, Nat.mod_eq_of_lt hm])
    have hb : (w == BitVec.ofNat 32 m) = false := beq_eq_false_iff_ne.2 hw
    rw [if_neg h, hb]
    exact if_neg (by decide)

/-- One row `[1, 5000]` copied down the 64 rows reads, at `(b, r)`, the row's lane `r`. -/
theorem row_to_rows_apply {α : Type} (v : S1x5000.Idx → α) (h : S1x5000.Broadcasts S64x5000) (b : Fin 64) (r : Fin 5000) :
    broadcastTo S64x5000 v h (ix2 b r) = v (ix2 (0 : Fin 1) r) :=
  broadcastTo_1b_ab_apply v h b r

/-- The lane number along a `[1, 5000]` row, as a word. -/
theorem lane_iota_apply (h : S1x5000.Iotas .tc 32 [1]) (r : Fin 5000) :
    iota .tc S1x5000 32 [1] h (ix2 (0 : Fin 1) r) = BitVec.ofNat 32 r.val :=
  iota_single_apply .tc S1x5000 32 1 h (ix2 (0 : Fin 1) r)

section TargetLogit

variable (X : Fin 64 → Fin 256 → ℝ) (Wt : Fin 5000 → Fin 256 → ℝ)
  (x0 : Vec Ideal S64x256 .f32) (x2 : Vec Ideal S5000x256 .f32)
  (hx0 : ∀ b k, x0 (ix2 b k) = ((X b k : ℝ) : EReal)) (hx2 : ∀ r k, x2 (ix2 r k) = ((Wt r k : ℝ) : EReal))

include hx0 hx2 in
/-- The running target logit after grid point `t`: the old value `Hp` plus the logit of the lane whose bank row
    `5000 * t + r` is row `b`'s target, if the target lies in this tile. -/
theorem pay10_apply (t : Fin cfg0.N) (x1 : Vec Ideal S64x1 .i32) (v22 : Vec Ideal S64x1 .f32) (b : Fin 64) (Hp : ℝ)
    (hw : (x1 (ix2 b (0 : Fin 1))).toNat < 200000) (h22 : v22 (ix2 b (0 : Fin 1)) = (Hp : EReal)) :
    k0_pay10 (F := Ideal) (grid0.coords t) x0 x2 x1 v22 (ix2 b (0 : Fin 1))
      = ((Hp + ∑ r : Fin 5000,
          (if (Cert.Spec.col (x1 (ix2 b (0 : Fin 1)))).val = 5000 * t.val + r.val then tileL X Wt b r else 0) : ℝ) : EReal) := by
  have hg := grid_point t
  have hlt := grid_point_lt t
  have hcol : (Cert.Spec.col (x1 (ix2 b (0 : Fin 1)))).val = (x1 (ix2 b (0 : Fin 1))).toNat := Nat.mod_eq_of_lt hw
  unfold k0_pay10
  simp only []
  rw [shapeCast_self, shapeCast_self, tile_base_word, hg]
  refine (addf_apply _ _ _).trans ?_
  rw [h22, EReal.coe_add]
  refine congrArg ((Hp : EReal) + ·) ?_
  refine (vec_to_col_apply _ _ b).trans ((lane_sum_apply _ _ _ _ b).trans ?_)
  rw [coe_sum]
  refine Finset.sum_congr rfl fun r _ => ?_
  rw [select_apply, broadcast_apply, pay9_apply X Wt x0 x2 hx0 hx2 b r]
  show Scalar.select (IntOp.cmpi .eq (broadcastTo S64x5000 x1 _ (ix2 b r)) (broadcastTo S64x5000 _ _ (ix2 b r))) _ _ = _
  rw [col_to_lanes_apply, row_to_rows_apply]
  show Scalar.select (IntOp.cmpi .eq _ (IntOp.addi (iota .tc S1x5000 32 [1] _ (ix2 (0 : Fin 1) r)) (BitVec.ofNat 32 (t.val * 5000)))) _ _ = _
  rw [lane_iota_apply]
  show Scalar.select (IntOp.cmpi .eq _ (BitVec.ofNat 32 r.val + BitVec.ofNat 32 (t.val * 5000))) _ _ = _
  rw [BitVec.ofNat_add_ofNat, select_word_eq _ _ (by omega), hcol]
  have h0 : Scalar.ofBits (F := Ideal) .f32 0x00000000#32 = ((0 : ℝ) : EReal) := Ideal.ofBits_zero_f32
  rw [h0]
  by_cases hc : (x1 (ix2 b (0 : Fin 1))).toNat = r.val + t.val * 5000
  · rw [if_pos hc, if_pos (by omega)]
  · rw [if_neg hc, if_neg (by omega)]

end TargetLogit

end Cert.KernelIdeal.Pay

end
-- ==== Proof.Tiles.lean ====
/-
  The streaming order of the bank, as finite-set mathematics over the real numbers.

  The 200000 bank rows are cut into 40 tiles of 5000 consecutive rows; tiles 0 … 19 make the first half of the bank and
  tiles 20 … 39 the second. Walking through a half tile by tile, the maximum, the shifted sum of exponentials and the
  logit at the target of the rows seen so far obey the usual merge laws of a union of two disjoint sets:
  the maximum of a union is the larger of the two maxima, a sum shifted by `m` is re-shifted to `m'` by the factor
  `exp (m - m')`, and the sum at the target is additive. After the twentieth tile the rows seen are exactly the half.
-/
import proofs.«403753_j46050639347844_2_alg».proof.Proof.Spec
import Mathlib.Data.Finset.Lattice.Fold
import Mathlib.Algebra.BigOperators.Group.Finset.Basic
import Mathlib.Analysis.SpecialFunctions.Exp
import Mathlib.Tactic.Ring
import Mathlib.Tactic.NormNum

noncomputable section

namespace Cert.Tiles

open Finset

/-- the r-th bank row of tile t (tiles are 5000 consecutive bank rows; 40 tiles) -/
def tileRow (t : Fin 40) (r : Fin 5000) : Fin 200000 :=
  ⟨5000 * t.val + r.val, by have := t.isLt; have := r.isLt; omega⟩

/-- the bank rows the core of point t has seen through point t: tiles 20*(t/20) … t -/
def upto (t : Fin 40) : Finset (Fin 200000) :=
  Finset.univ.filter fun j => t.val / 20 * 20 ≤ j.val / 5000 ∧ j.val / 5000 ≤ t.val

/-- the bank rows of tile t alone: those whose quotient by 5000 is t -/
def tile (t : Fin 40) : Finset (Fin 200000) := Finset.univ.filter fun j => j.val / 5000 = t.val

theorem tileRow_val (t : Fin 40) (r : Fin 5000) : (tileRow t r).val = 5000 * t.val + r.val := rfl

/-- a row of tile t has quotient t by 5000 -/
theorem tileRow_div (t : Fin 40) (r : Fin 5000) : (tileRow t r).val / 5000 = t.val := by
  have := r.isLt
  rw [tileRow_val]; omega

theorem tileRow_injective (t : Fin 40) : Function.Injective (tileRow t) := by
  intro r s h
  have hv := congrArg Fin.val h
  rw [tileRow_val, tileRow_val] at hv
  exact Fin.ext (by omega)

theorem mem_tile (t : Fin 40) (j : Fin 200000) : j ∈ tile t ↔ j.val / 5000 = t.val := by
  simp only [tile, mem_filter, mem_univ, true_and]

theorem mem_upto (t : Fin 40) (j : Fin 200000) :
    j ∈ upto t ↔ t.val / 20 * 20 ≤ j.val / 5000 ∧ j.val / 5000 ≤ t.val := by
  simp only [upto, mem_filter, mem_univ, true_and]

theorem tileRow_mem_tile (t : Fin 40) (r : Fin 5000) : tileRow t r ∈ tile t :=
  (mem_tile t _).2 (tileRow_div t r)

/-- every row of tile t is tileRow t r for its remainder r by 5000 -/
theorem exists_tileRow (t : Fin 40) (j : Fin 200000) (h : j ∈ tile t) : ∃ r : Fin 5000, tileRow t r = j := by
  rw [mem_tile] at h
  refine ⟨⟨j.val % 5000, Nat.mod_lt _ (by norm_num)⟩, Fin.ext ?_⟩
  rw [tileRow_val]
  show 5000 * t.val + j.val % 5000 = j.val
  omega

/-- the tile is the image of its 5000 offsets -/
theorem tile_eq_image (t : Fin 40) : tile t = Finset.univ.image (tileRow t) := by
  ext j
  constructor
  · intro h
    obtain ⟨r, hr⟩ := exists_tileRow t j h
    exact mem_image.2 ⟨r, mem_univ r, hr⟩
  · intro h
    obtain ⟨r, _, rfl⟩ := mem_image.1 h
    exact tileRow_mem_tile t r

theorem tile_nonempty (t : Fin 40) : (tile t).Nonempty :=
  ⟨tileRow t ⟨0, by norm_num⟩, tileRow_mem_tile t _⟩

/-- a sum over the tile's rows is a sum over its 5000 offsets -/
theorem sum_tile (t : Fin 40) (f : Fin 200000 → ℝ) : ∑ j ∈ tile t, f j = ∑ r : Fin 5000, f (tileRow t r) := by
  rw [tile_eq_image, sum_image (fun _ _ _ _ h => tileRow_injective t h)]

theorem upto_nonempty (t : Fin 40) : (upto t).Nonempty := by
  refine ⟨tileRow t ⟨0, by norm_num⟩, ?_⟩
  rw [mem_upto, tileRow_div]
  omega

def runMax (L : Fin 200000 → ℝ) (t : Fin 40) : ℝ := (upto t).sup' (upto_nonempty t) L
def runSum (L : Fin 200000 → ℝ) (t : Fin 40) : ℝ := ∑ j ∈ upto t, Real.exp (L j - runMax L t)
def runHit (L : Fin 200000 → ℝ) (tc : Fin 200000) (t : Fin 40) : ℝ :=
  ∑ j ∈ upto t, if tc = j then L j else 0

/-- the tile's own maximum -/
def tileMax (L : Fin 200000 → ℝ) (t : Fin 40) : ℝ :=
  Finset.univ.sup' Finset.univ_nonempty fun r : Fin 5000 => L (tileRow t r)

/-- a maximum depends on the set only, not on the witness that it is inhabited -/
theorem sup'_congr_set {s u : Finset (Fin 200000)} (h : s = u) (hs : s.Nonempty) (hu : u.Nonempty)
    (L : Fin 200000 → ℝ) : s.sup' hs L = u.sup' hu L := by
  subst h; rfl

/-- the maximum over the tile's rows is the maximum over its offsets -/
theorem sup'_tile (L : Fin 200000 → ℝ) (t : Fin 40) : (tile t).sup' (tile_nonempty t) L = tileMax L t := by
  apply le_antisymm
  · apply sup'_le
    intro j hj
    obtain ⟨r, rfl⟩ := exists_tileRow t j hj
    exact le_sup' (fun r : Fin 5000 => L (tileRow t r)) (mem_univ r)
  · apply sup'_le
    intro r _
    exact le_sup' L (tileRow_mem_tile t r)

/-! ### how the set seen grows -/

/-- at a core's first tile the set seen is that tile -/
theorem upto_first (t : Fin 40) (h : t.val % 20 = 0) : upto t = tile t := by
  ext j
  rw [mem_upto, mem_tile]
  omega

/-- at a later tile the set seen is the set seen before together with the new tile -/
theorem upto_next (p t : Fin 40) (hp : p.val + 1 = t.val) (h : t.val % 20 ≠ 0) : upto t = upto p ∪ tile t := by
  ext j
  rw [mem_union, mem_upto, mem_upto, mem_tile]
  omega

/-- the new tile shares no row with what was seen before -/
theorem upto_disjoint_tile (p t : Fin 40) (hp : p.val + 1 = t.val) : Disjoint (upto p) (tile t) := by
  rw [disjoint_left]
  intro j hj hjt
  rw [mem_upto] at hj
  rw [mem_tile] at hjt
  omega

/-- after tile 20q+19 the set seen is half q -/
theorem upto_last (q : Fin 2) (t : Fin 40) (h : t.val = 20 * q.val + 19) : upto t = Cert.Spec.half q := by
  ext j
  have hj := j.isLt
  have hq := q.isLt
  rw [mem_upto]
  simp only [Cert.Spec.half, mem_filter, mem_univ, true_and]
  omega

/-! ### a core's first tile -/

theorem runMax_first (L : Fin 200000 → ℝ) (t : Fin 40) (h : t.val % 20 = 0) : runMax L t = tileMax L t := by
  rw [← sup'_tile]
  exact sup'_congr_set (upto_first t h) _ _ L

theorem runSum_first (L : Fin 200000 → ℝ) (t : Fin 40) (h : t.val % 20 = 0) :
    runSum L t = ∑ r : Fin 5000, Real.exp (L (tileRow t r) - runMax L t) := by
  unfold runSum
  rw [upto_first t h, sum_tile t fun j => Real.exp (L j - runMax L t)]

theorem runHit_first (L : Fin 200000 → ℝ) (tc : Fin 200000) (t : Fin 40) (h : t.val % 20 = 0) :
    runHit L tc t = ∑ r : Fin 5000, if tc = tileRow t r then L (tileRow t r) else 0 := by
  unfold runHit
  rw [upto_first t h, sum_tile t fun j => if tc = j then L j else 0]

/-! ### a later tile -/

theorem runMax_next (L : Fin 200000 → ℝ) (p t : Fin 40) (hp : p.val + 1 = t.val) (h : t.val % 20 ≠ 0) :
    runMax L t = max (runMax L p) (tileMax L t) := by
  rw [← sup'_tile]
  unfold runMax
  rw [sup'_congr_set (upto_next p t hp h) (upto_nonempty t)
    ((upto_nonempty p).mono subset_union_left) L]
  exact sup'_union (upto_nonempty p) (tile_nonempty t) L

/-- a sum of exponentials shifted by m, multiplied by exp (m - m'), is the same sum shifted by m' -/
theorem reshift_sum (s : Finset (Fin 200000)) (L : Fin 200000 → ℝ) (m m' : ℝ) :
    Real.exp (m - m') * ∑ j ∈ s, Real.exp (L j - m) = ∑ j ∈ s, Real.exp (L j - m') := by
  rw [mul_sum]
  refine sum_congr rfl fun j _ => ?_
  rw [← Real.exp_add]
  congr 1
  ring

theorem runSum_next (L : Fin 200000 → ℝ) (p t : Fin 40) (hp : p.val + 1 = t.val) (h : t.val % 20 ≠ 0) :
    runSum L t = Real.exp (runMax L p - runMax L t) * runSum L p
      + ∑ r : Fin 5000, Real.exp (L (tileRow t r) - runMax L t) := by
  unfold runSum
  rw [reshift_sum, upto_next p t hp h, sum_union (upto_disjoint_tile p t hp),
    sum_tile t fun j => Real.exp (L j - runMax L t)]

theorem runHit_next (L : Fin 200000 → ℝ) (tc : Fin 200000) (p t : Fin 40) (hp : p.val + 1 = t.val)
    (h : t.val % 20 ≠ 0) :
    runHit L tc t = runHit L tc p + ∑ r : Fin 5000, if tc = tileRow t r then L (tileRow t r) else 0 := by
  unfold runHit
  rw [upto_next p t hp h, sum_union (upto_disjoint_tile p t hp),
    sum_tile t fun j => if tc = j then L j else 0]

/-! ### a core's last tile: the half is complete -/

theorem runMax_last (L : Fin 200000 → ℝ) (q : Fin 2) (t : Fin 40) (h : t.val = 20 * q.val + 19) :
    runMax L t = Cert.Spec.halfMax L q :=
  sup'_congr_set (upto_last q t h) _ _ L

theorem runSum_last (L : Fin 200000 → ℝ) (q : Fin 2) (t : Fin 40) (h : t.val = 20 * q.val + 19) :
    runSum L t = Cert.Spec.halfSum L q := by
  unfold runSum Cert.Spec.halfSum
  rw [runMax_last L q t h, upto_last q t h]

theorem runHit_last (L : Fin 200000 → ℝ) (tc : Fin 200000) (q : Fin 2) (t : Fin 40)
    (h : t.val = 20 * q.val + 19) : runHit L tc t = Cert.Spec.halfHit L tc q := by
  unfold runHit Cert.Spec.halfHit
  rw [upto_last q t h]

end Cert.Tiles

end
-- ==== Proof.Common.lean ====
/-
  The two programs' arrays hold extended reals; under the precondition every entry that matters is a real number. This
  module reads such arrays as real matrices and states, over them, the row-wise quantities of the specification: a
  batch row's logits against the whole bank and its cross-entropy against its target word.
-/
import Idealize.ShloMosaic.PureOps.Ideal
import Idealize.ShloMosaic.Lib.ValueIdx
import proofs.«403753_j46050639347844_2_alg».proof.Proof.Spec

noncomputable section

namespace Cert.Common

open Idealize.ShloMosaic

/-- The real number at row `a`, column `b` of a matrix of extended reals (its real part; the entry itself when real). -/
def real2 {n0 n1 : ℕ} (v : (⟨2, ![n0, n1]⟩ : Shape).Idx → EReal) (a : Fin n0) (b : Fin n1) : ℝ :=
  (v (ValueIdx.ix2 a b)).toReal

/-- A real entry is the coercion of its real part. -/
theorem coe_real2 {n0 n1 : ℕ} (v : (⟨2, ![n0, n1]⟩ : Shape).Idx → EReal) (h : ∀ i, ∃ r : ℝ, v i = (r : EReal))
    (a : Fin n0) (b : Fin n1) : v (ValueIdx.ix2 a b) = ((real2 v a b : ℝ) : EReal) := by
  obtain ⟨r, hr⟩ := h (ValueIdx.ix2 a b)
  simp only [real2, hr, EReal.toReal_coe]

/-- Batch row `b`'s logits against the 200000 bank rows: queries `xn`, bank `w`. -/
def logitRow (xn : (⟨2, ![64, 256]⟩ : Shape).Idx → EReal) (w : (⟨2, ![200000, 256]⟩ : Shape).Idx → EReal) (b : Fin 64) :
    Fin 200000 → ℝ :=
  Spec.logit (real2 xn) (real2 w) b

/-- Batch row `b`'s cross-entropy: minus the log-softmax of its logits, read at its target word `t b`. -/
def ceRow (xn : (⟨2, ![64, 256]⟩ : Shape).Idx → EReal) (w : (⟨2, ![200000, 256]⟩ : Shape).Idx → EReal)
    (t : (⟨1, ![64]⟩ : Shape).Idx → BitVec 32) (b : Fin 64) : ℝ :=
  Spec.ce (logitRow xn w b) (Spec.col (t (ValueIdx.ix1 b)))

end Cert.Common

end
-- ==== Proof.KInv.lean ====
/-
  What the three running statistics hold after each grid point.

  The 40 grid points walk the bank tile by tile: point t stages rows 5000 t … 5000 t + 4999 of the bank, while the
  queries and the target column are staged whole at every point. This module first reads the three input windows'
  blocks off their arrays, then shows by induction over the points that after point t the scratch buffers hold, for
  every batch row, the maximum, the shifted sum of exponentials and the logit at the target of the bank rows the
  point's core has streamed so far.
-/
import proofs.«403753_j46050639347844_2_alg».proof.Proof.KI.Pieces
import proofs.«403753_j46050639347844_2_alg».proof.Proof.KPay
import proofs.«403753_j46050639347844_2_alg».proof.Proof.Tiles
import proofs.«403753_j46050639347844_2_alg».proof.Proof.Common
import Idealize.ShloMosaic.Lib.Pipeline.Value
import Idealize.ShloMosaic.Lib.ValueIdx

set_option maxRecDepth 16384

noncomputable section

namespace Cert.KernelIdeal.Inv

open Idealize.ShloMosaic Cert.KernelIdeal Cert.KernelIdeal.Gen Cert.KernelIdeal.Fr
open Cert.Tiles (tileRow runMax runSum runHit tileMax)

variable (m : (ℓ : Loc nD τ sig) → Buf (Elt Ideal) ℓ) (c : Dev nD)

/-! ## The point as a tile number, the input windows' blocks -/

/-- Grid point t, read as the number of the bank tile it stages. -/
def pt (t : Fin cfg0.N) : Fin 40 := ⟨t.val, Nat.lt_of_lt_of_eq t.isLt N_0⟩

/-- The printed index maps of the three input windows, decided over the grid: the queries' and the targets' block
    index is always zero; the bank's block index along the rows is the point's position in the walk. -/
theorem in_index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The queries' block at any point is the whole normalised query array. -/
theorem qblock_eq (t : Fin cfg0.N) : (iblk m c 0 t : Vec Ideal S64x256 .f32) = V m c main_v4 := by
  obtain ⟨e0, e1, -, -, -, -⟩ := in_index_facts t
  funext j
  show V m c main_v4 (((cfg0.win 0).blk t).view.emb j) = V m c main_v4 j
  congr 1
  funext a
  apply Fin.ext
  match a with
  | ⟨0, _⟩ => show win0_0.index t (0 : Fin 2) * 64 + 1 * (j 0).val = (j 0).val; omega
  | ⟨1, _⟩ => show win0_0.index t (1 : Fin 2) * 256 + 1 * (j 1).val = (j 1).val; omega

/-- The targets' block at any point is the whole target column. -/
theorem tblock_eq (t : Fin cfg0.N) : (iblk m c 1 t : Vec Ideal S64x1 .i32) = V m c main_v5 := by
  obtain ⟨-, -, e0, e1, -, -⟩ := in_index_facts t
  funext j
  show V m c main_v5 (((cfg0.win 1).blk t).view.emb j) = V m c main_v5 j
  congr 1
  funext a
  apply Fin.ext
  match a with
  | ⟨0, _⟩ => show win0_1.index t (0 : Fin 2) * 64 + 1 * (j 0).val = (j 0).val; omega
  | ⟨1, _⟩ => show win0_1.index t (1 : Fin 2) * 1 + 1 * (j 1).val = (j 1).val; omega

/-- The bank's block at point t holds the bank rows of tile t: offset r of the block is bank row 5000 t + r. -/
theorem bblock_apply (t : Fin cfg0.N) (r : Fin 5000) (k : Fin 256) :
    (iblk m c 2 t : Vec Ideal S5000x256 .f32) (ValueIdx.ix2 r k)
      = V m c main_arg2 (ValueIdx.ix2 (tileRow (pt t) r) k) := by
  obtain ⟨-, -, -, -, e0, e1⟩ := in_index_facts t
  show V m c main_arg2 (((cfg0.win 2).blk t).view.emb (ValueIdx.ix2 r k)) = V m c main_arg2 _
  congr 1
  funext a
  apply Fin.ext
  match a with
  | ⟨0, _⟩ => show win0_2.index t (0 : Fin 2) * 5000 + 1 * r.val = 5000 * t.val + r.val; omega
  | ⟨1, _⟩ => show win0_2.index t (1 : Fin 2) * 256 + 1 * k.val = k.val; omega

/-! ## What is assumed of the arrays, and the row-wise quantities -/

/-- The arrays the region finds are usable: every query and bank entry is a real number, every target word is a
    bank row. -/
structure Ok : Prop where
  xn_real : ∀ i : S64x256.Idx, ∃ r : ℝ, V m c main_v4 i = (r : EReal)
  w_real : ∀ i : S200000x256.Idx, ∃ r : ℝ, V m c main_arg2 i = (r : EReal)
  t_range : ∀ b : Fin 64, (V m c main_v5 (ValueIdx.ix2 b (0 : Fin 1))).toNat < 200000

/-- Batch row b's logits against the whole bank. -/
def Lrow (b : Fin 64) : Fin 200000 → ℝ := Cert.Common.logitRow (V m c main_v4) (V m c main_arg2) b
/-- Batch row b's target, as a bank row. -/
def tcol (b : Fin 64) : Fin 200000 := Cert.Spec.col (V m c main_v5 (ValueIdx.ix2 b (0 : Fin 1)))

/-! ## One tile on, over the reals

The tile's own maximum, sum and target term, merged into what the tiles before left, are the running quantities of
`Tiles`: here with the tile's logits given as a function `a` of the offset. -/

section Stream

variable (L : Fin 200000 → ℝ) (tc : Fin 200000)

/-- The target sits at offset r of tile t: said of the row numbers, or of the rows. -/
theorem hit_sum (t : Fin 40) (a : Fin 5000 → ℝ) :
    (∑ r : Fin 5000, if tc.val = 5000 * t.val + r.val then a r else 0)
      = ∑ r : Fin 5000, if tc = tileRow t r then a r else 0 :=
  Finset.sum_congr rfl fun r _ => if_congr (by rw [Fin.ext_iff, Cert.Tiles.tileRow_val]) rfl rfl

theorem first_max (t : Fin 40) (h : t.val % 20 = 0) (a : Fin 5000 → ℝ) (ha : a = fun r => L (tileRow t r)) :
    Finset.univ.sup' Finset.univ_nonempty a = runMax L t := by
  subst ha; exact (Cert.Tiles.runMax_first L t h).symm

theorem first_sum (t : Fin 40) (h : t.val % 20 = 0) (a : Fin 5000 → ℝ) (ha : a = fun r => L (tileRow t r)) :
    ∑ r : Fin 5000, Real.exp (a r - Finset.univ.sup' Finset.univ_nonempty a) = runSum L t := by
  subst ha; rw [Cert.Tiles.runSum_first L t h, Cert.Tiles.runMax_first L t h]; rfl

theorem first_hit (t : Fin 40) (h : t.val % 20 = 0) (a : Fin 5000 → ℝ) (ha : a = fun r => L (tileRow t r)) :
    (0 : ℝ) + ∑ r : Fin 5000, (if tc.val = 5000 * t.val + r.val then a r else 0) = runHit L tc t := by
  subst ha; rw [zero_add, Cert.Tiles.runHit_first L tc t h, hit_sum]

theorem next_max (p t : Fin 40) (hp : p.val + 1 = t.val) (h : t.val % 20 ≠ 0) (a : Fin 5000 → ℝ)
    (ha : a = fun r => L (tileRow t r)) :
    max (runMax L p) (Finset.univ.sup' Finset.univ_nonempty a) = runMax L t := by
  subst ha; exact (Cert.Tiles.runMax_next L p t hp h).symm

theorem next_sum (p t : Fin 40) (hp : p.val + 1 = t.val) (h : t.val % 20 ≠ 0) (a : Fin 5000 → ℝ)
    (ha : a = fun r => L (tileRow t r)) :
    Real.exp (runMax L p - max (runMax L p) (Finset.univ.sup' Finset.univ_nonempty a)) * runSum L p
        + ∑ r : Fin 5000, Real.exp (a r - max (runMax L p) (Finset.univ.sup' Finset.univ_nonempty a))
      = runSum L t := by
  subst ha; rw [Cert.Tiles.runSum_next L p t hp h, Cert.Tiles.runMax_next L p t hp h]; rfl

theorem next_hit (p t : Fin 40) (hp : p.val + 1 = t.val) (h : t.val % 20 ≠ 0) (a : Fin 5000 → ℝ)
    (ha : a = fun r => L (tileRow t r)) :
    runHit L tc p + ∑ r : Fin 5000, (if tc.val = 5000 * t.val + r.val then a r else 0) = runHit L tc t := by
  subst ha; rw [Cert.Tiles.runHit_next L tc p t hp h, hit_sum]

end Stream

/-! ## One tile on, in the body's arithmetic

The three stores of the body into the scratch buffers, read at batch row b, over blocks given as real matrices. -/

section Step

variable (X : Fin 64 → Fin 256 → ℝ) (Wt : Fin 5000 → Fin 256 → ℝ)
  (x0 : Vec Ideal S64x256 .f32) (x1 : Vec Ideal S64x1 .i32) (x2 : Vec Ideal S5000x256 .f32)
  (hx0 : ∀ b k, x0 (ValueIdx.ix2 b k) = ((X b k : ℝ) : EReal))
  (hx2 : ∀ r k, x2 (ValueIdx.ix2 r k) = ((Wt r k : ℝ) : EReal))

include hx0 hx2

/-- A core's first tile starts from the reset values (no maximum yet, empty sums): it leaves the tile's own statistics. -/
theorem first_stats (t : Fin cfg0.N) (b : Fin 64) (hw : (x1 (ValueIdx.ix2 b (0 : Fin 1))).toNat < 200000) :
    k0_pay2 (F := Ideal) (k0_pay11 x0 x2 (k0_pay6 (F := Ideal))) (ValueIdx.ix2 b (0 : Fin 1))
        = ((Finset.univ.sup' Finset.univ_nonempty (Pay.tileL X Wt b) : ℝ) : EReal)
    ∧ k0_pay1 (F := Ideal) (k0_pay9 x0 x2) (k0_pay11 x0 x2 (k0_pay6 (F := Ideal))) (k0_pay6 (F := Ideal)) (k0_pay7 (F := Ideal)) (ValueIdx.ix2 b (0 : Fin 1))
        = ((∑ r : Fin 5000, Real.exp (Pay.tileL X Wt b r - Finset.univ.sup' Finset.univ_nonempty (Pay.tileL X Wt b)) : ℝ) : EReal)
    ∧ k0_pay10 (F := Ideal) (grid0.coords t) x0 x2 x1 (k0_pay8 (F := Ideal)) (ValueIdx.ix2 b (0 : Fin 1))
        = (((0 : ℝ) + ∑ r : Fin 5000, (if (Cert.Spec.col (x1 (ValueIdx.ix2 b (0 : Fin 1)))).val = 5000 * t.val + r.val then Pay.tileL X Wt b r else 0) : ℝ) : EReal) := by
  have hM := Pay.pay11_first X Wt x0 x2 hx0 hx2 (k0_pay6 (F := Ideal)) b (Pay.pay6_apply _)
  refine ⟨(congrFun (Pay.pay2_eq _) _).trans hM, ?_, ?_⟩
  · exact Pay.pay1_first (k0_pay9 x0 x2) (k0_pay11 x0 x2 (k0_pay6 (F := Ideal))) (k0_pay6 (F := Ideal)) (k0_pay7 (F := Ideal)) b
      (Pay.tileL X Wt b) _ (Pay.pay9_apply X Wt x0 x2 hx0 hx2 b) hM (Pay.pay6_apply _) (Pay.pay7_apply _)
  · exact Pay.pay10_apply X Wt x0 x2 hx0 hx2 t x1 (k0_pay8 (F := Ideal)) b 0 hw ((Pay.pay8_apply _).trans EReal.coe_zero.symm)

/-- A later tile merges its own statistics into the real values Mp, Sp, Hp the tile before left at row b. -/
theorem next_stats (t : Fin cfg0.N) (b : Fin 64) (xs0 xs1 xs2 : Vec Ideal S64x1 .f32) (Mp Sp Hp : ℝ)
    (hw : (x1 (ValueIdx.ix2 b (0 : Fin 1))).toNat < 200000)
    (h0 : xs0 (ValueIdx.ix2 b (0 : Fin 1)) = (Mp : EReal)) (h1 : xs1 (ValueIdx.ix2 b (0 : Fin 1)) = (Sp : EReal)) (h2 : xs2 (ValueIdx.ix2 b (0 : Fin 1)) = (Hp : EReal)) :
    k0_pay2 (F := Ideal) (k0_pay11 x0 x2 xs0) (ValueIdx.ix2 b (0 : Fin 1))
        = ((max Mp (Finset.univ.sup' Finset.univ_nonempty (Pay.tileL X Wt b)) : ℝ) : EReal)
    ∧ k0_pay1 (F := Ideal) (k0_pay9 x0 x2) (k0_pay11 x0 x2 xs0) xs0 xs1 (ValueIdx.ix2 b (0 : Fin 1))
        = ((Real.exp (Mp - max Mp (Finset.univ.sup' Finset.univ_nonempty (Pay.tileL X Wt b))) * Sp
            + ∑ r : Fin 5000, Real.exp (Pay.tileL X Wt b r - max Mp (Finset.univ.sup' Finset.univ_nonempty (Pay.tileL X Wt b))) : ℝ) : EReal)
    ∧ k0_pay10 (F := Ideal) (grid0.coords t) x0 x2 x1 xs2 (ValueIdx.ix2 b (0 : Fin 1))
        = ((Hp + ∑ r : Fin 5000, (if (Cert.Spec.col (x1 (ValueIdx.ix2 b (0 : Fin 1)))).val = 5000 * t.val + r.val then Pay.tileL X Wt b r else 0) : ℝ) : EReal) := by
  have hM := Pay.pay11_next X Wt x0 x2 hx0 hx2 xs0 b Mp h0
  refine ⟨(congrFun (Pay.pay2_eq _) _).trans hM, ?_, ?_⟩
  · exact Pay.pay1_next (k0_pay9 x0 x2) (k0_pay11 x0 x2 xs0) xs0 xs1 b (Pay.tileL X Wt b) _
      (Pay.pay9_apply X Wt x0 x2 hx0 hx2 b) hM Mp Sp h0 h1
  · exact Pay.pay10_apply X Wt x0 x2 hx0 hx2 t x1 xs2 b Hp hw h2

end Step

/-! ## The scratch buffers after a point, as the body's arithmetic of the point's blocks -/

/-- After a core's first tile: the body's three stores over the reset values. -/
theorem scratch_first (t : Fin cfg0.N) (h0 : t.val % 20 = 0) :
    (outsAt0 m c t.val t.isLt).2.2.2.2.1 = k0_pay2 (F := Ideal) (k0_pay11 (iblk m c 0 t) (iblk m c 2 t) (k0_pay6 (F := Ideal)))
    ∧ (outsAt0 m c t.val t.isLt).2.2.2.2.2.1 = k0_pay1 (F := Ideal) (k0_pay9 (iblk m c 0 t) (iblk m c 2 t)) (k0_pay11 (iblk m c 0 t) (iblk m c 2 t) (k0_pay6 (F := Ideal))) (k0_pay6 (F := Ideal)) (k0_pay7 (F := Ideal))
    ∧ (outsAt0 m c t.val t.isLt).2.2.2.2.2.2 = k0_pay10 (F := Ideal) (grid0.coords t) (iblk m c 0 t) (iblk m c 2 t) (iblk m c 1 t) (k0_pay8 (F := Ideal)) := by
  have h1 : ¬t.val % 20 = 19 := by omega
  rw [outsAt0_A m c t h0 h1]
  dsimp only
  exact ⟨sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- After any later tile: the same three stores over what the point before left. -/
theorem scratch_next (t : Fin cfg0.N) (h0 : ¬t.val % 20 = 0) :
    (outsAt0 m c t.val t.isLt).2.2.2.2.1 = k0_pay2 (F := Ideal) (k0_pay11 (iblk m c 0 t) (iblk m c 2 t) (outsAt0 m c (t.val - 1) (Nat.lt_of_le_of_lt (Nat.sub_le _ _) t.isLt)).2.2.2.2.1)
    ∧ (outsAt0 m c t.val t.isLt).2.2.2.2.2.1 = k0_pay1 (F := Ideal) (k0_pay9 (iblk m c 0 t) (iblk m c 2 t)) (k0_pay11 (iblk m c 0 t) (iblk m c 2 t) (outsAt0 m c (t.val - 1) (Nat.lt_of_le_of_lt (Nat.sub_le _ _) t.isLt)).2.2.2.2.1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
    ∧ (outsAt0 m c t.val t.isLt).2.2.2.2.2.2 = k0_pay10 (F := Ideal) (grid0.coords t) (iblk m c 0 t) (iblk m c 2 t) (iblk m c 1 t) (outsAt0 m c (t.val - 1) (Nat.lt_of_le_of_lt (Nat.sub_le _ _) t.isLt)).2.2.2.2.2.2 := by
  by_cases h1 : t.val % 20 = 19
  · rw [outsAt0_C m c t h0 h1]
    dsimp only
    exact ⟨sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
      sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
      sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩
  · rw [outsAt0_B m c t h0 h1]
    dsimp only
    exact ⟨sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
      sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
      sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-! ## The invariant -/

/-- At batch row b the three scratch buffers after point t hold the running maximum, the running shifted sum of
    exponentials and the running logit at the target of the bank rows the point's core has streamed through t. -/
def Holds (t : Fin cfg0.N) (b : Fin 64) : Prop :=
  (outsAt0 m c t.val t.isLt).2.2.2.2.1 (ValueIdx.ix2 b (0 : Fin 1)) = ((runMax (Lrow m c b) (pt t) : ℝ) : EReal)
  ∧ (outsAt0 m c t.val t.isLt).2.2.2.2.2.1 (ValueIdx.ix2 b (0 : Fin 1)) = ((runSum (Lrow m c b) (pt t) : ℝ) : EReal)
  ∧ (outsAt0 m c t.val t.isLt).2.2.2.2.2.2 (ValueIdx.ix2 b (0 : Fin 1)) = ((runHit (Lrow m c b) (tcol m c b) (pt t) : ℝ) : EReal)

section Blocks

variable (h : Ok m c) (t : Fin cfg0.N)
include h

/-- The queries' block as a real matrix. -/
theorem qblock_real (b : Fin 64) (k : Fin 256) :
    (iblk m c 0 t : Vec Ideal S64x256 .f32) (ValueIdx.ix2 b k) = ((Cert.Common.real2 (V m c main_v4) b k : ℝ) : EReal) :=
  (congrFun (qblock_eq m c t) (ValueIdx.ix2 b k)).trans (Cert.Common.coe_real2 (V m c main_v4) h.xn_real b k)

/-- The bank's block at point t as a real matrix: the rows of tile t. -/
theorem bblock_real (r : Fin 5000) (k : Fin 256) :
    (iblk m c 2 t : Vec Ideal S5000x256 .f32) (ValueIdx.ix2 r k)
      = ((Cert.Common.real2 (V m c main_arg2) (tileRow (pt t) r) k : ℝ) : EReal) :=
  (bblock_apply m c t r k).trans (Cert.Common.coe_real2 (V m c main_arg2) h.w_real (tileRow (pt t) r) k)

/-- The targets' block holds bank rows. -/
theorem tblock_range (b : Fin 64) : ((iblk m c 1 t : Vec Ideal S64x1 .i32) (ValueIdx.ix2 b (0 : Fin 1))).toNat < 200000 := by
  rw [congrFun (tblock_eq m c t) (ValueIdx.ix2 b (0 : Fin 1))]; exact h.t_range b

end Blocks

/-- The tile's logits of row b, as the body's matrix product computes them from the two real blocks, are row b's
    logits at the tile's bank rows. -/
theorem tile_logits (t : Fin cfg0.N) (b : Fin 64) :
    Pay.tileL (Cert.Common.real2 (V m c main_v4)) (fun r k => Cert.Common.real2 (V m c main_arg2) (tileRow (pt t) r) k) b = fun r => Lrow m c b (tileRow (pt t) r) := rfl

/-- The target word of row b read off the point's block is row b's target. -/
theorem tblock_col (t : Fin cfg0.N) (b : Fin 64) :
    Cert.Spec.col ((iblk m c 1 t : Vec Ideal S64x1 .i32) (ValueIdx.ix2 b (0 : Fin 1))) = tcol m c b := by
  rw [congrFun (tblock_eq m c t) (ValueIdx.ix2 b (0 : Fin 1))]; rfl

theorem holds_first (h : Ok m c) (t : Fin cfg0.N) (h0 : t.val % 20 = 0) (b : Fin 64) : Holds m c t b := by
  obtain ⟨e0, e1, e2⟩ := scratch_first m c t h0
  obtain ⟨s0, s1, s2⟩ := first_stats (Cert.Common.real2 (V m c main_v4)) (fun r k => Cert.Common.real2 (V m c main_arg2) (tileRow (pt t) r) k) (iblk m c 0 t) (iblk m c 1 t) (iblk m c 2 t) (qblock_real m c h t) (bblock_real m c h t) t b (tblock_range m c h t b)
  rw [tblock_col m c t b] at s2
  refine ⟨(congrFun e0 _).trans (s0.trans (congrArg _ ?_)), (congrFun e1 _).trans (s1.trans (congrArg _ ?_)),
    (congrFun e2 _).trans (s2.trans (congrArg _ ?_))⟩
  · exact first_max (Lrow m c b) (pt t) h0 _ (tile_logits m c t b)
  · exact first_sum (Lrow m c b) (pt t) h0 _ (tile_logits m c t b)
  · exact first_hit (Lrow m c b) (tcol m c b) (pt t) h0 _ (tile_logits m c t b)

theorem holds_next (h : Ok m c) (t : Fin cfg0.N) (h0 : ¬t.val % 20 = 0) (b : Fin 64)
    (ih : Holds m c ⟨t.val - 1, Nat.lt_of_le_of_lt (Nat.sub_le _ _) t.isLt⟩ b) : Holds m c t b := by
  obtain ⟨e0, e1, e2⟩ := scratch_next m c t h0
  obtain ⟨i0, i1, i2⟩ := ih
  obtain ⟨s0, s1, s2⟩ := next_stats (Cert.Common.real2 (V m c main_v4)) (fun r k => Cert.Common.real2 (V m c main_arg2) (tileRow (pt t) r) k) (iblk m c 0 t) (iblk m c 1 t) (iblk m c 2 t) (qblock_real m c h t) (bblock_real m c h t) t b
    (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 _ _ _ (tblock_range m c h t b) i0 i1 i2
  rw [tblock_col m c t b] at s2
  have hp : (pt ⟨t.val - 1, Nat.lt_of_le_of_lt (Nat.sub_le _ _) t.isLt⟩).val + 1 = (pt t).val := by
    show t.val - 1 + 1 = t.val; omega
  refine ⟨(congrFun e0 _).trans (s0.trans (congrArg _ ?_)), (congrFun e1 _).trans (s1.trans (congrArg _ ?_)),
    (congrFun e2 _).trans (s2.trans (congrArg _ ?_))⟩
  · exact next_max (Lrow m c b) _ (pt t) hp h0 _ (tile_logits m c t b)
  · exact next_sum (Lrow m c b) _ (pt t) hp h0 _ (tile_logits m c t b)
  · exact next_hit (Lrow m c b) (tcol m c b) _ (pt t) hp h0 _ (tile_logits m c t b)

/-- THE INVARIANT, by induction along the walk: a core's first tile starts the statistics afresh, every other tile
    merges into what the tile before left. -/
theorem holds (h : Ok m c) : ∀ (n : ℕ) (t : Fin cfg0.N), t.val = n → ∀ b : Fin 64, Holds m c t b
  | 0, t, ht, b => holds_first m c h t (by rw [ht]) b
  | n + 1, t, ht, b => by
    by_cases h0 : t.val % 20 = 0
    · exact holds_first m c h t h0 b
    · exact holds_next m c h t h0 b (holds h n ⟨t.val - 1, Nat.lt_of_le_of_lt (Nat.sub_le _ _) t.isLt⟩ (by show t.val - 1 = n; omega) b)

theorem inv (h : Ok m c) (t : Fin cfg0.N) (b : Fin 64) :
    (outsAt0 m c t.val t.isLt).2.2.2.2.1 (ValueIdx.ix2 b (0 : Fin 1)) = ((Cert.Tiles.runMax (Lrow m c b) (pt t) : ℝ) : EReal)
    ∧ (outsAt0 m c t.val t.isLt).2.2.2.2.2.1 (ValueIdx.ix2 b (0 : Fin 1)) = ((Cert.Tiles.runSum (Lrow m c b) (pt t) : ℝ) : EReal)
    ∧ (outsAt0 m c t.val t.isLt).2.2.2.2.2.2 (ValueIdx.ix2 b (0 : Fin 1)) = ((Cert.Tiles.runHit (Lrow m c b) (tcol m c b) (pt t) : ℝ) : EReal) :=
  holds m c h t.val t rfl b

end Cert.KernelIdeal.Inv

end
-- ==== Proof.KArr.lean ====
/-
  What the pallas_call's four result arrays hold when the region ends.

  Output 3 is written back at every point with the bank tile the point staged, and the 40 tiles are the whole bank:
  it ends as a copy of the bank. Outputs 4, 5, 6 have one block per core, written back after the core's twentieth
  tile only, with the three running statistics as they stand then: for core q and batch row b they end holding the
  maximum, the shifted sum of exponentials and the logit at the target over half q of the bank.
-/
import proofs.«403753_j46050639347844_2_alg».proof.Proof.KInv
import proofs.«403753_j46050639347844_2_alg».proof.Proof.KI.Pieces
import proofs.«403753_j46050639347844_2_alg».proof.Proof.KPay
import Idealize.ShloMosaic.Lib.Pipeline.Value
import Idealize.ShloMosaic.Lib.ValueIdx

set_option maxRecDepth 16384

noncomputable section

namespace Cert.KernelIdeal.Inv

open Idealize.ShloMosaic Cert.KernelIdeal Cert.KernelIdeal.Gen Cert.KernelIdeal.Fr
open Cert.Tiles (tileRow runMax runSum runHit)

variable (m : (ℓ : Loc nD τ sig) → Buf (Elt Ideal) ℓ) (c : Dev nD)

/-! ## Output 3: the bank, copied tile by tile -/

/-- The printed index maps of the four output windows, decided over the grid: output 3's block moves with the bank's
    tile; the per-core outputs' block index is the core, t / 20. -/
theorem out_index_facts : ∀ t : Fin cfg0.N,
    win0_3.index t (0 : Fin 2) = t.val ∧ win0_3.index t (1 : Fin 2) = 0
    ∧ win0_4.index t (0 : Fin 3) = t.val / 20 ∧ win0_4.index t (1 : Fin 3) = 0 ∧ win0_4.index t (2 : Fin 3) = 0
    ∧ win0_5.index t (0 : Fin 3) = t.val / 20 ∧ win0_5.index t (1 : Fin 3) = 0 ∧ win0_5.index t (2 : Fin 3) = 0
    ∧ win0_6.index t (0 : Fin 3) = t.val / 20 ∧ win0_6.index t (1 : Fin 3) = 0 ∧ win0_6.index t (2 : Fin 3) = 0 :=
  (by decide +kernel : ∀ t : Fin grid0.N, _)

/-- Whatever the branch, the body leaves in output 3's staging buffer the bank tile it staged. -/
theorem passthrough (t : Fin cfg0.N) : (outsAt0 m c t.val t.isLt).1 = iblk m c 2 t := by
  by_cases h0 : t.val % 20 = 0
  · have h1 : ¬t.val % 20 = 19 := by omega
    rw [outsAt0_A m c t h0 h1]
    dsimp only
    exact out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · by_cases h1 : t.val % 20 = 19
    · rw [outsAt0_C m c t h0 h1]
      dsimp only
      exact out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    · rw [outsAt0_B m c t h0 h1]
      dsimp only
      exact out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

/-- What point t writes back into output 3 is block t of the bank. -/
theorem flushed3_eq (t : Fin cfg0.N) :
    (dats m 0 c).flushed 3 t = ((cfg0.win 3).blk t).view.read (Elt Ideal) (V m c main_arg2 : Vec Ideal S200000x256 .f32) := by
  show (cfg0.win 3).cut (grid0.coords t) ((dats m 0 c).after 3 t) = _
  rw [after0_3, passthrough]
  funext j
  -- the bank's window and output 3's have one and the same index map: the two blocks sit at the same rows
  show V m c main_arg2 (((cfg0.win 2).blk t).view.emb j) = V m c main_arg2 (((cfg0.win 3).blk t).view.emb j)
  congr 1

/-- An index of output 3 lies in point t's block iff each coordinate lies in the block's range on its axis. -/
theorem mem_blk3 (t : Fin cfg0.N) (i : S200000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v6_0).slice (win0_3.rect t)).set ↔ _
  rw [View.set_slice_whole, Rect.mem_set_unit]
  exact Iff.rfl

/-- Output 3 ends as the bank: bank row j was written back by point j / 5000. -/
theorem arr3 (i : S200000x256.Idx) : (dats m 0 c).arrAt 3 cfg0.N i = V m c main_arg2 i := by
  have hN : cfg0.N = 40 := N_0
  refine congrFun ((dats m 0 c).arrAt_eq_of_cover 3 (V m c main_arg2 : Vec Ideal S200000x256 .f32)
    (fun t _ => flushed3_eq m c t) fun i => ?_) i
  have hi0 : (i 0).val < 200000 := ValueIdx.idx2_lt0 i
  have hi1 : (i 1).val < 256 := ValueIdx.idx2_lt1 i
  refine ⟨⟨(i 0).val / 5000, by rw [hN]; omega⟩, flush0_3 _, ?_⟩
  obtain ⟨f0, f1, -⟩ := out_index_facts ⟨(i 0).val / 5000, by rw [hN]; omega⟩
  rw [mem_blk3]
  intro a
  match a with
  | ⟨0, _⟩ => show win0_3.index _ (0 : Fin 2) * 5000 ≤ (i 0).val ∧ (i 0).val < win0_3.index _ (0 : Fin 2) * 5000 + 5000; rw [f0]; dsimp only; omega
  | ⟨1, _⟩ => show win0_3.index _ (1 : Fin 2) * 256 ≤ (i 1).val ∧ (i 1).val < win0_3.index _ (1 : Fin 2) * 256 + 256; rw [f1]; omega

/-! ## Outputs 4, 5, 6: the per-core statistics, written back after the core's last tile -/

/-- At a core's last tile the body copies the three running statistics, as it has just updated them, into the blocks
    of outputs 4, 5, 6 (a column re-laid as a one-row block). -/
theorem copied_last (t : Fin cfg0.N) (h1 : t.val % 20 = 19) :
    (outsAt0 m c t.val t.isLt).2.1 = k0_pay3 (F := Ideal) (outsAt0 m c t.val t.isLt).2.2.2.2.1
    ∧ (outsAt0 m c t.val t.isLt).2.2.1 = k0_pay4 (F := Ideal) (outsAt0 m c t.val t.isLt).2.2.2.2.2.1
    ∧ (outsAt0 m c t.val t.isLt).2.2.2.1 = k0_pay5 (F := Ideal) (outsAt0 m c t.val t.isLt).2.2.2.2.2.2 := by
  have h0 : ¬t.val % 20 = 0 := by omega
  rw [outsAt0_C m c t h0 h1]
  dsimp only
  exact ⟨(out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).trans
      (congrArg (k0_pay3 (F := Ideal)) (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).symm),
    (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).trans
      (congrArg (k0_pay4 (F := Ideal)) (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).symm),
    (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).trans
      (congrArg (k0_pay5 (F := Ideal)) (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).symm)⟩

/-- The core whose twentieth tile point t is. -/
def coreOf (t : Fin cfg0.N) : Fin 2 := ⟨t.val / 20, by have := (pt t).isLt; show t.val / 20 < 2; have : (pt t).val = t.val := rfl; omega⟩

/-- After a core's last tile the rows streamed are the core's half of the bank. -/
theorem last_point (t : Fin cfg0.N) (h1 : t.val % 20 = 19) : (pt t).val = 20 * (coreOf t).val + 19 := by
  show t.val = 20 * (t.val / 20) + 19; omega

/-- The three per-core statistics, as whole arrays: entry (q, b) is row b's statistic over half q of the bank. -/
def coreMax : Vec Ideal S2x64x1 .f32 := fun i => ((Cert.Spec.halfMax (Lrow m c (i 1)) (i 0) : ℝ) : EReal)
def coreSum : Vec Ideal S2x64x1 .f32 := fun i => ((Cert.Spec.halfSum (Lrow m c (i 1)) (i 0) : ℝ) : EReal)
def coreHit : Vec Ideal S2x64x1 .f32 := fun i => ((Cert.Spec.halfHit (Lrow m c (i 1)) (tcol m c (i 1)) (i 0) : ℝ) : EReal)

/-- Where an entry of point t's block of output 4 sits in the array: core t / 20, the same row. -/
theorem emb4 (t : Fin cfg0.N) (b : Fin 64) :
    ((cfg0.win 4).blk t).view.emb (ValueIdx.ix3 (0 : Fin 1) b (0 : Fin 1)) = ValueIdx.ix3 (coreOf t) b (0 : Fin 1) := by
  obtain ⟨-, -, f0, f1, f2, -⟩ := out_index_facts t
  funext a
  apply Fin.ext
  match a with
  | ⟨0, _⟩ => show win0_4.index t (0 : Fin 3) * 1 + 1 * 0 = t.val / 20; omega
  | ⟨1, _⟩ => show win0_4.index t (1 : Fin 3) * 64 + 1 * b.val = b.val; omega
  | ⟨2, _⟩ => show win0_4.index t (2 : Fin 3) * 1 + 1 * 0 = 0; omega

/-- What a core's last tile writes back into output 4 is the core's block of the per-core maxima. -/
theorem flushed4_eq (h : Ok m c) (t : Fin cfg0.N) (hf : (cfg0.win 4).flush t = true) :
    (dats m 0 c).flushed 4 t = ((cfg0.win 4).blk t).view.read (Elt Ideal) (coreMax m c) := by
  have h1 : t.val % 20 = 19 := (flush0_4 t).mp hf
  show (cfg0.win 4).cut (grid0.coords t) ((dats m 0 c).after 4 t) = _
  rw [after0_4, (copied_last m c t h1).1]
  funext j
  obtain ⟨p, b, r, rfl⟩ : ∃ (p : Fin 1) (b : Fin 64) (r : Fin 1), j = ValueIdx.ix3 p b r := ⟨j 0, j 1, j 2, ValueIdx.eq_ix3 j⟩
  obtain rfl : p = 0 := Subsingleton.elim _ _
  obtain rfl : r = 0 := Subsingleton.elim _ _
  show k0_pay3 (F := Ideal) _ (ValueIdx.ix3 (0 : Fin 1) b (0 : Fin 1)) = coreMax m c (((cfg0.win 4).blk t).view.emb (ValueIdx.ix3 (0 : Fin 1) b (0 : Fin 1)))
  rw [emb4 t b]
  refine (Pay.pay3_apply _ b).trans (((inv m c h t b).1).trans (congrArg (fun x : ℝ => (x : EReal)) ?_))
  exact Cert.Tiles.runMax_last (Lrow m c b) (coreOf t) (pt t) (last_point t h1)

/-- An index of output 4 lies in point t's block iff each coordinate lies in the block's range on its axis. -/
theorem mem_blk4 (t : Fin cfg0.N) (i : S2x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v6_1).slice (win0_4.rect t)).set ↔ _
  rw [View.set_slice_whole, Rect.mem_set_unit]
  exact Iff.rfl

/-- Output 4 ends as the per-core maxima: core q's block was written back by point 20 q + 19. -/
theorem final4 (h : Ok m c) : (dats m 0 c).arrAt 4 cfg0.N = coreMax m c := by
  have hN : cfg0.N = 40 := N_0
  refine (dats m 0 c).arrAt_eq_of_cover 4 (coreMax m c) (flushed4_eq m c h) fun i => ?_
  have hi0 : (i 0).val < 2 := (i 0).isLt
  have hi1 : (i 1).val < 64 := (i 1).isLt
  have hi2 : (i 2).val < 1 := (i 2).isLt
  refine ⟨⟨20 * (i 0).val + 19, by rw [hN]; omega⟩, (flush0_4 _).mpr (by dsimp only; omega), ?_⟩
  obtain ⟨-, -, f0, f1, f2, -⟩ := out_index_facts ⟨20 * (i 0).val + 19, by rw [hN]; omega⟩
  rw [mem_blk4]
  intro a
  match a with
  | ⟨0, _⟩ => show win0_4.index _ (0 : Fin 3) * 1 ≤ (i 0).val ∧ (i 0).val < win0_4.index _ (0 : Fin 3) * 1 + 1; rw [f0]; dsimp only; omega
  | ⟨1, _⟩ => show win0_4.index _ (1 : Fin 3) * 64 ≤ (i 1).val ∧ (i 1).val < win0_4.index _ (1 : Fin 3) * 64 + 64; rw [f1]; omega
  | ⟨2, _⟩ => show win0_4.index _ (2 : Fin 3) * 1 ≤ (i 2).val ∧ (i 2).val < win0_4.index _ (2 : Fin 3) * 1 + 1; rw [f2]; omega

/-- Where an entry of point t's block of output 5 sits in the array: core t / 20, the same row. -/
theorem emb5 (t : Fin cfg0.N) (b : Fin 64) :
    ((cfg0.win 5).blk t).view.emb (ValueIdx.ix3 (0 : Fin 1) b (0 : Fin 1)) = ValueIdx.ix3 (coreOf t) b (0 : Fin 1) := by
  obtain ⟨-, -, -, -, -, f0, f1, f2, -⟩ := out_index_facts t
  funext a
  apply Fin.ext
  match a with
  | ⟨0, _⟩ => show win0_5.index t (0 : Fin 3) * 1 + 1 * 0 = t.val / 20; omega
  | ⟨1, _⟩ => show win0_5.index t (1 : Fin 3) * 64 + 1 * b.val = b.val; omega
  | ⟨2, _⟩ => show win0_5.index t (2 : Fin 3) * 1 + 1 * 0 = 0; omega

/-- What a core's last tile writes back into output 5 is the core's block of the per-core sums of exponentials. -/
theorem flushed5_eq (h : Ok m c) (t : Fin cfg0.N) (hf : (cfg0.win 5).flush t = true) :
    (dats m 0 c).flushed 5 t = ((cfg0.win 5).blk t).view.read (Elt Ideal) (coreSum m c) := by
  have h1 : t.val % 20 = 19 := (flush0_5 t).mp hf
  show (cfg0.win 5).cut (grid0.coords t) ((dats m 0 c).after 5 t) = _
  rw [after0_5, (copied_last m c t h1).2.1]
  funext j
  obtain ⟨p, b, r, rfl⟩ : ∃ (p : Fin 1) (b : Fin 64) (r : Fin 1), j = ValueIdx.ix3 p b r := ⟨j 0, j 1, j 2, ValueIdx.eq_ix3 j⟩
  obtain rfl : p = 0 := Subsingleton.elim _ _
  obtain rfl : r = 0 := Subsingleton.elim _ _
  show k0_pay4 (F := Ideal) _ (ValueIdx.ix3 (0 : Fin 1) b (0 : Fin 1)) = coreSum m c (((cfg0.win 5).blk t).view.emb (ValueIdx.ix3 (0 : Fin 1) b (0 : Fin 1)))
  rw [emb5 t b]
  refine (Pay.pay4_apply _ b).trans (((inv m c h t b).2.1).trans (congrArg (fun x : ℝ => (x : EReal)) ?_))
  exact Cert.Tiles.runSum_last (Lrow m c b) (coreOf t) (pt t) (last_point t h1)

/-- An index of output 5 lies in point t's block iff each coordinate lies in the block's range on its axis. -/
theorem mem_blk5 (t : Fin cfg0.N) (i : S2x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v6_2).slice (win0_5.rect t)).set ↔ _
  rw [View.set_slice_whole, Rect.mem_set_unit]
  exact Iff.rfl

/-- Output 5 ends as the per-core sums of exponentials: core q's block was written back by point 20 q + 19. -/
theorem final5 (h : Ok m c) : (dats m 0 c).arrAt 5 cfg0.N = coreSum m c := by
  have hN : cfg0.N = 40 := N_0
  refine (dats m 0 c).arrAt_eq_of_cover 5 (coreSum m c) (flushed5_eq m c h) fun i => ?_
  have hi0 : (i 0).val < 2 := (i 0).isLt
  have hi1 : (i 1).val < 64 := (i 1).isLt
  have hi2 : (i 2).val < 1 := (i 2).isLt
  refine ⟨⟨20 * (i 0).val + 19, by rw [hN]; omega⟩, (flush0_5 _).mpr (by dsimp only; omega), ?_⟩
  obtain ⟨-, -, -, -, -, f0, f1, f2, -⟩ := out_index_facts ⟨20 * (i 0).val + 19, by rw [hN]; omega⟩
  rw [mem_blk5]
  intro a
  match a with
  | ⟨0, _⟩ => show win0_5.index _ (0 : Fin 3) * 1 ≤ (i 0).val ∧ (i 0).val < win0_5.index _ (0 : Fin 3) * 1 + 1; rw [f0]; dsimp only; omega
  | ⟨1, _⟩ => show win0_5.index _ (1 : Fin 3) * 64 ≤ (i 1).val ∧ (i 1).val < win0_5.index _ (1 : Fin 3) * 64 + 64; rw [f1]; omega
  | ⟨2, _⟩ => show win0_5.index _ (2 : Fin 3) * 1 ≤ (i 2).val ∧ (i 2).val < win0_5.index _ (2 : Fin 3) * 1 + 1; rw [f2]; omega

/-- Where an entry of point t's block of output 6 sits in the array: core t / 20, the same row. -/
theorem emb6 (t : Fin cfg0.N) (b : Fin 64) :
    ((cfg0.win 6).blk t).view.emb (ValueIdx.ix3 (0 : Fin 1) b (0 : Fin 1)) = ValueIdx.ix3 (coreOf t) b (0 : Fin 1) := by
  obtain ⟨-, -, -, -, -, -, -, -, f0, f1, f2⟩ := out_index_facts t
  funext a
  apply Fin.ext
  match a with
  | ⟨0, _⟩ => show win0_6.index t (0 : Fin 3) * 1 + 1 * 0 = t.val / 20; omega
  | ⟨1, _⟩ => show win0_6.index t (1 : Fin 3) * 64 + 1 * b.val = b.val; omega
  | ⟨2, _⟩ => show win0_6.index t (2 : Fin 3) * 1 + 1 * 0 = 0; omega

/-- What a core's last tile writes back into output 6 is the core's block of the per-core logits at the target. -/
theorem flushed6_eq (h : Ok m c) (t : Fin cfg0.N) (hf : (cfg0.win 6).flush t = true) :
    (dats m 0 c).flushed 6 t = ((cfg0.win 6).blk t).view.read (Elt Ideal) (coreHit m c) := by
  have h1 : t.val % 20 = 19 := (flush0_6 t).mp hf
  show (cfg0.win 6).cut (grid0.coords t) ((dats m 0 c).after 6 t) = _
  rw [after0_6, (copied_last m c t h1).2.2]
  funext j
  obtain ⟨p, b, r, rfl⟩ : ∃ (p : Fin 1) (b : Fin 64) (r : Fin 1), j = ValueIdx.ix3 p b r := ⟨j 0, j 1, j 2, ValueIdx.eq_ix3 j⟩
  obtain rfl : p = 0 := Subsingleton.elim _ _
  obtain rfl : r = 0 := Subsingleton.elim _ _
  show k0_pay5 (F := Ideal) _ (ValueIdx.ix3 (0 : Fin 1) b (0 : Fin 1)) = coreHit m c (((cfg0.win 6).blk t).view.emb (ValueIdx.ix3 (0 : Fin 1) b (0 : Fin 1)))
  rw [emb6 t b]
  refine (Pay.pay5_apply _ b).trans (((inv m c h t b).2.2).trans (congrArg (fun x : ℝ => (x : EReal)) ?_))
  exact Cert.Tiles.runHit_last (Lrow m c b) (tcol m c b) (coreOf t) (pt t) (last_point t h1)

/-- An index of output 6 lies in point t's block iff each coordinate lies in the block's range on its axis. -/
theorem mem_blk6 (t : Fin cfg0.N) (i : S2x64x1.Idx) :
    i ∈ ((cfg0.win 6).blk t).view.set ↔ ∀ a : Fin 3, win0_6.index t a * S1x64x1.size a ≤ (i a).val ∧ (i a).val < win0_6.index t a * S1x64x1.size a + S1x64x1.size a := by
  show i ∈ ((View.whole main_v6_3).slice (win0_6.rect t)).set ↔ _
  rw [View.set_slice_whole, Rect.mem_set_unit]
  exact Iff.rfl

/-- Output 6 ends as the per-core logits at the target: core q's block was written back by point 20 q + 19. -/
theorem final6 (h : Ok m c) : (dats m 0 c).arrAt 6 cfg0.N = coreHit m c := by
  have hN : cfg0.N = 40 := N_0
  refine (dats m 0 c).arrAt_eq_of_cover 6 (coreHit m c) (flushed6_eq m c h) fun i => ?_
  have hi0 : (i 0).val < 2 := (i 0).isLt
  have hi1 : (i 1).val < 64 := (i 1).isLt
  have hi2 : (i 2).val < 1 := (i 2).isLt
  refine ⟨⟨20 * (i 0).val + 19, by rw [hN]; omega⟩, (flush0_6 _).mpr (by dsimp only; omega), ?_⟩
  obtain ⟨-, -, -, -, -, -, -, -, f0, f1, f2⟩ := out_index_facts ⟨20 * (i 0).val + 19, by rw [hN]; omega⟩
  rw [mem_blk6]
  intro a
  match a with
  | ⟨0, _⟩ => show win0_6.index _ (0 : Fin 3) * 1 ≤ (i 0).val ∧ (i 0).val < win0_6.index _ (0 : Fin 3) * 1 + 1; rw [f0]; dsimp only; omega
  | ⟨1, _⟩ => show win0_6.index _ (1 : Fin 3) * 64 ≤ (i 1).val ∧ (i 1).val < win0_6.index _ (1 : Fin 3) * 64 + 64; rw [f1]; omega
  | ⟨2, _⟩ => show win0_6.index _ (2 : Fin 3) * 1 ≤ (i 2).val ∧ (i 2).val < win0_6.index _ (2 : Fin 3) * 1 + 1; rw [f2]; omega

/-- Output 4 at core q, batch row b: row b's largest logit over half q of the bank. -/
theorem arr4 (h : Ok m c) (q : Fin 2) (b : Fin 64) :
    (dats m 0 c).arrAt 4 cfg0.N (ValueIdx.ix3 q b (0 : Fin 1)) = ((Cert.Spec.halfMax (Lrow m c b) q : ℝ) : EReal) :=
  congrFun (final4 m c h) (ValueIdx.ix3 q b (0 : Fin 1))

/-- Output 5 at core q, batch row b: row b's sum of exponentials over half q, shifted by that half's maximum. -/
theorem arr5 (h : Ok m c) (q : Fin 2) (b : Fin 64) :
    (dats m 0 c).arrAt 5 cfg0.N (ValueIdx.ix3 q b (0 : Fin 1)) = ((Cert.Spec.halfSum (Lrow m c b) q : ℝ) : EReal) :=
  congrFun (final5 m c h) (ValueIdx.ix3 q b (0 : Fin 1))

/-- Output 6 at core q, batch row b: row b's logit at its target if the target lies in half q, else zero. -/
theorem arr6 (h : Ok m c) (q : Fin 2) (b : Fin 64) :
    (dats m 0 c).arrAt 6 cfg0.N (ValueIdx.ix3 q b (0 : Fin 1)) = ((Cert.Spec.halfHit (Lrow m c b) (tcol m c b) q : ℝ) : EReal) :=
  congrFun (final6 m c h) (ValueIdx.ix3 q b (0 : Fin 1))

end Cert.KernelIdeal.Inv

end
-- ==== Proof.KTail.lean ====
/-
  The merge of the two cores' softmax statistics into the per-row loss.

  Each core streams one half of the bank and leaves, per batch row, the largest logit of its half, the sum over the half
  of the exponentials shifted by that maximum, and the logit at the row's target if the target lies in the half (zero
  otherwise). After the call the host merges the two halves: with `M` the larger of the two maxima, each half's sum is
  rescaled by `exp (m_q - M)` so that both are shifted by the same `M`; the rescaled sums add to the whole row's sum of
  exponentials shifted by `M`, and `M` is the row's maximum, so `M + log (sum)` is the row's log-sum-exp; the two
  target logits add to the logit at the target, since the target lies in exactly one half. The difference is minus the
  log-softmax at the target: the row's cross-entropy.

  The first section proves these identities over the real numbers, for any row of logits; the second reads the host's
  operations, at the ideal instance, at one batch row, and joins the two.
-/
import proofs.«403753_j46050639347844_2_alg».proof.KernelIdeal
import proofs.«403753_j46050639347844_2_alg».proof.Proof.Gen.KernelIdeal
import proofs.«403753_j46050639347844_2_alg».proof.Proof.Common
import Idealize.ShloMosaic.PureOps.Ideal.Laws
import Idealize.ShloMosaic.Lib.ValueIdx
import Idealize.ShloMosaic.Lib.ValueLayout
import Idealize.ShloMosaic.Lib.Pipeline.Value
import Mathlib.Algebra.Order.BigOperators.Group.Finset
import Mathlib.Data.EReal.Operations

noncomputable section

namespace Cert.KernelIdeal.Tail

open Idealize.ShloMosaic Cert.KernelIdeal Cert.KernelIdeal.Gen

/-! ## The two halves merged, over the reals -/

section Reals

open Cert.Spec

variable (L : Fin 200000 → ℝ) (tcol : Fin 200000)

/-- Every bank row lies in one of the two halves: a row number below 200000 divided by 100000 is 0 or 1. -/
theorem half_union : half 0 ∪ half 1 = Finset.univ := by
  ext j
  simp only [half, Finset.mem_union, Finset.mem_filter, Finset.mem_univ, true_and, iff_true]
  have hj := j.isLt
  show j.val / 100000 = 0 ∨ j.val / 100000 = 1
  omega

/-- No bank row lies in both halves. -/
theorem half_disjoint : Disjoint (half 0) (half 1) := by
  rw [Finset.disjoint_left]
  intro j h0 h1
  simp only [half, Finset.mem_filter, Finset.mem_univ, true_and] at h0 h1
  have e0 : j.val / 100000 = 0 := h0
  have e1 : j.val / 100000 = 1 := h1
  omega

/-- A maximum over a set depends on the set only, not on the evidence that it is nonempty. -/
private theorem sup'_of_eq {s u : Finset (Fin 200000)} (hs : s.Nonempty) (hu : u.Nonempty) (h : s = u) :
    s.sup' hs L = u.sup' hu L := by
  subst h; rfl

/-- The larger of the two halves' maxima is the row's maximum. -/
theorem max_halfMax : max (halfMax L 0) (halfMax L 1) = rowMax L := by
  unfold halfMax rowMax
  rw [← Finset.sup'_union (half_nonempty 0) (half_nonempty 1) L]
  exact sup'_of_eq L _ _ half_union

/-- A sum of exponentials shifted by `m`, rescaled by `exp (m - M)`, is the sum shifted by `M`. -/
theorem rescale_sum (s : Finset (Fin 200000)) (m M : ℝ) :
    Real.exp (m - M) * ∑ j ∈ s, Real.exp (L j - m) = ∑ j ∈ s, Real.exp (L j - M) := by
  rw [Finset.mul_sum]
  refine Finset.sum_congr rfl fun j _ => ?_
  rw [← Real.exp_add]
  congr 1
  ring

/-- The two halves' sums, both shifted by one `M`, add to the whole row's. -/
theorem sum_halves (f : Fin 200000 → ℝ) : ∑ j ∈ half 0, f j + ∑ j ∈ half 1, f j = ∑ j, f j := by
  rw [← Finset.sum_union half_disjoint, half_union]

/-- The two rescaled half sums add to the row's sum of exponentials shifted by any common `M`. -/
theorem merged_sum (M : ℝ) :
    Real.exp (halfMax L 0 - M) * halfSum L 0 + Real.exp (halfMax L 1 - M) * halfSum L 1
      = ∑ j, Real.exp (L j - M) := by
  unfold halfSum
  rw [rescale_sum, rescale_sum, sum_halves]

/-- That sum is positive: a sum of exponentials over a nonempty set. -/
theorem merged_sum_pos (M : ℝ) :
    0 < Real.exp (halfMax L 0 - M) * halfSum L 0 + Real.exp (halfMax L 1 - M) * halfSum L 1 := by
  rw [merged_sum]
  exact Finset.sum_pos (fun j _ => Real.exp_pos _) Finset.univ_nonempty

/-- The two halves' target logits add to the logit at the target: the target lies in exactly one half. -/
theorem hit_halves : halfHit L tcol 0 + halfHit L tcol 1 = L tcol := by
  unfold halfHit
  rw [sum_halves (fun j => if tcol = j then L j else 0), Finset.sum_ite_eq]
  exact if_pos (Finset.mem_univ _)

/-- The merge: the larger maximum plus the logarithm of the rescaled sums, less the two target logits, is the row's
    cross-entropy against the target. -/
theorem merge_eq_ce :
    max (halfMax L 0) (halfMax L 1)
        + Real.log (Real.exp (halfMax L 0 - max (halfMax L 0) (halfMax L 1)) * halfSum L 0
                    + Real.exp (halfMax L 1 - max (halfMax L 0) (halfMax L 1)) * halfSum L 1)
        - (halfHit L tcol 0 + halfHit L tcol 1)
      = ce L tcol := by
  rw [merged_sum, hit_halves, max_halfMax]
  rfl

end Reals

/-! ## The host's operations after the call, at the ideal instance -/

open Idealize.ShloMosaic.ValueIdx

/-- Core 0's statistic as a column: the slice at core 0 of a per-core array, its unit leading axis dropped. -/
def core0 (A : FVec Ideal S2x64x1 .f32) : FVec Ideal S64x1 .f32 :=
  shapeCast S64x1 (extractStridedSlice S1x64x1 ![0, 0, 0] A slices_S2x64x1_S1x64x1_0_0_0) shapeCasts_S1x64x1_S64x1

/-- Core 1's statistic as a column. -/
def core1 (A : FVec Ideal S2x64x1 .f32) : FVec Ideal S64x1 .f32 :=
  shapeCast S64x1 (extractStridedSlice S1x64x1 ![1, 0, 0] A slices_S2x64x1_S1x64x1_1_0_0) shapeCasts_S1x64x1_S64x1

/-- The per-row loss the tail computes from the three per-core statistic arrays (running maximum, sum of exponentials,
    target logit; entry (q, b, 0) is core q's value for batch row b): the larger maximum, plus the logarithm of the two
    sums each rescaled to it, less the sum of the two target logits, as a vector over the batch rows. -/
def ceK (A4 A5 A6 : FVec Ideal S2x64x1 .f32) : FVec Ideal S64 .f32 :=
  shapeCast S64
    (subf
      (addf (maximumf (core0 A4) (core1 A4))
        (Host.log
          (addf (mulf (Host.exp (subf (core0 A4) (maximumf (core0 A4) (core1 A4)))) (core0 A5))
                (mulf (Host.exp (subf (core1 A4) (maximumf (core0 A4) (core1 A4)))) (core1 A5)))))
      (addf (core0 A6) (core1 A6)))
    shapeCasts_S64x1_S64

/-- The loss vector with the two columns written out: the slices, reshapes and pointwise operations in the order the
    host applies them. -/
theorem ceK_unfold (A4 A5 A6 : FVec Ideal S2x64x1 .f32) :
    ceK A4 A5 A6
      = shapeCast S64
          (subf
            (addf
              (maximumf
                (shapeCast S64x1 (extractStridedSlice S1x64x1 ![0, 0, 0] A4 slices_S2x64x1_S1x64x1_0_0_0) shapeCasts_S1x64x1_S64x1)
                (shapeCast S64x1 (extractStridedSlice S1x64x1 ![1, 0, 0] A4 slices_S2x64x1_S1x64x1_1_0_0) shapeCasts_S1x64x1_S64x1))
              (Host.log
                (addf
                  (mulf
                    (Host.exp
                      (subf
                        (shapeCast S64x1 (extractStridedSlice S1x64x1 ![0, 0, 0] A4 slices_S2x64x1_S1x64x1_0_0_0) shapeCasts_S1x64x1_S64x1)
                        (maximumf
                          (shapeCast S64x1 (extractStridedSlice S1x64x1 ![0, 0, 0] A4 slices_S2x64x1_S1x64x1_0_0_0) shapeCasts_S1x64x1_S64x1)
                          (shapeCast S64x1 (extractStridedSlice S1x64x1 ![1, 0, 0] A4 slices_S2x64x1_S1x64x1_1_0_0) shapeCasts_S1x64x1_S64x1))))
                    (shapeCast S64x1 (extractStridedSlice S1x64x1 ![0, 0, 0] A5 slices_S2x64x1_S1x64x1_0_0_0) shapeCasts_S1x64x1_S64x1))
                  (mulf
                    (Host.exp
                      (subf
                        (shapeCast S64x1 (extractStridedSlice S1x64x1 ![1, 0, 0] A4 slices_S2x64x1_S1x64x1_1_0_0) shapeCasts_S1x64x1_S64x1)
                        (maximumf
                          (shapeCast S64x1 (extractStridedSlice S1x64x1 ![0, 0, 0] A4 slices_S2x64x1_S1x64x1_0_0_0) shapeCasts_S1x64x1_S64x1)
                          (shapeCast S64x1 (extractStridedSlice S1x64x1 ![1, 0, 0] A4 slices_S2x64x1_S1x64x1_1_0_0) shapeCasts_S1x64x1_S64x1))))
                    (shapeCast S64x1 (extractStridedSlice S1x64x1 ![1, 0, 0] A5 slices_S2x64x1_S1x64x1_1_0_0) shapeCasts_S1x64x1_S64x1)))))
            (addf
              (shapeCast S64x1 (extractStridedSlice S1x64x1 ![0, 0, 0] A6 slices_S2x64x1_S1x64x1_0_0_0) shapeCasts_S1x64x1_S64x1)
              (shapeCast S64x1 (extractStridedSlice S1x64x1 ![1, 0, 0] A6 slices_S2x64x1_S1x64x1_1_0_0) shapeCasts_S1x64x1_S64x1)))
          shapeCasts_S64x1_S64 :=
  rfl

/-- Core 0's column at batch row `b` is the array's entry (0, b, 0). -/
theorem core0_apply (A : FVec Ideal S2x64x1 .f32) (b : Fin 64) :
    core0 A (ix2 b (0 : Fin 1)) = A (ix3 (0 : Fin 2) b (0 : Fin 1)) := by
  unfold core0
  rw [shapeCast_1ab_ab_apply]
  exact extractStridedSlice_apply _ _ _ _ _ fun a =>
    match a with
    | ⟨0, _⟩ => rfl
    | ⟨1, _⟩ => by show b.val = 0 + b.val; omega
    | ⟨2, _⟩ => rfl

/-- Core 1's column at batch row `b` is the array's entry (1, b, 0). -/
theorem core1_apply (A : FVec Ideal S2x64x1 .f32) (b : Fin 64) :
    core1 A (ix2 b (0 : Fin 1)) = A (ix3 (1 : Fin 2) b (0 : Fin 1)) := by
  unfold core1
  rw [shapeCast_1ab_ab_apply]
  exact extractStridedSlice_apply _ _ _ _ _ fun a =>
    match a with
    | ⟨0, _⟩ => rfl
    | ⟨1, _⟩ => by show b.val = 0 + b.val; omega
    | ⟨2, _⟩ => rfl

/-- The coercion of reals into extended reals commutes with the maximum: it is monotone. -/
private theorem coe_max (x y : ℝ) : ((max x y : ℝ) : EReal) = max (x : EReal) (y : EReal) :=
  EReal.coe_strictMono.monotone.map_max

/-- THE VALUE: when the three per-core arrays hold each half's maximum, shifted sum of exponentials and target logit
    of every batch row's logits, the tail's result at batch row `b` is that row's cross-entropy. -/
theorem ceK_eq (xn : FVec Ideal S64x256 .f32) (w : FVec Ideal S200000x256 .f32) (t : IVec S64 32)
    (A4 A5 A6 : FVec Ideal S2x64x1 .f32)
    (h4 : ∀ (q : Fin 2) (b : Fin 64), A4 (ValueIdx.ix3 q b (0 : Fin 1))
      = ((Cert.Spec.halfMax (Cert.Common.logitRow xn w b) q : ℝ) : EReal))
    (h5 : ∀ (q : Fin 2) (b : Fin 64), A5 (ValueIdx.ix3 q b (0 : Fin 1))
      = ((Cert.Spec.halfSum (Cert.Common.logitRow xn w b) q : ℝ) : EReal))
    (h6 : ∀ (q : Fin 2) (b : Fin 64), A6 (ValueIdx.ix3 q b (0 : Fin 1))
      = ((Cert.Spec.halfHit (Cert.Common.logitRow xn w b) (Cert.Spec.col (t (ValueIdx.ix1 b))) q : ℝ) : EReal))
    (b : Fin 64) : ceK A4 A5 A6 (ValueIdx.ix1 b) = ((Cert.Common.ceRow xn w t b : ℝ) : EReal) := by
  unfold ceK
  -- the final reshape drops the trailing unit axis: row b of the vector is entry (b, 0) of the column
  rw [shapeCast_apply _ shapeCasts_S64x1_S64 (ix1 b) (ix2 b (0 : Fin 1))
    (by rw [Shape.rowMajor_val_two, Shape.rowMajor_val_one]; show b.val * 1 + 0 = b.val; omega)]
  -- the pointwise operations at that entry are the extended reals' on the six statistics
  simp only [subf_apply, addf_apply, mulf_apply, maximumf_apply, Host.exp, Host.log, Ideal.hostUnary_exp_def,
    Ideal.hostUnary_log_def, core0_apply, core1_apply, h4, h5, h6]
  -- on real numbers they are the reals' operations, the logarithm's argument being positive
  rw [← coe_max, ← EReal.coe_sub, ← EReal.coe_sub, Ideal.exp_coe, Ideal.exp_coe, ← EReal.coe_mul, ← EReal.coe_mul,
    ← EReal.coe_add, Ideal.log_coe, if_neg (not_le.2 (merged_sum_pos _ _)), ← EReal.coe_add, ← EReal.coe_add,
    ← EReal.coe_sub]
  exact congrArg _ (merge_eq_ce _ _)

end Cert.KernelIdeal.Tail

end
-- ==== Proof.KRes.lean ====
/-
  What the kernel program's two results hold, read back through the host operations around the pallas_call.

  Before the call the host normalises each query row to unit length (the row divided by the larger of its Euclidean
  norm and a small floor) and reshapes the targets into a column. After the call it merges the two cores' softmax
  statistics into a per-row loss and sums the rows weighted by the scores (the first result), and it writes into the
  bank, at each target row, the renormalised mixture of that row with the score-weighted query (the second result).
  Each of these is a composition of pure operations; this module names the compositions and shows that the buffers
  hold them.
-/
import proofs.«403753_j46050639347844_2_alg».proof.Proof.KI.FrameDefs
import proofs.«403753_j46050639347844_2_alg».proof.Proof.KTail
import Idealize.ShloMosaic.Lib.StableHlo.Run
import Idealize.ShloMosaic.Lib.Pipeline.FrameSuffix
import Idealize.ShloMosaic.Lib.ValueLayout
import Idealize.ShloMosaic.Lib.ValueIdx

set_option maxRecDepth 16384

noncomputable section

namespace Cert.KernelIdeal.Res

open Idealize.ShloMosaic Cert.KernelIdeal Cert.KernelIdeal.Gen Cert.KernelIdeal.Fr

/-! ## The compositions -/

/-- Row normalisation: each row of the array divided by the larger of the row's Euclidean norm (the square root of the
    sum of its squares) and a small positive floor. -/
def xnK (a0 : FVec Ideal S64x256 .f32) : FVec Ideal S64x256 .f32 :=
  Host.divf a0 (broadcastInDim S64x256 ![0, 1] bcast_S64x1_S64x256_0_1
    (maximumf
      (Host.sqrt (broadcastInDim S64x1 ![0] bcast_S64_S64x1_0
        (Host.reduceAdd (mulf a0 a0) (constant (F := Ideal) S_ .f32 0x00000000#32) reducesTo_S64x256_S64_d1 h_S_)))
      (broadcastInDim S64x1 ![] bcast_S_S64x1 (constant (F := Ideal) S_ .f32 0x2B8CBCCC#32))))

/-- The targets as row numbers of the bank, as a column: a negative target counts from the bank's end. -/
def idxK (a3 : IVec S64 32) : IVec S64x1 32 :=
  broadcastInDim S64x1 ![0] bcast_S64_S64x1_0
    (select (cmpi .slt a3 (broadcastInDim S64 ![] bcast_S_S64 (constantI S_ 32 0#32)))
      (addi a3 (broadcastInDim S64 ![] bcast_S_S64 (constantI S_ 32 200000#32))) a3)

/-- The momentum mixture: a fixed fraction of the bank's row at each target plus the complementary fraction, scaled
    by the row's score, of the normalised query. -/
def mixK (xn : FVec Ideal S64x256 .f32) (a1 : FVec Ideal S64 .f32) (a2 : FVec Ideal S200000x256 .f32) (a3 : IVec S64 32) :
    FVec Ideal S64x256 .f32 :=
  addf
    (mulf (broadcastInDim S64x256 ![] bcast_S_S64x256 (constant (F := Ideal) S_ .f32 0x3E4CCCCD#32))
      (Host.gather gather_S200000x256_S64x1_S64x256_1_0_n_n_0_1_1256 a2 (idxK a3)))
    (mulf
      (broadcastInDim S64x256 ![0, 1] bcast_S64x1_S64x256_0_1
        (mulf (broadcastInDim S64x1 ![] bcast_S_S64x1 (constant (F := Ideal) S_ .f32 0x3F4CCCCD#32))
          (broadcastInDim S64x1 ![0] bcast_S64_S64x1_0 a1)))
      xn)

/-- The rows written back into the bank: the mixture, each row renormalised to unit length. -/
def updK (xn : FVec Ideal S64x256 .f32) (a1 : FVec Ideal S64 .f32) (a2 : FVec Ideal S200000x256 .f32) (a3 : IVec S64 32) :
    FVec Ideal S64x256 .f32 :=
  xnK (mixK xn a1 a2 a3)

variable (m : (ℓ : Loc nD τ sig) → Buf (Elt Ideal) ℓ) (c : Dev nD)

/-! ## The buffers when the region is entered -/

/-- No line before the region writes an argument: each of the four holds its launch contents when the region is entered. -/
theorem V_main_arg0 : V m c main_arg0 = m ((c.tc : Thread nD τ).loc main_arg0) := by
  dsimp only [V, V0]
  simp only [hostOps0, hostOps0_1, List.flatten_cons, List.flatten_nil, List.append_nil, List.cons_append, List.nil_append]
  after_results
theorem V_main_arg1 : V m c main_arg1 = m ((c.tc : Thread nD τ).loc main_arg1) := by
  dsimp only [V, V0]
  simp only [hostOps0, hostOps0_1, List.flatten_cons, List.flatten_nil, List.append_nil, List.cons_append, List.nil_append]
  after_results
theorem V_main_arg2 : V m c main_arg2 = m ((c.tc : Thread nD τ).loc main_arg2) := by
  dsimp only [V, V0]
  simp only [hostOps0, hostOps0_1, List.flatten_cons, List.flatten_nil, List.append_nil, List.cons_append, List.nil_append]
  after_results
theorem V_main_arg3 : V m c main_arg3 = m ((c.tc : Thread nD τ).loc main_arg3) := by
  dsimp only [V, V0]
  simp only [hostOps0, hostOps0_1, List.flatten_cons, List.flatten_nil, List.append_nil, List.cons_append, List.nil_append]
  after_results

/-- The queries' array, as the region finds it, is the launched queries with each row normalised. -/
theorem V_main_v4 : V m c main_v4 = xnK (m ((c.tc : Thread nD τ).loc main_arg0)) := by
  dsimp only [V, V0]
  simp only [hostOps0, hostOps0_1, List.flatten_cons, List.flatten_nil, List.append_nil, List.cons_append, List.nil_append]
  after_results
  rfl

/-- The targets' column is the targets reshaped: one trailing unit axis added. -/
theorem V_main_v5_eq : (V m c main_v5 : IVec S64x1 32)
    = shapeCast S64x1 (m ((c.tc : Thread nD τ).loc main_arg3) : IVec S64 32) shapeCasts_S64_S64x1 := by
  dsimp only [V, V0]
  simp only [hostOps0, hostOps0_1, List.flatten_cons, List.flatten_nil, List.append_nil, List.cons_append, List.nil_append]
  after_results
  rfl

/-- Entry (b, 0) of the targets' column is target b: both sit at place b of the row-major order. -/
theorem V_main_v5 (b : Fin 64) :
    V m c main_v5 (ValueIdx.ix2 b (0 : Fin 1)) = m ((c.tc : Thread nD τ).loc main_arg3) (ValueIdx.ix1 b) := by
  rw [V_main_v5_eq]
  exact shapeCast_apply _ shapeCasts_S64_S64x1 (ValueIdx.ix2 b (0 : Fin 1)) (ValueIdx.ix1 b)
    (by rw [Shape.rowMajor_val_two, Shape.rowMajor_val_one]; show b.val = b.val * 1 + 0; omega)

/-! ## The buffers when the region is left

The region leaves each window's array at the contents its last grid point leaves, and every other buffer as it found
it. The lines after the region read four of the output arrays (the pass-through bank and the three per-core
statistics), two input arrays (the normalised queries and the bank) and two arguments that bypass the region (the
scores and the targets). -/

/-- The core's buffer contents when the region is left. -/
abbrev exitV : Valuation τ sig (Elt Ideal) :=
  Pipeline.withArrays spec0 c (V0 m c) fun w => (dats m 0 c).arrAt w cfg0.N

/-- The four output windows' arrays hold what the last grid point leaves: the pass-through bank and, per core, the
    running maximum, the sum of exponentials and the target logit. -/
theorem exit_main_v6_0 : exitV m c (Proc.devRef .tc main_v6_0) = (dats m 0 c).arrAt 3 cfg0.N :=
  Pipeline.withArrays_arr spec0 launch0.win.arr_inj c _ _ 3
theorem exit_main_v6_1 : exitV m c (Proc.devRef .tc main_v6_1) = (dats m 0 c).arrAt 4 cfg0.N :=
  Pipeline.withArrays_arr spec0 launch0.win.arr_inj c _ _ 4
theorem exit_main_v6_2 : exitV m c (Proc.devRef .tc main_v6_2) = (dats m 0 c).arrAt 5 cfg0.N :=
  Pipeline.withArrays_arr spec0 launch0.win.arr_inj c _ _ 5
theorem exit_main_v6_3 : exitV m c (Proc.devRef .tc main_v6_3) = (dats m 0 c).arrAt 6 cfg0.N :=
  Pipeline.withArrays_arr spec0 launch0.win.arr_inj c _ _ 6

/-- An input window's array is left as the region found it: the normalised queries. -/
theorem arrAt_0 : (dats m 0 c).arrAt 0 cfg0.N = xnK (m ((c.tc : Thread nD τ).loc main_arg0)) :=
  ((dats m 0 c).arrAt_in 0 rfl _).trans ((A_eq m c 0).trans (V_main_v4 m c))
/-- The bank, an input window's array too, is left as launched. -/
theorem arrAt_2 : (dats m 0 c).arrAt 2 cfg0.N = m ((c.tc : Thread nD τ).loc main_arg2) :=
  ((dats m 0 c).arrAt_in 2 rfl _).trans ((A_eq m c 2).trans (V_main_arg2 m c))

/-- So the lines after the region find the normalised queries and the launched bank in those two arrays. -/
theorem exit_main_v4 : exitV m c (Proc.devRef .tc main_v4) = xnK (m ((c.tc : Thread nD τ).loc main_arg0)) :=
  (Pipeline.withArrays_arr spec0 launch0.win.arr_inj c _ _ 0).trans (arrAt_0 m c)
theorem exit_main_arg2 : exitV m c (Proc.devRef .tc main_arg2) = m ((c.tc : Thread nD τ).loc main_arg2) :=
  (Pipeline.withArrays_arr spec0 launch0.win.arr_inj c _ _ 2).trans (arrAt_2 m c)

/-- The scores, the targets and the raw queries are no window's array: the region leaves them as it found them, as launched. -/
theorem exit_main_arg0 : exitV m c (Proc.devRef .tc main_arg0) = m ((c.tc : Thread nD τ).loc main_arg0) :=
  (Pipeline.withArrays_of_ne spec0 c (V0 m c) _ main_arg0 (by decide)).trans (V_main_arg0 m c)
theorem exit_main_arg1 : exitV m c (Proc.devRef .tc main_arg1) = m ((c.tc : Thread nD τ).loc main_arg1) :=
  (Pipeline.withArrays_of_ne spec0 c (V0 m c) _ main_arg1 (by decide)).trans (V_main_arg1 m c)
theorem exit_main_arg3 : exitV m c (Proc.devRef .tc main_arg3) = m ((c.tc : Thread nD τ).loc main_arg3) :=
  (Pipeline.withArrays_of_ne spec0 c (V0 m c) _ main_arg3 (by decide)).trans (V_main_arg3 m c)

/-! ## The buffers after the lines that follow the region -/

/-- No line after the region writes an argument, and the region leaves alone what is no window's array: the queries,
    the scores and the targets end as launched. -/
theorem tail_arg0 : Pipeline.afterTail₀ cfgs (dats m) 0 (V0 m) [hostOps1, hostOps1_1, hostOps1_2] c main_arg0
    = m ((c.tc : Thread nD τ).loc main_arg0) := by
  unfold Pipeline.afterTail₀
  show StableHlo.after _ (exitV m c) (Proc.devRef .tc main_arg0) = _
  simp only [hostOps1, hostOps1_1, hostOps1_2, List.flatten_cons, List.flatten_nil, List.append_nil, List.cons_append, List.nil_append]
  after_results_simp
  exact exit_main_arg0 m c
theorem tail_arg1 : Pipeline.afterTail₀ cfgs (dats m) 0 (V0 m) [hostOps1, hostOps1_1, hostOps1_2] c main_arg1
    = m ((c.tc : Thread nD τ).loc main_arg1) := by
  unfold Pipeline.afterTail₀
  show StableHlo.after _ (exitV m c) (Proc.devRef .tc main_arg1) = _
  simp only [hostOps1, hostOps1_1, hostOps1_2, List.flatten_cons, List.flatten_nil, List.append_nil, List.cons_append, List.nil_append]
  after_results_simp
  exact exit_main_arg1 m c
theorem tail_arg3 : Pipeline.afterTail₀ cfgs (dats m) 0 (V0 m) [hostOps1, hostOps1_1, hostOps1_2] c main_arg3
    = m ((c.tc : Thread nD τ).loc main_arg3) := by
  unfold Pipeline.afterTail₀
  show StableHlo.after _ (exitV m c) (Proc.devRef .tc main_arg3) = _
  simp only [hostOps1, hostOps1_1, hostOps1_2, List.flatten_cons, List.flatten_nil, List.append_nil, List.cons_append, List.nil_append]
  after_results_simp
  exact exit_main_arg3 m c

/-- The first result, the loss: the lines after the region slice each statistic array into its two cores' columns, merge
    them into the per-row loss, weight each row by its score and sum over the rows. -/
theorem res0 : Pipeline.afterTail₀ cfgs (dats m) 0 (V0 m) [hostOps1, hostOps1_1, hostOps1_2] c main_v33
    = Host.reduceAdd
        (mulf (m ((c.tc : Thread nD τ).loc main_arg1))
          (Cert.KernelIdeal.Tail.ceK ((dats m 0 c).arrAt 4 cfg0.N) ((dats m 0 c).arrAt 5 cfg0.N) ((dats m 0 c).arrAt 6 cfg0.N)))
        (constant (F := Ideal) S_ .f32 0x00000000#32) reducesTo_S64_S_d0 h_S_ := by
  unfold Pipeline.afterTail₀
  show StableHlo.after _ (exitV m c) (Proc.devRef .tc main_v33) = _
  simp only [hostOps1, hostOps1_1, hostOps1_2, List.flatten_cons, List.flatten_nil, List.append_nil, List.cons_append, List.nil_append]
  after_results_simp
  rw [exit_main_arg1, exit_main_v6_1, exit_main_v6_2, exit_main_v6_3]
  rfl

set_option maxHeartbeats 4000000 in
/-- The second result, the updated bank: the pass-through copy of the bank with, at each target's row, the renormalised
    mixture of that row of the launched bank with the score-weighted normalised query. The mixture is read three times
    (once as the numerator, twice in the sum of squares under the root), each time the same composition. -/
theorem res1 : Pipeline.afterTail₀ cfgs (dats m) 0 (V0 m) [hostOps1, hostOps1_1, hostOps1_2] c main_v60
    = Host.scatter scatter_S200000x256_S64x1_S64x256_1_0_0_1 (fun _ b => b) ((dats m 0 c).arrAt 3 cfg0.N)
        (idxK (m ((c.tc : Thread nD τ).loc main_arg3)))
        (updK (xnK (m ((c.tc : Thread nD τ).loc main_arg0))) (m ((c.tc : Thread nD τ).loc main_arg1))
          (m ((c.tc : Thread nD τ).loc main_arg2)) (m ((c.tc : Thread nD τ).loc main_arg3))) := by
  unfold Pipeline.afterTail₀
  show StableHlo.after _ (exitV m c) (Proc.devRef .tc main_v60) = _
  simp only [hostOps1, hostOps1_1, hostOps1_2, List.flatten_cons, List.flatten_nil, List.append_nil, List.cons_append, List.nil_append]
  after_results_simp
  rw [exit_main_v6_0, exit_main_arg3, exit_main_arg1, exit_main_arg2, exit_main_v4]
  rfl

end Cert.KernelIdeal.Res

end
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.PreFacts.lean ====
/-
  What the precondition says of the four arguments, read over the extended reals.

  The precondition is a conjunction of five "all" tests: each of the three float arrays has every absolute value below
  +infinity, and every target word is at least 0 and below 200000 as a signed integer. Each "all" is an and-reduction
  started from the word 1, and the conjunctions are bitwise and on one-bit words; so the result is the word 1 exactly when
  each test's every entry answers 1. The float tests then say the entries are real numbers, and the two integer tests
  bound the signed reading of each target.
-/
import proofs.«403753_j46050639347844_2_alg».proof.Pre_finite_inputs
import proofs.«403753_j46050639347844_2_alg».proof.Proof.Gen.Pre_finite_inputs
import proofs.«403753_j46050639347844_2_alg».proof.Proof.LibFinite
import Idealize.ShloMosaic.Lib.ReduceAll
import Idealize.ShloMosaic.PureOps.Ideal

noncomputable section

namespace Cert.PreFacts

open Idealize.ShloMosaic

/-- What the precondition gives: the three float arguments are arrays of real numbers, and every target word, read as a
    signed integer, lies in [0, 200000). -/
structure Good (a0 : FVec Ideal Cert.Pre_finite_inputs.S64x256 .f32) (a1 : FVec Ideal Cert.Pre_finite_inputs.S64 .f32)
    (a2 : FVec Ideal Cert.Pre_finite_inputs.S200000x256 .f32) (a3 : IVec Cert.Pre_finite_inputs.S64 32) : Prop where
  real0 : ∀ i, ∃ r : ℝ, a0 i = (r : EReal)
  real1 : ∀ i, ∃ r : ℝ, a1 i = (r : EReal)
  real2 : ∀ i, ∃ r : ℝ, a2 i = (r : EReal)
  range3 : ∀ i, 0 ≤ (a3 i).toInt ∧ (a3 i).toInt < 200000

/-- The signed readings of the two bounds the targets are compared with: the word 0 reads 0, -/
theorem toInt_lower : (0#32 : BitVec 32).toInt = 0 := by decide
/-- and the word 200000, being below 2^31, reads 200000. -/
theorem toInt_upper : (200000#32 : BitVec 32).toInt = 200000 := by decide

/-- The scalar result shape has a single index, so an and-reduction into it gathers every entry. -/
theorem scalarIdx_subsingleton : Subsingleton Cert.Pre_finite_inputs.S_.Idx :=
  ⟨fun _ _ => funext fun d => d.elim0⟩

/-- The precondition answering the word 1 gives all four facts: split the conjunctions, read each float test as
    "every entry is real", and read the two signed compares of each target against the broadcast bounds. -/
theorem good_of_pre (a0 : FVec Ideal Cert.Pre_finite_inputs.S64x256 .f32) (a1 : FVec Ideal Cert.Pre_finite_inputs.S64 .f32)
    (a2 : FVec Ideal Cert.Pre_finite_inputs.S200000x256 .f32) (a3 : IVec Cert.Pre_finite_inputs.S64 32)
    (h : Cert.Pre_finite_inputs.fn (F := Ideal) a0 a1 a2 a3 = fun _ => 1#1) : Good a0 a1 a2 a3 := by
  -- the result at its one index
  have h0 := congrFun h (fun d => d.elim0)
  dsimp only [Cert.Pre_finite_inputs.fn, Cert.Pre_finite_inputs.fn_part1] at h0
  -- the four conjunctions, outermost first: ((((t0 ∧ t1) ∧ t2) ∧ t3) ∧ t4)
  obtain ⟨h0123, t4⟩ := IntOp.andi_eq_one.1 h0
  obtain ⟨h012, t3⟩ := IntOp.andi_eq_one.1 h0123
  obtain ⟨h01, t2⟩ := IntOp.andi_eq_one.1 h012
  obtain ⟨t0, t1⟩ := IntOp.andi_eq_one.1 h01
  refine
    { real0 := FiniteTest.real_of_all_abs_lt_inf_at _ _ _ a0 _ t0
      real1 := FiniteTest.real_of_all_abs_lt_inf_at _ _ _ a1 _ t1
      real2 := FiniteTest.real_of_all_abs_lt_inf_at _ _ _ a2 _ t2
      range3 := fun i => ?_ }
  haveI : Subsingleton Cert.Pre_finite_inputs.S_.Idx := scalarIdx_subsingleton
  -- the two integer tests at target i: the compared bound is the broadcast scalar, which reads 0 (resp. 200000) at i
  have lo : (0#32 : BitVec 32).toInt ≤ (a3 i).toInt := IntOp.cmpi_sge.1 (Host.reduce_andi_all _ _ _ _ _ t3 i)
  have hi : (a3 i).toInt < (200000#32 : BitVec 32).toInt := IntOp.cmpi_slt.1 (Host.reduce_andi_all _ _ _ _ _ t4 i)
  rw [toInt_lower] at lo
  rw [toInt_upper] at hi
  exact ⟨lo, hi⟩

/-- A word in range is its own column: a signed reading in [0, 200000) is the unsigned reading, which the remainder by
    200000 leaves alone. -/
theorem toNat_lt_of_range (w : BitVec 32) (h : 0 ≤ w.toInt ∧ w.toInt < 200000) :
    w.toNat < 200000 ∧ w.toNat % 200000 = w.toNat := by
  obtain ⟨h0, h1⟩ := h
  have hw := w.isLt
  have hc := BitVec.toInt_eq_toNat_cond w
  have lt : w.toNat < 200000 := by
    split at hc <;> omega
  exact ⟨lt, Nat.mod_eq_of_lt lt⟩

end Cert.PreFacts

end
-- ==== Proof.KBridge.lean ====
/-
  The kernel program's per-row loss is the specification's cross-entropy.

  When the region ends, the three statistic arrays hold for each core its half's maximum, shifted sum of exponentials
  and target logit; the host lines after the region merge the two halves, and the merge of the halves' statistics is the
  row's cross-entropy. The queries, the bank and the targets the logits are taken over are what the host lines before
  the region left in the windows' arrays: the row-normalised first argument, the third argument, and the fourth
  argument as a column.
-/
import proofs.«403753_j46050639347844_2_alg».proof.Proof.KArr
import proofs.«403753_j46050639347844_2_alg».proof.Proof.KRes
import proofs.«403753_j46050639347844_2_alg».proof.Proof.KTail
import proofs.«403753_j46050639347844_2_alg».proof.Proof.PreFacts

noncomputable section

namespace Cert.KernelIdeal.Bridge

open Idealize.ShloMosaic Idealize.ShloMosaic.TcCoe Idealize.SL.Sem Cert.KernelIdeal Cert.KernelIdeal.Gen Cert.KernelIdeal.Fr

variable (m : (ℓ : Loc nD τ sig) → Buf (Elt Ideal) ℓ) (c : Dev nD)

/-- The hypotheses of the invariant from facts about the argument arrays: the normalised queries and the bank are
    arrays of reals, and every target word lies in `[0, 200000)`. -/
theorem ok_of
    (hxn : ∀ i, ∃ r : ℝ, Res.xnK (m ((c.tc : Thread nD τ).loc main_arg0)) i = (r : EReal))
    (hw : ∀ i, ∃ r : ℝ, m ((c.tc : Thread nD τ).loc main_arg2) i = (r : EReal))
    (ht : ∀ i, 0 ≤ (m ((c.tc : Thread nD τ).loc main_arg3) i).toInt ∧ (m ((c.tc : Thread nD τ).loc main_arg3) i).toInt < 200000) :
    Inv.Ok m c where
  xn_real := by rw [Res.V_main_v4]; exact hxn
  w_real := by rw [Res.V_main_arg2]; exact hw
  t_range := fun b => by rw [Res.V_main_v5]; exact (Cert.PreFacts.toNat_lt_of_range _ (ht _)).1

/-- Row `b` of the loss vector the tail computes is the cross-entropy of the row's logits at its target. -/
theorem ceK_value (h : Inv.Ok m c) (b : Fin 64) :
    Tail.ceK ((dats m 0 c).arrAt 4 cfg0.N) ((dats m 0 c).arrAt 5 cfg0.N) ((dats m 0 c).arrAt 6 cfg0.N) (ValueIdx.ix1 b)
      = ((Cert.Common.ceRow (Res.xnK (m ((c.tc : Thread nD τ).loc main_arg0))) (m ((c.tc : Thread nD τ).loc main_arg2))
            (m ((c.tc : Thread nD τ).loc main_arg3)) b : ℝ) : EReal) := by
  have key := Tail.ceK_eq (V m c main_v4) (V m c main_arg2) (m ((c.tc : Thread nD τ).loc main_arg3))
    ((dats m 0 c).arrAt 4 cfg0.N) ((dats m 0 c).arrAt 5 cfg0.N) ((dats m 0 c).arrAt 6 cfg0.N)
    (fun q b => Inv.arr4 m c h q b) (fun q b => Inv.arr5 m c h q b)
    (fun q b => by rw [Inv.arr6 m c h q b]; unfold Inv.tcol; rw [Res.V_main_v5]; rfl) b
  rw [Res.V_main_v4, Res.V_main_arg2] at key
  exact key

end Cert.KernelIdeal.Bridge

end
-- ==== Proof.RefValue.lean ====
/-
  The reference program's side: its run read back, and each result as a function of the argument arrays.

  Row b of the reference: the query row is divided by its Euclidean norm (kept away from zero by a tiny positive
  constant), its 200000 logits are the inner products with the bank rows divided by the temperature constant, the
  log-softmax subtracts the row maximum and the logarithm of the sum of the shifted exponentials, and the entry at the
  row's target word is read and negated. Over the extended reals, under the precondition, every stage is a real number
  and the negated entry is the specification's cross-entropy.
-/
import proofs.«403753_j46050639347844_2_alg».proof.Defs
import proofs.«403753_j46050639347844_2_alg».proof.Proof.RefRun
import proofs.«403753_j46050639347844_2_alg».proof.Proof.RefRead
import proofs.«403753_j46050639347844_2_alg».proof.Proof.Spec
import proofs.«403753_j46050639347844_2_alg».proof.Proof.PreFacts
import proofs.«403753_j46050639347844_2_alg».proof.Proof.Common
import Idealize.ShloMosaic.PureOps.Ideal.Laws
import Idealize.ShloMosaic.Lib.ValueIdx

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx
open scoped BigOperators

/-! ## The stages, as the composed operations of the program -/

/-- the reference's normalised queries (its main_v4) as a function of arg0: each entry divided by the larger of its
    row's root sum of squares and the tiny positive constant -/
def xnR (a0 : FVec Ideal S64x256 .f32) : FVec Ideal S64x256 .f32 :=
  Host.divf a0 (broadcastInDim S64x256 ![0, 1] bcast_S64x1_S64x256_0_1 (maximumf (Host.sqrt (broadcastInDim S64x1 ![0] bcast_S64_S64x1_0 (Host.reduceAdd (mulf a0 a0) (constant S_ .f32 0x00000000#32) reducesTo_S64x256_S64_d1 h_S_))) (broadcastInDim S64x1 ![] bcast_S_S64x1 (constant S_ .f32 0x2B8CBCCC#32))))

/-- the logits: the normalised queries against every bank row, divided by the temperature constant -/
def logitsR (a0 : FVec Ideal S64x256 .f32) (a2 : FVec Ideal S200000x256 .f32) : FVec Ideal S64x200000 .f32 :=
  Host.divf (Host.dotGeneral dot_S64x256_S200000x256_S64x200000_1_1_0_0_n_n none (xnR a0) a2) (broadcastInDim S64x200000 ![] bcast_S_S64x200000 (constant S_ .f32 0x3D4CCCCD#32))

/-- each row's largest logit, the maximum started from minus infinity and once more compared with it -/
def rowMaxR (a0 : FVec Ideal S64x256 .f32) (a2 : FVec Ideal S200000x256 .f32) : FVec Ideal S64 .f32 :=
  maximumf (broadcastInDim S64 ![] bcast_S_S64 (constant S_ .f32 0xFF800000#32)) (Host.reduce FloatOps.maximumf (logitsR a0 a2) (constant S_ .f32 0xFF800000#32) reducesTo_S64x200000_S64_d1 h_S_)

/-- the logits less their row's maximum -/
def shiftedR (a0 : FVec Ideal S64x256 .f32) (a2 : FVec Ideal S200000x256 .f32) : FVec Ideal S64x200000 .f32 :=
  subf (logitsR a0 a2) (broadcastInDim S64x200000 ![0, 1] bcast_S64x1_S64x200000_0_1 (broadcastInDim S64x1 ![0] bcast_S64_S64x1_0 (rowMaxR a0 a2)))

/-- each row's logarithm of the sum of the shifted exponentials, as a column -/
def logSumR (a0 : FVec Ideal S64x256 .f32) (a2 : FVec Ideal S200000x256 .f32) : FVec Ideal S64x1 .f32 :=
  Host.log (broadcastInDim S64x1 ![0] bcast_S64_S64x1_0 (Host.reduceAdd (Host.exp (shiftedR a0 a2)) (constant S_ .f32 0x00000000#32) reducesTo_S64x200000_S64_d1 h_S_))

/-- the log-softmax of the logits -/
def logpR (a0 : FVec Ideal S64x256 .f32) (a2 : FVec Ideal S200000x256 .f32) : FVec Ideal S64x200000 .f32 :=
  subf (shiftedR a0 a2) (broadcastInDim S64x200000 ![0, 1] bcast_S64x1_S64x200000_0_1 (logSumR a0 a2))

/-- the target words as gather start indices: a negative word wrapped by the bank's size, the column reshaped -/
def wrapR (a3 : IVec S64 32) : IVec S64x1x1 32 :=
  shapeCast _ (select (cmpi .slt (broadcastInDim S64x1 ![0] bcast_S64_S64x1_0 a3) (broadcastInDim S64x1 ![] bcast_S_S64x1 (constantI S_ 32 0#32))) (addi (broadcastInDim S64x1 ![0] bcast_S64_S64x1_0 a3) (broadcastInDim S64x1 ![] bcast_S_S64x1 (constantI S_ 32 200000#32))) (broadcastInDim S64x1 ![0] bcast_S64_S64x1_0 a3)) shapeCasts_S64x1_S64x1x1

/-- the range test of the wrapped words: at least 0 and at most 199999 -/
def inRangeR (a3 : IVec S64 32) : IVec S64x1 1 :=
  Host.reduce IntOp.andi (andi (cmpi .sge (wrapR a3) (broadcastInDim S64x1x1 ![] bcast_S_S64x1x1 (constantI S_ 32 0#32))) (cmpi .sle (wrapR a3) (broadcastInDim S64x1x1 ![0, 1, 2] bcast_S1x1x1_S64x1x1_0_1_2 (broadcastInDim S1x1x1 ![2] bcast_S1_S1x1x1_2 (constantI S1 32 199999#32))))) (constantI S_ 1 1#1) reducesTo_S64x1x1_S64x1_d2 h_S_

/-- the reference's per-row loss (its main_v12) as a function of arg0, arg2, arg3: the log-softmax read at the target
    word where the range test holds (else the not-a-number word), reshaped to a vector and negated -/
def ceR (a0 : FVec Ideal S64x256 .f32) (a2 : FVec Ideal S200000x256 .f32) (a3 : IVec S64 32) : FVec Ideal S64 .f32 :=
  Host.negf (shapeCast _ (select (inRangeR a3) (Host.gather gather_S64x200000_S64x1x1_S64x1_n_1_0_0_1_2_11 (logpR a0 a2) (wrapR a3)) (broadcastInDim S64x1 ![] bcast_S_S64x1 (constant S_ .f32 0x7FC00000#32))) shapeCasts_S64x1_S64)

/-- result 0 of the run is the scores-weighted sum of ceR -/
theorem res_out0_eq (m : (ℓ : Loc nD τ sig) → Buf (Elt Ideal) ℓ) (c : Dev nD) :
    Cert.ReferenceIdeal.ValueP.res_main_v14 (F := Ideal) m c
      = Host.reduceAdd (mulf (m ((c.tc : Thread nD τ).loc main_arg1)) (ceR (m ((c.tc : Thread nD τ).loc main_arg0)) (m ((c.tc : Thread nD τ).loc main_arg2)) (m ((c.tc : Thread nD τ).loc main_arg3)))) (constant (F := Ideal) S_ .f32 0x00000000#32) reducesTo_S64_S_d0 h_S_ := by
  unfold Cert.ReferenceIdeal.ValueP.res_main_v14 ceR inRangeR wrapR logpR logSumR shiftedR rowMaxR logitsR xnR
  rfl

/-! ## The constants, and sums of real numbers among the extended reals -/

/-- the word 0xFF800000 is minus infinity -/
theorem ofBits_negInf : Ideal.ofBits .f32 0xFF800000#32 = ⊥ := by
  simp [Ideal.ofBits, Ideal.ieee]

/-- the word 0x3D4CCCCD, the single-precision number nearest 0.05, is the rational 13421773 / 268435456 -/
theorem ofBits_temp : Ideal.ofBits .f32 0x3D4CCCCD#32 = ((13421773 / 268435456 : ℝ) : EReal) := by
  simp [Ideal.ofBits, Ideal.ieee, -EReal.coe_mul]; norm_num

/-- the word 0x2B8CBCCC, the single-precision number nearest 1e-12, is a positive real number -/
theorem ofBits_tiny : Ideal.ofBits .f32 0x2B8CBCCC#32 = ((9223372 / 9223372036854775808 : ℝ) : EReal) := by
  simp [Ideal.ofBits, Ideal.ieee, -EReal.coe_mul]; norm_num

/-- a finite sum of real numbers, taken among the extended reals, is the real sum -/
theorem coe_sum {ι : Type} (s : Finset ι) (f : ι → ℝ) : ∑ i ∈ s, ((f i : ℝ) : EReal) = ((∑ i ∈ s, f i : ℝ) : EReal) := by
  classical
  refine Finset.induction_on s (by simp) fun i s hi ih => ?_
  rw [Finset.sum_insert hi, Finset.sum_insert hi, ih, EReal.coe_add]

/-- the larger of two real numbers, taken among the extended reals, is the larger of the two there -/
theorem coe_max (x y : ℝ) : ((max x y : ℝ) : EReal) = max (x : EReal) (y : EReal) :=
  EReal.coe_strictMono.monotone.map_max

/-! ## Layout operations and reductions read at coordinates -/

/-- a broadcast scalar reads the scalar everywhere -/
theorem bcastScalar_apply {α : Type} {t : Shape} (h : S_.BroadcastsInDim t (![] : Fin 0 → Fin t.rank)) (v : S_.Idx → α)
    (j : t.Idx) : broadcastInDim t ![] h v j = v ix0 :=
  broadcastInDim_apply _ h v j ix0 (fun a => a.elim0)

/-- a column laid along the rows of a 64 × n array reads, at row b, the column's entry b -/
theorem bcastCol_apply {α : Type} {n : ℕ} (h : S64x1.BroadcastsInDim ⟨2, ![64, n]⟩ (![0, 1] : Fin 2 → Fin 2))
    (v : S64x1.Idx → α) (b : Fin 64) (j : Fin n) :
    broadcastInDim ⟨2, ![64, n]⟩ ![0, 1] h v (ix2 b j) = v (ix2 b (0 : Fin 1)) :=
  broadcastInDim_apply _ h v _ _ (fun a => match a with
    | ⟨0, _⟩ => by show b.val = if (64 : ℕ) = 1 then 0 else b.val; rw [if_neg (by decide)]
    | ⟨1, _⟩ => by show 0 = if (1 : ℕ) = 1 then 0 else j.val; rw [if_pos rfl])

/-- a vector stood up as a column reads, at row b, the vector's entry b -/
theorem bcastVec_apply {α : Type} (v : S64.Idx → α) (b : Fin 64) :
    broadcastInDim S64x1 ![0] bcast_S64_S64x1_0 v (ix2 b (0 : Fin 1)) = v (ix1 b) :=
  broadcastInDim_apply _ bcast_S64_S64x1_0 v _ _ (fun a => match a with
    | ⟨0, _⟩ => by show b.val = if (64 : ℕ) = 1 then 0 else b.val; rw [if_neg (by decide)])

/-- the sum along the rows of a 64 × n array: at row b, the initial value plus the sum of the row's entries -/
theorem rowSum_apply {n : ℕ} (h' : (⟨2, ![64, n]⟩ : Shape).ReducesTo [1] S64) (hr : (⟨2, ![64, n]⟩ : Shape).Reduces [1] S64)
    (x : FVec Ideal ⟨2, ![64, n]⟩ .f32) (init : FVec Ideal S_ .f32) (b : Fin 64) :
    Host.reduceAdd x init h' h_S_ (ix1 b) = init ix0 + ∑ k : Fin n, x (ix2 b k) := by
  simp only [Host.reduceAdd, Ideal.hostReduceAdd_def]
  rw [Ideal.hostReduceAdd_single h' hr]
  refine congrArg₂ (· + ·) (congrArg init (funext fun a => a.elim0)) (Finset.sum_congr rfl fun k _ => ?_)
  exact congrArg x (funext fun a => Fin.ext (by match a with | ⟨0, _⟩ => rfl | ⟨1, _⟩ => rfl))

/-- the maximum along the rows of the logits' array: at row b, the fold of max from the initial value over the row -/
theorem rowMax_apply (x : FVec Ideal S64x200000 .f32) (init : FVec Ideal S_ .f32) (b : Fin 64) :
    Host.reduce FloatOps.maximumf x init reducesTo_S64x200000_S64_d1 h_S_ (ix1 b)
      = (Finset.univ : Finset (Fin 200000)).fold max (init ix0) (fun j => x (ix2 b j)) := by
  rw [Host.reduce_eq_fold_single FloatOps.maximumf x init reducesTo_S64x200000_S64_d1 (by decide) h_S_ (ix1 b)]
  refine congrArg₂ (fun i g => (Finset.univ : Finset (Fin 200000)).fold max i g) (congrArg init (funext fun a => a.elim0)) ?_
  funext j
  exact congrArg x (funext fun a => Fin.ext (by match a with | ⟨0, _⟩ => rfl | ⟨1, _⟩ => rfl))

/-! ## The normalised queries -/

/-- the tiny positive constant the norm is kept above -/
def tiny : ℝ := 9223372 / 9223372036854775808

theorem tiny_pos : 0 < tiny := by unfold tiny; norm_num

/-- an entry of the normalised queries: the argument's entry divided by the larger of its row's root sum of squares
    and the tiny constant -/
theorem xnR_apply (a0 : FVec Ideal S64x256 .f32) (b : Fin 64) (k : Fin 256) :
    xnR a0 (ix2 b k)
      = Ideal.div (a0 (ix2 b k)) (max (Ideal.sqrt (0 + ∑ k' : Fin 256, a0 (ix2 b k') * a0 (ix2 b k'))) ((tiny : ℝ) : EReal)) := by
  unfold xnR
  show Ideal.div (a0 (ix2 b k)) (broadcastInDim (s := S64x1) S64x256 ![0, 1] bcast_S64x1_S64x256_0_1 _ (ix2 b k)) = _
  rw [bcastCol_apply]
  show Ideal.div (a0 (ix2 b k)) (max (Ideal.sqrt (broadcastInDim (s := S64) S64x1 ![0] bcast_S64_S64x1_0 _ (ix2 b (0 : Fin 1))))
    (broadcastInDim (s := S_) S64x1 ![] bcast_S_S64x1 _ (ix2 b (0 : Fin 1)))) = _
  rw [bcastVec_apply, bcastScalar_apply, rowSum_apply _ (by decide)]
  simp only [constant_apply, mulf_apply, Ideal.ofBits_zero_f32, ofBits_tiny, tiny]

/-- over a real array the normalised queries are real: the sum of squares is a nonnegative real, its root a real, the
    larger of it and the tiny constant a positive real, and a real divided by a nonzero real is their quotient -/
theorem xnR_real (a0 : FVec Ideal S64x256 .f32) (h : ∀ i, ∃ r : ℝ, a0 i = (r : EReal)) :
    ∀ i, ∃ r : ℝ, xnR a0 i = (r : EReal) := by
  intro i
  obtain ⟨b, k, rfl⟩ : ∃ (b : Fin 64) (k : Fin 256), i = ix2 b k := ⟨i 0, i 1, eq_ix2 i⟩
  choose r hr using h
  rw [xnR_apply]
  simp only [hr, ← EReal.coe_mul, coe_sum, zero_add]
  have hs : ¬ (∑ k' : Fin 256, r (ix2 b k') * r (ix2 b k')) < 0 :=
    not_lt.mpr (Finset.sum_nonneg fun k' _ => mul_self_nonneg _)
  rw [Ideal.sqrt_coe, if_neg hs, ← coe_max]
  have hpos : 0 < max (Real.sqrt (∑ k' : Fin 256, r (ix2 b k') * r (ix2 b k'))) tiny := lt_max_of_lt_right tiny_pos
  rw [Ideal.div_coe hpos.ne', ← EReal.coe_mul]
  exact ⟨_, rfl⟩

/-! ## The logits -/

/-- the normalised queries are the program's fourth value, the one its contraction reads -/
theorem xnR_eq_stage (a0 : FVec Ideal S64x256 .f32) : xnR a0 = ReadP.val_main_v4 (F := Ideal) a0 := rfl

/-- the contraction at row b, bank row j: the inner product of the query row with the bank row -/
theorem dot_apply (a0 : FVec Ideal S64x256 .f32) (a2 : FVec Ideal S200000x256 .f32) (b : Fin 64) (j : Fin 200000) :
    Host.dotGeneral dot_S64x256_S200000x256_S64x200000_1_1_0_0_n_n none (xnR a0) a2 (ix2 b j)
      = ∑ k : Fin 256, xnR a0 (ix2 b k) * a2 (ix2 j k) := by
  refine (ReadP.val_main_v5_apply a0 a2 (ix2 b j)).trans (Finset.sum_congr rfl fun k _ => ?_)
  have hl : ReadP.lidx_main_v5 (ix2 b j) k = ix2 b k :=
    funext fun a => by match a with | ⟨0, _⟩ => rfl | ⟨1, _⟩ => rfl
  have hr : ReadP.ridx_main_v5 (ix2 b j) k = ix2 j k :=
    funext fun a => by match a with | ⟨0, _⟩ => rfl | ⟨1, _⟩ => rfl
  rw [hl, hr, ← xnR_eq_stage]

/-- a logit: the inner product divided by the temperature constant -/
theorem logitsR_apply (a0 : FVec Ideal S64x256 .f32) (a2 : FVec Ideal S200000x256 .f32) (b : Fin 64) (j : Fin 200000) :
    logitsR a0 a2 (ix2 b j)
      = Ideal.div (∑ k : Fin 256, xnR a0 (ix2 b k) * a2 (ix2 j k)) ((13421773 / 268435456 : ℝ) : EReal) := by
  unfold logitsR
  show Ideal.div (Host.dotGeneral dot_S64x256_S200000x256_S64x200000_1_1_0_0_n_n none (xnR a0) a2 (ix2 b j))
    (broadcastInDim (s := S_) S64x200000 ![] bcast_S_S64x200000 _ (ix2 b j)) = _
  rw [bcastScalar_apply, constant_apply, ofBits_temp, dot_apply]

/-- over real arrays a logit is the specification's: the real inner product times the reciprocal of the constant -/
theorem logitsR_coe (a0 : FVec Ideal S64x256 .f32) (a2 : FVec Ideal S200000x256 .f32)
    (h0 : ∀ i, ∃ r : ℝ, xnR a0 i = (r : EReal)) (h2 : ∀ i, ∃ r : ℝ, a2 i = (r : EReal)) (b : Fin 64) (j : Fin 200000) :
    logitsR a0 a2 (ix2 b j) = ((Cert.Common.logitRow (xnR a0) a2 b j : ℝ) : EReal) := by
  rw [logitsR_apply]
  simp only [Cert.Common.coe_real2 (xnR a0) h0, Cert.Common.coe_real2 a2 h2, ← EReal.coe_mul, coe_sum]
  rw [Ideal.div_coe (by norm_num), ← EReal.coe_mul]
  unfold Cert.Common.logitRow Cert.Spec.logit Cert.Spec.scale
  congr 2
  norm_num

/-! ## The log-softmax -/

/-- the host's exponential, logarithm and negation at an index are the extended reals' -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem hostNegf_apply {s : Shape} (x : FVec Ideal s .f32) (i : s.Idx) : Host.negf x i = -(x i) := rfl

/-- the fold of max from minus infinity over real numbers is their largest, a real number: taking a real among the
    extended reals respects the larger of two, hence the largest of finitely many -/
theorem fold_max_coe {ι : Type} (s : Finset ι) (hs : s.Nonempty) (f : ι → ℝ) :
    s.fold max (⊥ : EReal) (fun i => ((f i : ℝ) : EReal)) = ((s.sup' hs f : ℝ) : EReal) := by
  rw [Finset.apply_sup'_eq_sup'_comp hs (fun x : ℝ => (x : EReal)) coe_max, Finset.sup'_eq_sup]
  rfl

section Row
variable (a0 : FVec Ideal S64x256 .f32) (a2 : FVec Ideal S200000x256 .f32)
  (h0 : ∀ i, ∃ r : ℝ, xnR a0 i = (r : EReal)) (h2 : ∀ i, ∃ r : ℝ, a2 i = (r : EReal)) (b : Fin 64)
include h0 h2

/-- the row maximum is the largest logit of the row: the fold starts from minus infinity, and comparing the result
    with minus infinity once more changes nothing -/
theorem rowMaxR_coe : rowMaxR a0 a2 (ix1 b) = ((Cert.Spec.rowMax (Cert.Common.logitRow (xnR a0) a2 b) : ℝ) : EReal) := by
  unfold rowMaxR
  rw [maximumf_apply, bcastScalar_apply, rowMax_apply, constant_apply, ofBits_negInf, max_eq_right bot_le]
  simp only [logitsR_coe a0 a2 h0 h2 b]
  exact fold_max_coe _ _ _

/-- a shifted logit: the logit less the row's largest -/
theorem shiftedR_coe (j : Fin 200000) :
    shiftedR a0 a2 (ix2 b j)
      = ((Cert.Common.logitRow (xnR a0) a2 b j - Cert.Spec.rowMax (Cert.Common.logitRow (xnR a0) a2 b) : ℝ) : EReal) := by
  unfold shiftedR
  rw [subf_apply, bcastCol_apply, bcastVec_apply, logitsR_coe a0 a2 h0 h2, rowMaxR_coe a0 a2 h0 h2, ← EReal.coe_sub]

/-- the logarithm of the row's sum of shifted exponentials: the sum is a positive real, so its logarithm is the real one -/
theorem logSumR_coe :
    logSumR a0 a2 (ix2 b (0 : Fin 1))
      = ((Real.log (∑ j : Fin 200000, Real.exp (Cert.Common.logitRow (xnR a0) a2 b j
          - Cert.Spec.rowMax (Cert.Common.logitRow (xnR a0) a2 b))) : ℝ) : EReal) := by
  unfold logSumR
  rw [hostLog_apply, bcastVec_apply, rowSum_apply _ (by decide), constant_apply, Ideal.ofBits_zero_f32, zero_add]
  simp only [hostExp_apply, shiftedR_coe a0 a2 h0 h2 b, Ideal.exp_coe, coe_sum]
  rw [Ideal.log_coe, if_neg (not_le.mpr (Finset.sum_pos (fun _ _ => Real.exp_pos _) Finset.univ_nonempty))]

/-- an entry of the log-softmax: the shifted logit less the logarithm of the sum -/
theorem logpR_coe (j : Fin 200000) :
    logpR a0 a2 (ix2 b j)
      = ((Cert.Common.logitRow (xnR a0) a2 b j - Cert.Spec.rowMax (Cert.Common.logitRow (xnR a0) a2 b)
          - Real.log (∑ j : Fin 200000, Real.exp (Cert.Common.logitRow (xnR a0) a2 b j
              - Cert.Spec.rowMax (Cert.Common.logitRow (xnR a0) a2 b))) : ℝ) : EReal) := by
  unfold logpR
  rw [subf_apply, bcastCol_apply, shiftedR_coe a0 a2 h0 h2, logSumR_coe a0 a2 h0 h2, ← EReal.coe_sub]

end Row

/-! ## The target word: wrapped, range-tested, and the log-softmax gathered at it -/

/-- integer operations at an index are the words' -/
theorem cmpi_apply {s : Shape} {w : ℕ} (p : CmpIPredicate) (x y : IVec s w) (i : s.Idx) :
    cmpi p x y i = IntOp.cmpi p (x i) (y i) := rfl
theorem andi_apply {s : Shape} {w : ℕ} (x y : IVec s w) (i : s.Idx) : andi x y i = IntOp.andi (x i) (y i) := rfl

/-- the signed reading of the word 199999 -/
theorem toInt_last : (199999#32 : BitVec 32).toInt = 199999 := by decide

/-- the gather of a 64 × 200000 array, one start index per row along the second axis: row b's entry is the array's
    at row b and at the row's start index, read signed and clamped to the last column -/
theorem gather_apply (x : FVec Ideal S64x200000 .f32) (idx : IVec S64x1x1 32) (b : Fin 64) :
    Host.gather gather_S64x200000_S64x1x1_S64x1_n_1_0_0_1_2_11 x idx (ix2 b (0 : Fin 1))
      = x (ix2 b ⟨min (idx (ix3 b (0 : Fin 1) (0 : Fin 1))).toInt.toNat (200000 - 1), by omega⟩) := by
  unfold Host.gather
  refine congrArg x (funext fun a => Fin.ext ?_)
  match a with
  | ⟨0, _⟩ =>
    -- the first axis is the batching axis: no start, the row's own coordinate, no offset
    have hs : gather_S64x200000_S64x1x1_S64x1_n_1_0_0_1_2_11.start (ix2 b (0 : Fin 1)) idx 0 = 0 := rfl
    have hb : gather_S64x200000_S64x1x1_S64x1_n_1_0_0_1_2_11.batchCoord (ix2 b (0 : Fin 1)) 0 = b.val := rfl
    have ho : gather_S64x200000_S64x1x1_S64x1_n_1_0_0_1_2_11.offCoord (ix2 b (0 : Fin 1)) 0 = 0 := rfl
    show gather_S64x200000_S64x1x1_S64x1_n_1_0_0_1_2_11.start (ix2 b (0 : Fin 1)) idx 0
      + gather_S64x200000_S64x1x1_S64x1_n_1_0_0_1_2_11.batchCoord (ix2 b (0 : Fin 1)) 0
      + gather_S64x200000_S64x1x1_S64x1_n_1_0_0_1_2_11.offCoord (ix2 b (0 : Fin 1)) 0 = b.val
    rw [hs, hb, ho, Nat.zero_add, Nat.add_zero]
  | ⟨1, _⟩ =>
    -- the second axis is the collapsed, start-indexed one: the clamped start, no batching coordinate, no offset
    have hi : gather_S64x200000_S64x1x1_S64x1_n_1_0_0_1_2_11.siIdx (ix2 b (0 : Fin 1))
        ⟨List.idxOf (1 : Fin 2) gather_S64x200000_S64x1x1_S64x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    have hs : gather_S64x200000_S64x1x1_S64x1_n_1_0_0_1_2_11.start (ix2 b (0 : Fin 1)) idx 1
        = min (idx (ix3 b (0 : Fin 1) (0 : Fin 1))).toInt.toNat (200000 - 1) := by
      unfold GatherDims.start
      rw [dif_pos (show (1 : Fin 2) ∈ gather_S64x200000_S64x1x1_S64x1_n_1_0_0_1_2_11.startIndexMap from
        List.mem_singleton.mpr rfl), hi]
      rfl
    have hb : gather_S64x200000_S64x1x1_S64x1_n_1_0_0_1_2_11.batchCoord (ix2 b (0 : Fin 1)) 1 = 0 := rfl
    have ho : gather_S64x200000_S64x1x1_S64x1_n_1_0_0_1_2_11.offCoord (ix2 b (0 : Fin 1)) 1 = 0 := rfl
    show gather_S64x200000_S64x1x1_S64x1_n_1_0_0_1_2_11.start (ix2 b (0 : Fin 1)) idx 1
      + gather_S64x200000_S64x1x1_S64x1_n_1_0_0_1_2_11.batchCoord (ix2 b (0 : Fin 1)) 1
      + gather_S64x200000_S64x1x1_S64x1_n_1_0_0_1_2_11.offCoord (ix2 b (0 : Fin 1)) 1 = _
    rw [hs, hb, ho]
    rfl

/-- a fold of "and" from the word 1 over words that are all 1 is 1 -/
theorem fold_andi_one {ι : Type} (s : Finset ι) (f : ι → BitVec 1) (h : ∀ i ∈ s, f i = 1#1) :
    s.fold IntOp.andi 1#1 f = 1#1 := by
  classical
  induction s using Finset.induction_on with
  | empty => rfl
  | insert i s hi ih =>
    rw [Finset.fold_insert hi, h i (Finset.mem_insert_self i s), ih fun k hk => h k (Finset.mem_insert_of_mem hk)]
    rfl

section Word
variable (a3 : IVec S64 32) (b : Fin 64) (hw : 0 ≤ (a3 (ix1 b)).toInt ∧ (a3 (ix1 b)).toInt < 200000)
include hw

/-- the wrapped start index is the target word itself: the word is not negative, so the bank's size is not added -/
theorem wrapR_apply : wrapR a3 (ix3 b (0 : Fin 1) (0 : Fin 1)) = a3 (ix1 b) := by
  unfold wrapR
  rw [shapeCast_apply _ shapeCasts_S64x1_S64x1x1 (ix3 b (0 : Fin 1) (0 : Fin 1)) (ix2 b (0 : Fin 1))
    (by rw [Shape.rowMajor_val_two, Shape.rowMajor_val_three]
        show b.val * 1 + 0 = (b.val * 1 + 0) * 1 + 0
        omega)]
  rw [select_apply, cmpi_apply, bcastVec_apply, bcastScalar_apply]
  have hn : ¬ IntOp.cmpi .slt (a3 (ix1 b)) (constantI S_ 32 0#32 ix0) = 1#1 := fun e => by
    have h := IntOp.cmpi_slt.1 e
    rw [show constantI S_ 32 0#32 ix0 = 0#32 from rfl, Cert.PreFacts.toInt_lower] at h
    omega
  exact if_neg hn

/-- the range test answers 1: the word is at least 0 and at most 199999, and the reduction by "and" from the word 1
    over the one start-index component meets only that 1 -/
theorem inRangeR_apply : inRangeR a3 (ix2 b (0 : Fin 1)) = 1#1 := by
  unfold inRangeR
  have hred : S64x1x1.Reduces [2] S64x1 := by decide
  rw [Host.reduce_eq_fold_single IntOp.andi _ _ reducesTo_S64x1x1_S64x1_d2 hred h_S_ (ix2 b (0 : Fin 1))]
  refine fold_andi_one _ _ fun k _ => ?_
  have hk : hred.lift (ix2 b (0 : Fin 1)) k = ix3 b (0 : Fin 1) (0 : Fin 1) :=
    funext fun c => Fin.ext (by
      match c with
      | ⟨0, _⟩ => rfl
      | ⟨1, _⟩ => rfl
      | ⟨2, _⟩ => have : k.val < 1 := k.isLt; show k.val = 0; omega)
  rw [Function.comp_apply, hk, andi_apply, cmpi_apply, cmpi_apply, wrapR_apply a3 b hw]
  refine IntOp.andi_eq_one.2 ⟨IntOp.cmpi_sge.2 ?_, IntOp.cmpi_sle.2 ?_⟩
  · rw [bcastScalar_apply]
    show (0#32 : BitVec 32).toInt ≤ _
    rw [Cert.PreFacts.toInt_lower]; exact hw.1
  · show _ ≤ (199999#32 : BitVec 32).toInt
    rw [toInt_last]; omega

end Word

/-! ## The value -/

/-- a word in range, read signed and clamped to the last column, is its own column -/
theorem clamp_eq_col (w : BitVec 32) (h : 0 ≤ w.toInt ∧ w.toInt < 200000)
    (hlt : min w.toInt.toNat (200000 - 1) < 200000) :
    (⟨min w.toInt.toNat (200000 - 1), hlt⟩ : Fin 200000) = Cert.Spec.col w := by
  obtain ⟨_, hm⟩ := Cert.PreFacts.toNat_lt_of_range w h
  have hc := BitVec.toInt_eq_toNat_cond w
  have hi : w.toInt = (w.toNat : ℤ) := by split at hc <;> omega
  refine Fin.ext ?_
  show min w.toInt.toNat (200000 - 1) = w.toNat % 200000
  rw [hm]
  omega

/-- THE VALUE: under the precondition, row b's entry is the specification's cross-entropy. The range test holds, so the
    gathered entry is selected; the gather reads the log-softmax at the target's column; and the negation of
    "logit less maximum less logarithm of the sum" is "maximum plus logarithm of the sum less logit". -/
theorem ceR_eq (a0 : FVec Ideal S64x256 .f32) (a1 : FVec Ideal S64 .f32) (a2 : FVec Ideal S200000x256 .f32) (a3 : IVec S64 32)
    (hg : Cert.PreFacts.Good a0 a1 a2 a3) (b : Fin 64) :
    ceR a0 a2 a3 (ValueIdx.ix1 b) = ((Cert.Common.ceRow (xnR a0) a2 a3 b : ℝ) : EReal) := by
  have h0 := xnR_real a0 hg.real0
  have h2 := hg.real2
  have hw := hg.range3 (ix1 b)
  unfold ceR
  rw [hostNegf_apply, shapeCast_apply _ shapeCasts_S64x1_S64 (ix1 b) (ix2 b (0 : Fin 1))
    (by rw [Shape.rowMajor_val_two, Shape.rowMajor_val_one]
        show b.val * 1 + 0 = b.val
        omega)]
  rw [select_apply, inRangeR_apply a3 b hw, select_one, gather_apply]
  simp only [wrapR_apply a3 b hw]
  rw [clamp_eq_col _ hw, logpR_coe a0 a2 h0 h2, ← EReal.coe_neg]
  unfold Cert.Common.ceRow Cert.Spec.ce
  congr 1
  ring

end Cert.ReferenceIdeal.RefValue

end
-- ==== Proof.lean ====
/-
  The claim, assembled.

  The kernel streams the 200000-row memory bank once, in two halves of twenty tiles, keeping per batch row a running
  maximum of the logits, the sum of their exponentials shifted by that maximum, and the logit at the row's target; the
  host then merges the two halves into the log-sum-exp and subtracts the target logit. The reference takes the
  log-softmax of all 200000 logits at once and reads it at the target. Over the real numbers the two are one function:
  rescaling a sum of exponentials from one shift to another multiplies it by the exponential of the difference, and
  the maximum and the sums of a union of tiles are the maximum and the sum of the tiles' own. The logits agree because
  the kernel's scale, the named constant, denotes exactly the reciprocal of the reference's divisor. The second result,
  the bank with the targets' rows replaced by their renormalised momentum update, is the same scatter on both sides:
  the kernel passes the bank through its pallas_call unchanged and applies the reference's own host operations to it.
  Every law used needs the logits to be real numbers, which the precondition gives (finite inputs), and the target
  words to index the bank (the added range conjunct).
-/
import proofs.«403753_j46050639347844_2_alg».proof.Defs
import proofs.«403753_j46050639347844_2_alg».proof.Proof.Gen.Kernel
import proofs.«403753_j46050639347844_2_alg».proof.Proof.Gen.KernelIdeal
import proofs.«403753_j46050639347844_2_alg».proof.Proof.Gen.ReferenceIdeal
import proofs.«403753_j46050639347844_2_alg».proof.Proof.Gen.Pre_finite_inputs
import proofs.«403753_j46050639347844_2_alg».proof.Proof.K.Frame
import proofs.«403753_j46050639347844_2_alg».proof.Proof.KI.Frame
import proofs.«403753_j46050639347844_2_alg».proof.Proof.KBridge
import proofs.«403753_j46050639347844_2_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Fr.frame (F := Bits) m ρ

theorem frame_ki : Cert.frame_KernelIdeal := fun m ρ _ => Cert.KernelIdeal.Fr.frame (F := Ideal) m ρ

/-- The reference has no kernel: its frame is its run with the results dropped. -/
theorem frame_r : Cert.frame_ReferenceIdeal := fun m ρ _ =>
  (θ_run Cert.ReferenceIdeal.defs _ _).mono (fun _ h c => (h c).2.2) (Cert.ReferenceIdeal.ValueP.run (F := Ideal) m ρ)

/-! ## The idealization -/

/-- The one rewrite of the ideal pass: the kernel's scale `20.0` is named, and the name denotes `268435456 / 13421773`,
    the reciprocal of the single-precision number nearest `0.05` by which the reference divides. -/
theorem preserves : Cert.preserves_Kernel_KernelIdeal :=
  IdealRules.named_const.statement Cert.KernelIdeal.κ "fold_c_268435456_13421773" .f32 0x41A00000#32
    ((268435456 / 13421773 : ℝ) : EReal) rfl

/-! ## The two programs compute one function -/

/-- Both programs normalise the queries by the same six host operations. -/
theorem xn_eq (a0 : FVec Ideal Cert.KernelIdeal.S64x256 .f32) :
    Cert.KernelIdeal.Res.xnK a0 = Cert.ReferenceIdeal.RefValue.xnR a0 := rfl

theorem algebraic : Cert.algebraic_KernelIdeal_ReferenceIdeal := by
  intro m ρ m' ρ' hpre hagree
  have hg := fun c => Cert.PreFacts.good_of_pre _ _ _ _ (hpre c)
  -- the kernel's per-row loss is the specification's, on every core
  have hok : ∀ c, Cert.KernelIdeal.Inv.Ok m c := fun c =>
    Cert.KernelIdeal.Bridge.ok_of m c
      (by rw [xn_eq]; exact Cert.ReferenceIdeal.RefValue.xnR_real _ (hg c).real0)
      (hg c).real2 (hg c).range3
  -- the two results: what the host lines after the region leave at the two result references
  refine ⟨fun c => Pipeline.afterTail₀ Cert.KernelIdeal.cfgs (Cert.KernelIdeal.Fr.dats m) 0 (Cert.KernelIdeal.Fr.V0 m)
            [Cert.KernelIdeal.Gen.hostOps1, Cert.KernelIdeal.Gen.hostOps1_1, Cert.KernelIdeal.Gen.hostOps1_2] c Cert.KernelIdeal.main_v33,
          fun c => Pipeline.afterTail₀ Cert.KernelIdeal.cfgs (Cert.KernelIdeal.Fr.dats m) 0 (Cert.KernelIdeal.Fr.V0 m)
            [Cert.KernelIdeal.Gen.hostOps1, Cert.KernelIdeal.Gen.hostOps1_1, Cert.KernelIdeal.Gen.hostOps1_2] c Cert.KernelIdeal.main_v60,
          Cert.KernelIdeal.Fr.run_results (F := Ideal) m ρ, ?reference⟩
  case reference =>
    refine (θ_run Cert.ReferenceIdeal.defs _ _).mono (fun r h c => ?_) (Cert.ReferenceIdeal.ValueP.run (F := Ideal) m' ρ')
    obtain ⟨h0, h1, ha0, ha1, ha2, ha3⟩ := h c
    obtain ⟨e0, e1, e2, e3⟩ := hagree c
    refine ⟨h0.trans ?_, h1.trans ?_, ha0, ha1, ha2, ha3⟩
    · -- the loss: the same weighted sum of per-row losses that agree row by row
      beta_reduce
      rw [Cert.KernelIdeal.Res.res0 m c, Cert.ReferenceIdeal.RefValue.res_out0_eq, e0, e1, e2, e3]
      have hce : Cert.ReferenceIdeal.RefValue.ceR (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
          = Cert.KernelIdeal.Tail.ceK ((Cert.KernelIdeal.Fr.dats m 0 c).arrAt 4 Cert.KernelIdeal.cfg0.N)
              ((Cert.KernelIdeal.Fr.dats m 0 c).arrAt 5 Cert.KernelIdeal.cfg0.N) ((Cert.KernelIdeal.Fr.dats m 0 c).arrAt 6 Cert.KernelIdeal.cfg0.N) := by
        funext i
        obtain ⟨b, rfl⟩ : ∃ b : Fin 64, i = ValueIdx.ix1 b := ⟨i 0, ValueIdx.eq_ix1 i⟩
        rw [Cert.ReferenceIdeal.RefValue.ceR_eq _ _ _ _ (hg c) b, Cert.KernelIdeal.Bridge.ceK_value m c (hok c) b, xn_eq]
      rw [hce]
    · -- the bank: one scatter, into the bank the pallas_call passed through unchanged
      have h3 : (Cert.KernelIdeal.Fr.dats m 0 c).arrAt 3 Cert.KernelIdeal.cfg0.N
          = m ((c.tc : Thread Cert.KernelIdeal.nD Cert.KernelIdeal.τ).loc Cert.KernelIdeal.main_arg2) := by
        funext i
        exact (Cert.KernelIdeal.Inv.arr3 m c i).trans (congrFun (Cert.KernelIdeal.Res.V_main_arg2 m c) i)
      beta_reduce
      rw [Cert.KernelIdeal.Res.res1 m c, h3]
      unfold Cert.ReferenceIdeal.ValueP.res_main_v41
      rw [e0, e1, e2, e3]
      rfl

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
